-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x1024x6 : Shape := ⟨3, ![64, 1024, 6]⟩
abbrev S256x8 : Shape := ⟨2, ![256, 8]⟩
abbrev S256x256 : Shape := ⟨2, ![256, 256]⟩
abbrev S6x256 : Shape := ⟨2, ![6, 256]⟩
abbrev S256 : Shape := ⟨1, ![256]⟩
abbrev S6 : Shape := ⟨1, ![6]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x1024x6 : S_.BroadcastsInDim S64x1024x6 (![] : Fin 0 → Fin S64x1024x6.rank)
  reducesTo_S64x1024x6_S_d0_1_2 : S64x1024x6.ReducesTo [0, 1, 2] S_
  bcast_S_S256x8 : S_.BroadcastsInDim S256x8 (![] : Fin 0 → Fin S256x8.rank)
  reducesTo_S256x8_S_d0_1 : S256x8.ReducesTo [0, 1] S_
  bcast_S_S256x256 : S_.BroadcastsInDim S256x256 (![] : Fin 0 → Fin S256x256.rank)
  reducesTo_S256x256_S_d0_1 : S256x256.ReducesTo [0, 1] S_
  bcast_S_S6x256 : S_.BroadcastsInDim S6x256 (![] : Fin 0 → Fin S6x256.rank)
  reducesTo_S6x256_S_d0_1 : S6x256.ReducesTo [0, 1] S_
  bcast_S_S256 : S_.BroadcastsInDim S256 (![] : Fin 0 → Fin S256.rank)
  reducesTo_S256_S_d0 : S256.ReducesTo [0] S_
  bcast_S_S6 : S_.BroadcastsInDim S6 (![] : Fin 0 → Fin S6.rank)
  reducesTo_S6_S_d0 : S6.ReducesTo [0] S_

variable [Facts]

def fn_part2 {F : FTy → Type} [FloatOps F] (main_arg7 : FVec F S256 .f32) (main_arg8 : FVec F S256 .f32) (main_arg9 : FVec F S6 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S6 .f32 := Host.absf main_arg9
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  main_v48

def fn_part1 {F : FTy → Type} [FloatOps F] (main_arg4 : FVec F S256x8 .f32) (main_arg5 : FVec F S256x256 .f32) (main_arg6 : FVec F S6x256 .f32) (main_arg7 : FVec F S256 .f32) (main_arg8 : FVec F S256 .f32) (main_arg9 : FVec F S6 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S256x8 .f32 := Host.absf main_arg4
  let main_cst_6 : FVec F S_ .f32 := constant S_ .f32 0x7F800000#32
  let main_v20 : FVec F S256x8 .f32 := broadcastInDim S256x8 ![] bcast_S_S256x8 main_cst_6
  let main_v21 : IVec S256x8 1 := cmpf .olt main_v19 main_v20
  let main_c_7 : IVec S_ 1 := constantI S_ 1 1#1
  let main_v22 : IVec S_ 1 := (fun x v => Host.reduce IntOp.andi x v reducesTo_S256x8_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S6x256 .f32 := Host.absf main_arg6
  let main_cst_10 : FVec F S_ .f32 := constant S_ .f32 0x7F800000#32
  let main_v30 : FVec F S6x256 .f32 := broadcastInDim S6x256 ![] bcast_S_S6x256 main_cst_10
  let main_v31 : IVec S6x256 1 := cmpf .olt main_v29 main_v30
  let main_c_11 : IVec S_ 1 := constantI S_ 1 1#1
  let main_v32 : IVec S_ 1 := (fun x v => Host.reduce IntOp.andi x v reducesTo_S6x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x1024 .f32) (main_arg1 : FVec F S64x1024x6 .f32) (main_arg2 : FVec F S64x1024 .f32) (main_arg3 : FVec F S64x1024 .f32) (main_arg4 : FVec F S256x8 .f32) (main_arg5 : FVec F S256x256 .f32) (main_arg6 : FVec F S6x256 .f32) (main_arg7 : FVec F S256 .f32) (main_arg8 : FVec F S256 .f32) (main_arg9 : FVec F S6 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024x6 .f32 := Host.absf main_arg1
  let main_cst_0 : FVec F S_ .f32 := constant S_ .f32 0x7F800000#32
  let main_v5 : FVec F S64x1024x6 .f32 := broadcastInDim S64x1024x6 ![] bcast_S_S64x1024x6 main_cst_0
  let main_v6 : IVec S64x1024x6 1 := cmpf .olt main_v4 main_v5
  let main_c_1 : IVec S_ 1 := constantI S_ 1 1#1
  let main_v7 : IVec S_ 1 := (fun x v => Host.reduce IntOp.andi x v reducesTo_S64x1024x6_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_v13 main_v16
-- ==== Kernel.lean ====
abbrev S64x1024 : Shape := ⟨2, ![64, 1024]⟩
abbrev S64x1024x6 : Shape := ⟨3, ![64, 1024, 6]⟩
abbrev S256x8 : Shape := ⟨2, ![256, 8]⟩
abbrev S256x256 : Shape := ⟨2, ![256, 256]⟩
abbrev S6x256 : Shape := ⟨2, ![6, 256]⟩
abbrev S256 : Shape := ⟨1, ![256]⟩
abbrev S6 : Shape := ⟨1, ![6]⟩
abbrev S64x1024x1 : Shape := ⟨3, ![64, 1024, 1]⟩
abbrev S64x1024x8 : Shape := ⟨3, ![64, 1024, 8]⟩
abbrev S65536x8 : Shape := ⟨2, ![65536, 8]⟩
abbrev S65536x6 : Shape := ⟨2, ![65536, 6]⟩
abbrev S65536x6x6 : Shape := ⟨3, ![65536, 6, 6]⟩
abbrev S1024x8 : Shape := ⟨2, ![1024, 8]⟩
abbrev S1024x6 : Shape := ⟨2, ![1024, 6]⟩
abbrev S1024x6x6 : Shape := ⟨3, ![1024, 6, 6]⟩
abbrev S8x256 : Shape := ⟨2, ![8, 256]⟩
abbrev S1024x256 : Shape := ⟨2, ![1024, 256]⟩
abbrev S1x256 : Shape := ⟨2, ![1, 256]⟩
abbrev S256x6 : Shape := ⟨2, ![256, 6]⟩
abbrev S1x6 : Shape := ⟨2, ![1, 6]⟩
abbrev S1024x1x6 : Shape := ⟨3, ![1024, 1, 6]⟩
abbrev S1024x1 : Shape := ⟨2, ![1024, 1]⟩
abbrev S1024 : Shape := ⟨1, ![1024]⟩
abbrev S64x1024x6x6 : Shape := ⟨4, ![64, 1024, 6, 6]⟩

abbrev nBuf : Space → Nat
  | .hbm => 22
  | .vmem => 16
  | .smem => 0
  | _ => 0

abbrev bufTy : (tb : Table) → Fin (tcTables nBuf tb) → BufTy
  | .hbm, ⟨0, _⟩ => ⟨S64x1024, .f32⟩
  | .hbm, ⟨1, _⟩ => ⟨S64x1024x6, .f32⟩
  | .hbm, ⟨2, _⟩ => ⟨S64x1024, .f32⟩
  | .hbm, ⟨3, _⟩ => ⟨S64x1024, .f32⟩
  | .hbm, ⟨4, _⟩ => ⟨S256x8, .f32⟩
  | .hbm, ⟨5, _⟩ => ⟨S256x256, .f32⟩
  | .hbm, ⟨6, _⟩ => ⟨S6x256, .f32⟩
  | .hbm, ⟨7, _⟩ => ⟨S256, .f32⟩
  | .hbm, ⟨8, _⟩ => ⟨S256, .f32⟩
  | .hbm, ⟨9, _⟩ => ⟨S6, .f32⟩
  | .hbm, ⟨10, _⟩ => ⟨S64x1024x1, .f32⟩
  | .hbm, ⟨11, _⟩ => ⟨S64x1024x1, .f32⟩
  | .hbm, ⟨12, _⟩ => ⟨S64x1024x8, .f32⟩
  | .hbm, ⟨13, _⟩ => ⟨S65536x8, .f32⟩
  | .hbm, ⟨14, _⟩ => ⟨S65536x6, .f32⟩
  | .hbm, ⟨15, _⟩ => ⟨S65536x6x6, .f32⟩
  | .hbm, ⟨16, _⟩ => ⟨S65536x6, .f32⟩
  | .hbm, ⟨17, _⟩ => ⟨S65536x6, .f32⟩
  | .hbm, ⟨18, _⟩ => ⟨S64x1024x6, .f32⟩
  | .hbm, ⟨19, _⟩ => ⟨S64x1024x6x6, .f32⟩
  | .hbm, ⟨20, _⟩ => ⟨S64x1024x6, .f32⟩
  | .hbm, ⟨21, _⟩ => ⟨S64x1024x6, .f32⟩
  | .local _ .vmem, ⟨0, _⟩ => ⟨S1024x8, .f32⟩
  | .local _ .vmem, ⟨1, _⟩ => ⟨S1024x8, .f32⟩
  | .local _ .vmem, ⟨2, _⟩ => ⟨S256x8, .f32⟩
  | .local _ .vmem, ⟨3, _⟩ => ⟨S256x256, .f32⟩
  | .local _ .vmem, ⟨4, _⟩ => ⟨S6x256, .f32⟩
  | .local _ .vmem, ⟨5, _⟩ => ⟨S256, .f32⟩
  | .local _ .vmem, ⟨6, _⟩ => ⟨S256, .f32⟩
  | .local _ .vmem, ⟨7, _⟩ => ⟨S6, .f32⟩
  | .local _ .vmem, ⟨8, _⟩ => ⟨S1024x6, .f32⟩
  | .local _ .vmem, ⟨9, _⟩ => ⟨S1024x6, .f32⟩
  | .local _ .vmem, ⟨10, _⟩ => ⟨S1024x6x6, .f32⟩
  | .local _ .vmem, ⟨11, _⟩ => ⟨S1024x6x6, .f32⟩
  | .local _ .vmem, ⟨12, _⟩ => ⟨S1024x6, .f32⟩
  | .local _ .vmem, ⟨13, _⟩ => ⟨S1024x6, .f32⟩
  | .local _ .vmem, ⟨14, _⟩ => ⟨S1024x6, .f32⟩
  | .local _ .vmem, ⟨15, _⟩ => ⟨S1024x6, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x6 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x6x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x6 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x6 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S64x1024_S64x1024x1_0_1 : S64x1024.BroadcastsInDim S64x1024x1 (![0, 1] : Fin 2 → Fin S64x1024x1.rank)
  concatenates_S64x1024x6_S64x1024x1_S64x1024x1_S64x1024x8_d2 : Shape.Concatenates [S64x1024x6, S64x1024x1, S64x1024x1] S64x1024x8 2
  shapeCasts_S64x1024x8_S65536x8 : S64x1024x8.ShapeCasts S65536x8
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S256x8_S256x8_0_0 : ∀ a, (![0, 0] : Fin 2 → Nat) a + S256x8.size a ≤ S256x8.size a
  h_S256x8 : 0 < S256x8.numel
  inb_S256x256_S256x256_0_0 : ∀ a, (![0, 0] : Fin 2 → Nat) a + S256x256.size a ≤ S256x256.size a
  h_S256x256 : 0 < S256x256.numel
  inb_S6x256_S6x256_0_0 : ∀ a, (![0, 0] : Fin 2 → Nat) a + S6x256.size a ≤ S6x256.size a
  h_S6x256 : 0 < S6x256.numel
  inb_S256_S256_0 : ∀ a, (![0] : Fin 1 → Nat) a + S256.size a ≤ S256.size a
  h_S256 : 0 < S256.numel
  inb_S6_S6_0 : ∀ a, (![0] : Fin 1 → Nat) a + S6.size a ≤ S6.size a
  h_S6 : 0 < S6.numel
  transposes_S256x8_p1_0_S8x256 : S256x8.Transposes [1, 0] S8x256
  shapeCasts_S256_S1x256 : S256.ShapeCasts S1x256
  broadcasts_S1x256_S1024x256 : S1x256.Broadcasts S1024x256
  natLt_1_32 : 1 < 32
  transposes_S256x256_p1_0_S256x256 : S256x256.Transposes [1, 0] S256x256
  transposes_S6x256_p1_0_S256x6 : S6x256.Transposes [1, 0] S256x6
  shapeCasts_S6_S1x6 : S6.ShapeCasts S1x6
  broadcasts_S1x6_S1024x6 : S1x6.Broadcasts S1024x6
  inb_S1024x6_S1024x6_0_0 : ∀ a, (![0, 0] : Fin 2 → Nat) a + S1024x6.size a ≤ S1024x6.size a
  h_S1024x6 : 0 < S1024x6.numel
  slices_S6x256_o0_0_S1x256 : S6x256.Slices ![0, 0] S1x256
  shapeCasts_S1x256_S256 : S1x256.ShapeCasts S256
  slices_S1024x8_o0_0_S1024x6 : S1024x8.Slices ![0, 0] S1024x6
  inb_S1024x6x6_S1024x1x6_0_0_0 : ∀ a, (![0, 0, 0] : Fin 3 → Nat) a + S1024x1x6.size a ≤ S1024x6x6.size a
  h_S1024x1x6 : 0 < S1024x1x6.numel
  shapeCasts_S1024x1x6_S1024x6 : S1024x1x6.ShapeCasts S1024x6
  shapeCasts_S1024x6_S1024x1x6 : S1024x6.ShapeCasts S1024x1x6
  slices_S1024x8_o0_6_S1024x1 : S1024x8.Slices ![0, 6] S1024x1
  shapeCasts_S1024x1_S1024 : S1024x1.ShapeCasts S1024
  inb_S1024x6_S1024x1_0_0 : ∀ a, (![0, 0] : Fin 2 → Nat) a + S1024x1.size a ≤ S1024x6.size a
  h_S1024x1 : 0 < S1024x1.numel
  shapeCasts_S1024_S1024x1 : S1024.ShapeCasts S1024x1
  slices_S1024x8_o0_7_S1024x1 : S1024x8.Slices ![0, 7] S1024x1
  slices_S6x256_o1_0_S1x256 : S6x256.Slices ![1, 0] S1x256
  inb_S1024x6x6_S1024x1x6_0_1_0 : ∀ a, (![0, 1, 0] : Fin 3 → Nat) a + S1024x1x6.size a ≤ S1024x6x6.size a
  inb_S1024x6_S1024x1_0_1 : ∀ a, (![0, 1] : Fin 2 → Nat) a + S1024x1.size a ≤ S1024x6.size a
  slices_S6x256_o2_0_S1x256 : S6x256.Slices ![2, 0] S1x256
  inb_S1024x6x6_S1024x1x6_0_2_0 : ∀ a, (![0, 2, 0] : Fin 3 → Nat) a + S1024x1x6.size a ≤ S1024x6x6.size a
  inb_S1024x6_S1024x1_0_2 : ∀ a, (![0, 2] : Fin 2 → Nat) a + S1024x1.size a ≤ S1024x6.size a
  slices_S6x256_o3_0_S1x256 : S6x256.Slices ![3, 0] S1x256
  inb_S1024x6x6_S1024x1x6_0_3_0 : ∀ a, (![0, 3, 0] : Fin 3 → Nat) a + S1024x1x6.size a ≤ S1024x6x6.size a
  inb_S1024x6_S1024x1_0_3 : ∀ a, (![0, 3] : Fin 2 → Nat) a + S1024x1.size a ≤ S1024x6.size a
  slices_S6x256_o4_0_S1x256 : S6x256.Slices ![4, 0] S1x256
  inb_S1024x6x6_S1024x1x6_0_4_0 : ∀ a, (![0, 4, 0] : Fin 3 → Nat) a + S1024x1x6.size a ≤ S1024x6x6.size a
  inb_S1024x6_S1024x1_0_4 : ∀ a, (![0, 4] : Fin 2 → Nat) a + S1024x1.size a ≤ S1024x6.size a
  slices_S6x256_o5_0_S1x256 : S6x256.Slices ![5, 0] S1x256
  inb_S1024x6x6_S1024x1x6_0_5_0 : ∀ a, (![0, 5, 0] : Fin 3 → Nat) a + S1024x1x6.size a ≤ S1024x6x6.size a
  inb_S1024x6_S1024x1_0_5 : ∀ a, (![0, 5] : Fin 2 → Nat) a + S1024x1.size a ≤ S1024x6.size a
  shapeCasts_S65536x6_S64x1024x6 : S65536x6.ShapeCasts S64x1024x6
  shapeCasts_S65536x6x6_S64x1024x6x6 : S65536x6x6.ShapeCasts S64x1024x6x6
  dot_S1024x8_S8x256_S1024x256_1_0_0_1_n_n_wf : DotDims.WF S1024x8 S8x256 S1024x256 [1] [0] [0] [1] [] []
  dot_S1024x256_S256x256_S1024x256_1_0_0_1_n_n_wf : DotDims.WF S1024x256 S256x256 S1024x256 [1] [0] [0] [1] [] []
  dot_S1024x256_S256x6_S1024x6_1_0_0_1_n_n_wf : DotDims.WF S1024x256 S256x6 S1024x6 [1] [0] [0] [1] [] []
  dot_S1024x256_S256x8_S1024x8_1_0_0_1_n_n_wf : DotDims.WF S1024x256 S256x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S65536x8.size a
  hwx0_0 : ∀ i : grid0.Coords, EltTy.bits .f32 = 32 ∨ (Rect.block (s := S65536x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x256.size a ≤ S6x256.size a
  hwx0_3 : ∀ i : grid0.Coords, EltTy.bits .f32 = 32 ∨ (Rect.block (s := S6x256) S6x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x6.size a ≤ S65536x6.size a
  hwx0_7 : ∀ i : grid0.Coords, EltTy.bits .f32 = 32 ∨ (Rect.block (s := S65536x6) S1024x6.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x6x6.size a ≤ S65536x6x6.size a
  hwx0_8 : ∀ i : grid0.Coords, EltTy.bits .f32 = 32 ∨ (Rect.block (s := S65536x6x6) S1024x6x6.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x6.size a ≤ S65536x6.size a
  hwx0_9 : ∀ i : grid0.Coords, EltTy.bits .f32 = 32 ∨ (Rect.block (s := S65536x6) S1024x6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x6.size a ≤ S65536x6.size a
  hwx0_10 : ∀ i : grid0.Coords, EltTy.bits .f32 = 32 ∨ (Rect.block (s := S65536x6) S1024x6.size (cc0_transform_10 i) (hinb0_10 i)).WholeWords (EltTy.packing .f32)

variable [Facts₀]

def dot_S1024x8_S8x256_S1024x256_1_0_0_1_n_n : DotDims S1024x8 S8x256 S1024x256 where
  lhsContracting := [1]
  rhsContracting := [0]
  lhsNonContracting := [0]
  rhsNonContracting := [1]
  lhsBatch := []
  rhsBatch := []
  wf := dot_S1024x8_S8x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x6_S1024x6_1_0_0_1_n_n : DotDims S1024x256 S256x6 S1024x6 where
  lhsContracting := [1]
  rhsContracting := [0]
  lhsNonContracting := [0]
  rhsNonContracting := [1]
  lhsBatch := []
  rhsBatch := []
  wf := dot_S1024x256_S256x6_S1024x6_1_0_0_1_n_n_wf
def dot_S1024x256_S256x8_S1024x8_1_0_0_1_n_n : DotDims S1024x256 S256x8 S1024x8 where
  lhsContracting := [1]
  rhsContracting := [0]
  lhsNonContracting := [0]
  rhsNonContracting := [1]
  lhsBatch := []
  rhsBatch := []
  wf := dot_S1024x256_S256x8_S1024x8_1_0_0_1_n_n_wf

abbrev win0_0 : Pipeline.Window sig grid0 :=
  Pipeline.Window.ofSpec (Memref.whole main_v3) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S6x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1024x6.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1024x6x6.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1024x6.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_3) S1024x6.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x1024x6 : Shape := ⟨3, ![64, 1024, 6]⟩
abbrev S256x8 : Shape := ⟨2, ![256, 8]⟩
abbrev S256x256 : Shape := ⟨2, ![256, 256]⟩
abbrev S6x256 : Shape := ⟨2, ![6, 256]⟩
abbrev S256 : Shape := ⟨1, ![256]⟩
abbrev S6 : Shape := ⟨1, ![6]⟩
abbrev S64x1024x1 : Shape := ⟨3, ![64, 1024, 1]⟩
abbrev S64x1024x8 : Shape := ⟨3, ![64, 1024, 8]⟩
abbrev S64x1024x256 : Shape := ⟨3, ![64, 1024, 256]⟩
abbrev S1x1x256 : Shape := ⟨3, ![1, 1, 256]⟩
abbrev S_ : Shape := ⟨0, ![]⟩
abbrev S1x1x6 : Shape := ⟨3, ![1, 1, 6]⟩
abbrev S64x1024x1x256 : Shape := ⟨4, ![64, 1024, 1, 256]⟩
abbrev S1x1x6x256 : Shape := ⟨4, ![1, 1, 6, 256]⟩
abbrev S64x1024x6x256 : Shape := ⟨4, ![64, 1024, 6, 256]⟩
abbrev S64x1024x6x8 : Shape := ⟨4, ![64, 1024, 6, 8]⟩
abbrev S64x1024x6x6 : Shape := ⟨4, ![64, 1024, 6, 6]⟩
abbrev S64x1024x6x1 : Shape := ⟨4, ![64, 1024, 6, 1]⟩

abbrev nBuf : Space → Nat
  | .hbm => 54
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024x6, .f32⟩
  | .hbm, ⟨2, _⟩ => ⟨S64x1024, .f32⟩
  | .hbm, ⟨3, _⟩ => ⟨S64x1024, .f32⟩
  | .hbm, ⟨4, _⟩ => ⟨S256x8, .f32⟩
  | .hbm, ⟨5, _⟩ => ⟨S256x256, .f32⟩
  | .hbm, ⟨6, _⟩ => ⟨S6x256, .f32⟩
  | .hbm, ⟨7, _⟩ => ⟨S256, .f32⟩
  | .hbm, ⟨8, _⟩ => ⟨S256, .f32⟩
  | .hbm, ⟨9, _⟩ => ⟨S6, .f32⟩
  | .hbm, ⟨10, _⟩ => ⟨S64x1024x1, .f32⟩
  | .hbm, ⟨11, _⟩ => ⟨S64x1024x1, .f32⟩
  | .hbm, ⟨12, _⟩ => ⟨S64x1024x8, .f32⟩
  | .hbm, ⟨13, _⟩ => ⟨S64x1024x256, .f32⟩
  | .hbm, ⟨14, _⟩ => ⟨S1x1x256, .f32⟩
  | .hbm, ⟨15, _⟩ => ⟨S64x1024x256, .f32⟩
  | .hbm, ⟨16, _⟩ => ⟨S64x1024x256, .f32⟩
  | .hbm, ⟨17, _⟩ => ⟨S_, .f32⟩
  | .hbm, ⟨18, _⟩ => ⟨S64x1024x256, .f32⟩
  | .hbm, ⟨19, _⟩ => ⟨S64x1024x256, .f32⟩
  | .hbm, ⟨20, _⟩ => ⟨S64x1024x256, .f32⟩
  | .hbm, ⟨21, _⟩ => ⟨S1x1x256, .f32⟩
  | .hbm, ⟨22, _⟩ => ⟨S64x1024x256, .f32⟩
  | .hbm, ⟨23, _⟩ => ⟨S64x1024x256, .f32⟩
  | .hbm, ⟨24, _⟩ => ⟨S_, .f32⟩
  | .hbm, ⟨25, _⟩ => ⟨S64x1024x256, .f32⟩
  | .hbm, ⟨26, _⟩ => ⟨S64x1024x256, .f32⟩
  | .hbm, ⟨27, _⟩ => ⟨S64x1024x6, .f32⟩
  | .hbm, ⟨28, _⟩ => ⟨S1x1x6, .f32⟩
  | .hbm, ⟨29, _⟩ => ⟨S64x1024x6, .f32⟩
  | .hbm, ⟨30, _⟩ => ⟨S64x1024x6, .f32⟩
  | .hbm, ⟨31, _⟩ => ⟨S_, .f32⟩
  | .hbm, ⟨32, _⟩ => ⟨S64x1024x256, .f32⟩
  | .hbm, ⟨33, _⟩ => ⟨S64x1024x256, .i1⟩
  | .hbm, ⟨34, _⟩ => ⟨S64x1024x256, .f32⟩
  | .hbm, ⟨35, _⟩ => ⟨S_, .f32⟩
  | .hbm, ⟨36, _⟩ => ⟨S64x1024x256, .f32⟩
  | .hbm, ⟨37, _⟩ => ⟨S64x1024x256, .i1⟩
  | .hbm, ⟨38, _⟩ => ⟨S64x1024x256, .f32⟩
  | .hbm, ⟨39, _⟩ => ⟨S64x1024x1x256, .f32⟩
  | .hbm, ⟨40, _⟩ => ⟨S1x1x6x256, .f32⟩
  | .hbm, ⟨41, _⟩ => ⟨S64x1024x6x256, .f32⟩
  | .hbm, ⟨42, _⟩ => ⟨S64x1024x6x256, .f32⟩
  | .hbm, ⟨43, _⟩ => ⟨S64x1024x6x256, .f32⟩
  | .hbm, ⟨44, _⟩ => ⟨S64x1024x6x256, .f32⟩
  | .hbm, ⟨45, _⟩ => ⟨S64x1024x1x256, .f32⟩
  | .hbm, ⟨46, _⟩ => ⟨S64x1024x6x256, .f32⟩
  | .hbm, ⟨47, _⟩ => ⟨S64x1024x6x256, .f32⟩
  | .hbm, ⟨48, _⟩ => ⟨S64x1024x6x8, .f32⟩
  | .hbm, ⟨49, _⟩ => ⟨S64x1024x6x6, .f32⟩
  | .hbm, ⟨50, _⟩ => ⟨S64x1024x6x1, .f32⟩
  | .hbm, ⟨51, _⟩ => ⟨S64x1024x6, .f32⟩
  | .hbm, ⟨52, _⟩ => ⟨S64x1024x6x1, .f32⟩
  | .hbm, ⟨53, _⟩ => ⟨S64x1024x6, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_cst : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call1_cst : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S64x1024_S64x1024x1_0_1 : S64x1024.BroadcastsInDim S64x1024x1 (![0, 1] : Fin 2 → Fin S64x1024x1.rank)
  concatenates_S64x1024x6_S64x1024x1_S64x1024x1_S64x1024x8_d2 : Shape.Concatenates [S64x1024x6, S64x1024x1, S64x1024x1] S64x1024x8 2
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S_S64x1024x256 : S_.BroadcastsInDim S64x1024x256 (![] : Fin 0 → Fin S64x1024x256.rank)
  bcast_S6_S1x1x6_2 : S6.BroadcastsInDim S1x1x6 (![2] : Fin 1 → Fin S1x1x6.rank)
  bcast_S1x1x6_S64x1024x6_0_1_2 : S1x1x6.BroadcastsInDim S64x1024x6 (![0, 1, 2] : Fin 3 → Fin S64x1024x6.rank)
  bcast_S64x1024x256_S64x1024x1x256_0_1_3 : S64x1024x256.BroadcastsInDim S64x1024x1x256 (![0, 1, 3] : Fin 3 → Fin S64x1024x1x256.rank)
  bcast_S6x256_S1x1x6x256_2_3 : S6x256.BroadcastsInDim S1x1x6x256 (![2, 3] : Fin 2 → Fin S1x1x6x256.rank)
  bcast_S1x1x6x256_S64x1024x6x256_0_1_2_3 : S1x1x6x256.BroadcastsInDim S64x1024x6x256 (![0, 1, 2, 3] : Fin 4 → Fin S64x1024x6x256.rank)
  bcast_S64x1024x1x256_S64x1024x6x256_0_1_2_3 : S64x1024x1x256.BroadcastsInDim S64x1024x6x256 (![0, 1, 2, 3] : Fin 4 → Fin S64x1024x6x256.rank)
  slices_S64x1024x6x8_S64x1024x6x6_0_0_0_0 : S64x1024x6x8.Slices ![0, 0, 0, 0] S64x1024x6x6
  slices_S64x1024x6x8_S64x1024x6x1_0_0_0_6 : S64x1024x6x8.Slices ![0, 0, 0, 6] S64x1024x6x1
  shapeCasts_S64x1024x6x1_S64x1024x6 : S64x1024x6x1.ShapeCasts S64x1024x6
  slices_S64x1024x6x8_S64x1024x6x1_0_0_0_7 : S64x1024x6x8.Slices ![0, 0, 0, 7] S64x1024x6x1
  dot_S64x1024x8_S256x8_S64x1024x256_2_1_01_0_n_n_wf : DotDims.WF S64x1024x8 S256x8 S64x1024x256 [2] [1] [0, 1] [0] [] []
  dot_S64x1024x256_S256x256_S64x1024x256_2_1_01_0_n_n_wf : DotDims.WF S64x1024x256 S256x256 S64x1024x256 [2] [1] [0, 1] [0] [] []
  dot_S64x1024x256_S6x256_S64x1024x6_2_1_01_0_n_n_wf : DotDims.WF S64x1024x256 S6x256 S64x1024x6 [2] [1] [0, 1] [0] [] []
  dot_S64x1024x6x256_S256x256_S64x1024x6x256_3_0_012_1_n_n_wf : DotDims.WF S64x1024x6x256 S256x256 S64x1024x6x256 [3] [0] [0, 1, 2] [1] [] []
  dot_S64x1024x6x256_S256x8_S64x1024x6x8_3_0_012_1_n_n_wf : DotDims.WF S64x1024x6x256 S256x8 S64x1024x6x8 [3] [0] [0, 1, 2] [1] [] []

variable [Facts₀]

def dot_S64x1024x8_S256x8_S64x1024x256_2_1_01_0_n_n : DotDims S64x1024x8 S256x8 S64x1024x256 where
  lhsContracting := [2]
  rhsContracting := [1]
  lhsNonContracting := [0, 1]
  rhsNonContracting := [0]
  lhsBatch := []
  rhsBatch := []
  wf := dot_S64x1024x8_S256x8_S64x1024x256_2_1_01_0_n_n_wf
def dot_S64x1024x256_S256x256_S64x1024x256_2_1_01_0_n_n : DotDims S64x1024x256 S256x256 S64x1024x256 where
  lhsContracting := [2]
  rhsContracting := [1]
  lhsNonContracting := [0, 1]
  rhsNonContracting := [0]
  lhsBatch := []
  rhsBatch := []
  wf := dot_S64x1024x256_S256x256_S64x1024x256_2_1_01_0_n_n_wf
def dot_S64x1024x256_S6x256_S64x1024x6_2_1_01_0_n_n : DotDims S64x1024x256 S6x256 S64x1024x6 where
  lhsContracting := [2]
  rhsContracting := [1]
  lhsNonContracting := [0, 1]
  rhsNonContracting := [0]
  lhsBatch := []
  rhsBatch := []
  wf := dot_S64x1024x256_S6x256_S64x1024x6_2_1_01_0_n_n_wf
def dot_S64x1024x6x256_S256x256_S64x1024x6x256_3_0_012_1_n_n : DotDims S64x1024x6x256 S256x256 S64x1024x6x256 where
  lhsContracting := [3]
  rhsContracting := [0]
  lhsNonContracting := [0, 1, 2]
  rhsNonContracting := [1]
  lhsBatch := []
  rhsBatch := []
  wf := dot_S64x1024x6x256_S256x256_S64x1024x6x256_3_0_012_1_n_n_wf
def dot_S64x1024x6x256_S256x8_S64x1024x6x8_3_0_012_1_n_n : DotDims S64x1024x6x256 S256x8 S64x1024x6x8 where
  lhsContracting := [3]
  rhsContracting := [0]
  lhsNonContracting := [0, 1, 2]
  rhsNonContracting := [1]
  lhsBatch := []
  rhsBatch := []
  wf := dot_S64x1024x6x256_S256x8_S64x1024x6x8_3_0_012_1_n_n_wf

class Facts : Prop extends Facts₀ where

variable [Facts]
-- ==== Proof.KernelHost.lean ====
/-
  @main around its one region. Before the region the host builds the array of input rows: the
  strain rate and the temperature each gain a trailing axis of length one, are joined to the six
  state entries along the last axis, and the `[64, 1024, 8]` result is re-read as `[65536, 8]`. After
  the region four reshapes re-read the results' leading axis of 65536 rows as `[64, 1024]`. None of
  these writes an argument array, and none after the region writes an array the region stages, so
  every argument is found by the region, and left at the end, as launched.
  Here: the buffer contents at the region's entry (`V`), @main as "host lines, region, host lines",
  each argument array before and after, each window's block at a grid point, and that an input
  window's staging buffer holds that block at every point, fetched there or carried over.
-/
import proofs.«163359_j55155970015481_1_alg».proof.Proof.Gen.Kernel.Launch
import proofs.«163359_j55155970015481_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- The buffer contents on core `c` when the region is entered: the launch contents with the host's
    four results (the two widened columns, the joined rows, their re-reading as `[65536, 8]`) in place. -/
abbrev V0 (c : Dev nD) : Valuation τ sig (Elt F) := StableHlo.after (List.flatten [hostOps0]) (fun b => m (c, b))
/-- The same, read at a buffer. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the four reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-! ## The argument arrays, before and after the region -/

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- What a buffer that bypasses the region holds after the four reshapes, for any proof data. -/
abbrev tailV (dats : (p : Fin 1) → (c : Dev nD) → Dat τ (Elt F) Unit ℕ (UR sig nD τ) ℕ (cfgs p) c) :=
  Pipeline.afterTail₀ cfgs dats 0 (V0 m) [hostOps1]

/-- No reshape after the region writes argument 0, and the region does not stage it. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No reshape after the region writes argument 1, and the region does not stage it. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No reshape after the region writes argument 2, and the region does not stage it. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No reshape after the region writes argument 3, and the region does not stage it. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point: it is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point: fetched at the first point, and its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point: fetched at the first point, and its block index never moves. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point: fetched at the first point, and its block index never moves. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point: fetched at the first point, and its block index never moves. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point: fetched at the first point, and its block index never moves. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point: fetched at the first point, and its block index never moves. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.KernelBody.lean ====
/-
  The kernel body on one block of 1024 input rows. It loads the block, the three weight matrices
  and the three biases whole, and stores: the rates `[1024, 6]` in one piece; the state Jacobian
  `[1024, 6, 6]` in six pieces, one output row `[:, i, :]` at a time; the strain-rate column and the
  temperature column of the Jacobian, each `[1024, 6]`, in six pieces `[:, i]`. Each output buffer is
  therefore the patchwork of its stores (its pieces tile it), every stored value a function of the
  seven loaded arrays alone; the body also reads each output piece before overwriting it, and uses
  none of what it read. Here: those four patchworks, that their pieces cover, and the body's run.
-/
import proofs.«163359_j55155970015481_1_alg».proof.Proof.Gen.Kernel.Skeleton
import proofs.«163359_j55155970015481_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rX : Rect S1024x8 := Rect.unit (s := S1024x8) ![0, 0] S1024x8.size inb_S1024x8_S1024x8_0_0
abbrev rW1 : Rect S256x8 := Rect.unit (s := S256x8) ![0, 0] S256x8.size inb_S256x8_S256x8_0_0
abbrev rW2 : Rect S256x256 := Rect.unit (s := S256x256) ![0, 0] S256x256.size inb_S256x256_S256x256_0_0
abbrev rW3 : Rect S6x256 := Rect.unit (s := S6x256) ![0, 0] S6x256.size inb_S6x256_S6x256_0_0
abbrev rB : Rect S256 := Rect.unit (s := S256) ![0] S256.size inb_S256_S256_0
abbrev rB3 : Rect S6 := Rect.unit (s := S6) ![0] S6.size inb_S6_S6_0
abbrev rY : Rect S1024x6 := Rect.unit (s := S1024x6) ![0, 0] S1024x6.size inb_S1024x6_S1024x6_0_0
abbrev rS0 : Rect S1024x6x6 := Rect.unit (s := S1024x6x6) ![0, 0, 0] S1024x1x6.size inb_S1024x6x6_S1024x1x6_0_0_0
abbrev rS1 : Rect S1024x6x6 := Rect.unit (s := S1024x6x6) ![0, 1, 0] S1024x1x6.size inb_S1024x6x6_S1024x1x6_0_1_0
abbrev rS2 : Rect S1024x6x6 := Rect.unit (s := S1024x6x6) ![0, 2, 0] S1024x1x6.size inb_S1024x6x6_S1024x1x6_0_2_0
abbrev rS3 : Rect S1024x6x6 := Rect.unit (s := S1024x6x6) ![0, 3, 0] S1024x1x6.size inb_S1024x6x6_S1024x1x6_0_3_0
abbrev rS4 : Rect S1024x6x6 := Rect.unit (s := S1024x6x6) ![0, 4, 0] S1024x1x6.size inb_S1024x6x6_S1024x1x6_0_4_0
abbrev rS5 : Rect S1024x6x6 := Rect.unit (s := S1024x6x6) ![0, 5, 0] S1024x1x6.size inb_S1024x6x6_S1024x1x6_0_5_0
abbrev rC0 : Rect S1024x6 := Rect.unit (s := S1024x6) ![0, 0] S1024x1.size inb_S1024x6_S1024x1_0_0
abbrev rC1 : Rect S1024x6 := Rect.unit (s := S1024x6) ![0, 1] S1024x1.size inb_S1024x6_S1024x1_0_1
abbrev rC2 : Rect S1024x6 := Rect.unit (s := S1024x6) ![0, 2] S1024x1.size inb_S1024x6_S1024x1_0_2
abbrev rC3 : Rect S1024x6 := Rect.unit (s := S1024x6) ![0, 3] S1024x1.size inb_S1024x6_S1024x1_0_3
abbrev rC4 : Rect S1024x6 := Rect.unit (s := S1024x6) ![0, 4] S1024x1.size inb_S1024x6_S1024x1_0_4
abbrev rC5 : Rect S1024x6 := Rect.unit (s := S1024x6) ![0, 5] S1024x1.size inb_S1024x6_S1024x1_0_5

/-! ## What the body leaves in each output buffer: its stores as pieces, the last store first -/

/-- The rates' buffer: one piece. -/
def outRate (x0 : Vec F S1024x8 .f32) (x1 : Vec F S256x8 .f32) (x2 : Vec F S256x256 .f32) (x3 : Vec F S6x256 .f32) (x4 x5 : Vec F S256 .f32) (x6 : Vec F S6 .f32) : Vec F S1024x6 .f32 :=
  View.canon [⟨rY, k0_pay8 (View.ld x0 rX) (View.ld x1 rW1) (View.ld x2 rW2) (View.ld x3 rW3) (View.ld x4 rB) (View.ld x5 rB) (View.ld x6 rB3)⟩]

/-- The state Jacobian's buffer: output rows 5, 4, …, 0. -/
def outState (x0 : Vec F S1024x8 .f32) (x1 : Vec F S256x8 .f32) (x2 : Vec F S256x256 .f32) (x3 : Vec F S6x256 .f32) (x4 x5 : Vec F S256 .f32) (x6 : Vec F S6 .f32) : Vec F S1024x6x6 .f32 :=
  View.canon [⟨rS5, k0_pay1 (k0_pay33 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rS4, k0_pay29 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS3, k0_pay24 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS2, k0_pay20 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS1, k0_pay15 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS0, k0_pay11 (View.ld x1 rW1) (View.ld x2 rW2) (k0_pay5 (View.ld x0 rX) (View.ld x1 rW1) (View.ld x4 rB)) (k0_pay9 (View.ld x0 rX) (View.ld x1 rW1) (View.ld x2 rW2) (View.ld x3 rW3) (View.ld x4 rB) (View.ld x5 rB)) (constant S1024x256 .f32 0x00000000#32)⟩]

/-- The strain-rate column's buffer: entries 5, 4, …, 0. -/
def outRateCol (x0 : Vec F S1024x8 .f32) (x1 : Vec F S256x8 .f32) (x2 : Vec F S256x256 .f32) (x3 : Vec F S6x256 .f32) (x4 x5 : Vec F S256 .f32) (x6 : Vec F S6 .f32) : Vec F S1024x6 .f32 :=
  View.canon [⟨rC5, k0_pay2 (k0_pay32 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC4, k0_pay30 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC3, k0_pay26 (k0_pay25 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC2, k0_pay21 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC1, k0_pay16 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC0, k0_pay12 (View.ld x1 rW1) (View.ld x2 rW2) (k0_pay5 (View.ld x0 rX) (View.ld x1 rW1) (View.ld x4 rB)) (k0_pay9 (View.ld x0 rX) (View.ld x1 rW1) (View.ld x2 rW2) (View.ld x3 rW3) (View.ld x4 rB) (View.ld x5 rB)) (constant S1024x256 .f32 0x00000000#32)⟩]

/-- The temperature column's buffer: entries 5, 4, …, 0. -/
def outTempCol (x0 : Vec F S1024x8 .f32) (x1 : Vec F S256x8 .f32) (x2 : Vec F S256x256 .f32) (x3 : Vec F S6x256 .f32) (x4 x5 : Vec F S256 .f32) (x6 : Vec F S6 .f32) : Vec F S1024x6 .f32 :=
  View.canon [⟨rC5, k0_pay3 (k0_pay32 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC4, k0_pay31 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC3, k0_pay27 (k0_pay23 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC2, k0_pay22 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC1, k0_pay18 (k0_pay17 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC0, k0_pay13 (View.ld x1 rW1) (View.ld x2 rW2) (k0_pay5 (View.ld x0 rX) (View.ld x1 rW1) (View.ld x4 rB)) (k0_pay9 (View.ld x0 rX) (View.ld x1 rW1) (View.ld x2 rW2) (View.ld x3 rW3) (View.ld x4 rB) (View.ld x5 rB)) (constant S1024x256 .f32 0x00000000#32)⟩]

/-- One piece that is the whole buffer covers it. -/
theorem coverRate (p0 : Vec F S1024x6 .f32) (y : S1024x6.Idx) :
    ∃ pc ∈ ([⟨rY, p0⟩] : List (View.Piece (Elt F) S1024x6 .f32)), y ∈ pc.1.set :=
  View.cover_of_tiled [⟨rY, p0⟩] S1024x6.size (by rfl) y

/-- The six output rows tile `[1024, 6, 6]`. -/
theorem coverState (p5 p4 p3 p2 p1 p0 : Vec F S1024x1x6 .f32) (y : S1024x6x6.Idx) :
    ∃ pc ∈ ([⟨rS5, p5⟩, ⟨rS4, p4⟩, ⟨rS3, p3⟩, ⟨rS2, p2⟩, ⟨rS1, p1⟩, ⟨rS0, p0⟩] : List (View.Piece (Elt F) S1024x6x6 .f32)), y ∈ pc.1.set :=
  View.cover_of_tiled [⟨rS5, p5⟩, ⟨rS4, p4⟩, ⟨rS3, p3⟩, ⟨rS2, p2⟩, ⟨rS1, p1⟩, ⟨rS0, p0⟩] S1024x1x6.size (by rfl) y

/-- The six columns tile `[1024, 6]`. -/
theorem coverCol (p5 p4 p3 p2 p1 p0 : Vec F S1024x1 .f32) (y : S1024x6.Idx) :
    ∃ pc ∈ ([⟨rC5, p5⟩, ⟨rC4, p4⟩, ⟨rC3, p3⟩, ⟨rC2, p2⟩, ⟨rC1, p1⟩, ⟨rC0, p0⟩] : List (View.Piece (Elt F) S1024x6 .f32)), y ∈ pc.1.set :=
  View.cover_of_tiled [⟨rC5, p5⟩, ⟨rC4, p4⟩, ⟨rC3, p3⟩, ⟨rC2, p2⟩, ⟨rC1, p1⟩, ⟨rC0, p0⟩] S1024x1.size (by rfl) y

/-! ## The body's run -/

set_option maxHeartbeats 4000000 in
/-- On whole staging buffers, the seven inputs' at known contents and the four outputs' at anything,
    the body runs to its end leaving the inputs as they were and each output at the patchwork of its
    stores over the inputs. -/
theorem sound_kernel (c : Dev nD) (E : Set ℕ) (i : grid0.Coords) (arg1 : Memref sig .tc .vmem S1024x8 .f32) (harg1 : arg1.IsWhole) (arg2 : Memref sig .tc .vmem S256x8 .f32) (harg2 : arg2.IsWhole) (arg3 : Memref sig .tc .vmem S256x256 .f32) (harg3 : arg3.IsWhole) (arg4 : Memref sig .tc .vmem S6x256 .f32) (harg4 : arg4.IsWhole) (arg5 : Memref sig .tc .vmem S256 .f32) (harg5 : arg5.IsWhole) (arg6 : Memref sig .tc .vmem S256 .f32) (harg6 : arg6.IsWhole) (arg7 : Memref sig .tc .vmem S6 .f32) (harg7 : arg7.IsWhole) (arg8 : Memref sig .tc .vmem S1024x6 .f32) (harg8 : arg8.IsWhole) (arg9 : Memref sig .tc .vmem S1024x6x6 .f32) (harg9 : arg9.IsWhole) (arg10 : Memref sig .tc .vmem S1024x6 .f32) (harg10 : arg10.IsWhole) (arg11 : Memref sig .tc .vmem S1024x6 .f32) (harg11 : arg11.IsWhole)
    (x0 : Vec F S1024x8 .f32) (x1 : Vec F S256x8 .f32) (x2 : Vec F S256x256 .f32) (x3 : Vec F S6x256 .f32) (x4 x5 : Vec F S256 .f32) (x6 : Vec F S6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outRate x0 x1 x2 x3 x4 x5 x6)
            ∗ owns (c : Thread nD τ) arg9 fullShare (outState x0 x1 x2 x3 x4 x5 x6)
            ∗ owns (c : Thread nD τ) arg10 fullShare (outRateCol x0 x1 x2 x3 x4 x5 x6)
            ∗ owns (c : Thread nD τ) arg11 fullShare (outTempCol x0 x1 x2 x3 x4 x5 x6)) -∗ K ⟨⟩))
      ⊢ wp frame (wpE (defs₀ (F := F)) Variants.none c none) E (cc0__mlp_jac_kernel i arg1 harg1 arg2 harg2 arg3 harg3 arg4 harg4 arg5 harg5 arg6 harg6 arg7 harg7 arg8 harg8 arg9 harg9 arg10 harg10 arg11 harg11) K := by
  simp only [cc0__mlp_jac_kernel_eq_skeleton]; unfold cc0__mlp_jac_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (coverRate _)
  isplitl [H8]
  · iexists _; isplitr
    swap; · iexact H8
    ipureintro
    try dsimp only
    exact View.read_writes_eq_canon _ _ _ (coverState _ _ _ _ _ _)
  isplitl [H9]
  · iexists _; isplitr
    swap; · iexact H9
    ipureintro
    try dsimp only
    exact View.read_writes_eq_canon _ _ _ (coverCol _ _ _ _ _ _)
  iexists _; isplitr
  swap; · iexact H10
  ipureintro
  try dsimp only
  exact View.read_writes_eq_canon _ _ _ (coverCol _ _ _ _ _ _)

end Cert.Kernel.Region

end
-- ==== Proof.KernelFrame.lean ====
/-
  The region's run and the frame. At grid point `t` the body finds each input window's block of the
  arrays as the region found them (the block of 1024 input rows; the whole weights and biases) and
  leaves each output buffer at the patchwork of its stores over those blocks; the pipeline writes the
  four output blocks back at every point. With the host lines around it, every execution of @main
  terminates without a fault, each output array at what the write-backs leave, and every argument
  array as launched: a staged argument (the weights and biases) is only ever read, and the others
  (the time, the state, the strain rate, the temperature) are touched by no write.
-/
import proofs.«163359_j55155970015481_1_alg».proof.Proof.KernelHost
import proofs.«163359_j55155970015481_1_alg».proof.Proof.KernelBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer
    still at its block and each output buffer at the patchwork of the body's stores over the input
    blocks; nothing of the body's own to keep between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outRate (iblk m c 0 t) (iblk m c 1 t) (iblk m c 2 t) (iblk m c 3 t) (iblk m c 4 t) (iblk m c 5 t) (iblk m c 6 t)
    | ⟨8, _⟩ => outState (iblk m c 0 t) (iblk m c 1 t) (iblk m c 2 t) (iblk m c 3 t) (iblk m c 4 t) (iblk m c 5 t) (iblk m c 6 t)
    | ⟨9, _⟩ => outRateCol (iblk m c 0 t) (iblk m c 1 t) (iblk m c 2 t) (iblk m c 3 t) (iblk m c 4 t) (iblk m c 5 t) (iblk m c 6 t)
    | ⟨10, _⟩ => outTempCol (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outRate (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = outState (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = outRateCol (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = outTempCol (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the input buffers hold their blocks, so the body's run applies; the
    invariant and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the region at what the write-backs
    leave of the proof data and every other buffer as the reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates without a fault and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c)))⟩)
    (run_main m ρ)

end Cert.Kernel.Region

end
-- ==== Proof.KernelIdealHost.lean ====
/-
  @main around its one region. Before the region the host builds the array of input rows: the
  strain rate and the temperature each gain a trailing axis of length one, are joined to the six
  state entries along the last axis, and the `[64, 1024, 8]` result is re-read as `[65536, 8]`. After
  the region four reshapes re-read the results' leading axis of 65536 rows as `[64, 1024]`. None of
  these writes an argument array, and none after the region writes an array the region stages, so
  every argument is found by the region, and left at the end, as launched.
  Here: the buffer contents at the region's entry (`V`), @main as "host lines, region, host lines",
  each argument array before and after, each window's block at a grid point, and that an input
  window's staging buffer holds that block at every point, fetched there or carried over.
-/
import proofs.«163359_j55155970015481_1_alg».proof.Proof.Gen.KernelIdeal.Launch
import proofs.«163359_j55155970015481_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main around the region -/

/-- The buffer contents on core `c` when the region is entered: the launch contents with the host's
    four results (the two widened columns, the joined rows, their re-reading as `[65536, 8]`) in place. -/
abbrev V0 (c : Dev nD) : Valuation τ sig (Elt F) := StableHlo.after (List.flatten [hostOps0]) (fun b => m (c, b))
/-- The same, read at a buffer. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the four reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes only its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-! ## The argument arrays, before and after the region -/

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- No host line before the region writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- What a buffer that bypasses the region holds after the four reshapes, for any proof data. -/
abbrev tailV (dats : (p : Fin 1) → (c : Dev nD) → Dat τ (Elt F) Unit ℕ (UR sig nD τ) ℕ (cfgs p) c) :=
  Pipeline.afterTail₀ cfgs dats 0 (V0 m) [hostOps1]

/-- No reshape after the region writes argument 0, and the region does not stage it. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No reshape after the region writes argument 1, and the region does not stage it. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No reshape after the region writes argument 2, and the region does not stage it. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No reshape after the region writes argument 3, and the region does not stage it. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point: it is fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point: fetched at the first point, and its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point: fetched at the first point, and its block index never moves. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point: fetched at the first point, and its block index never moves. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point: fetched at the first point, and its block index never moves. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point: fetched at the first point, and its block index never moves. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point: fetched at the first point, and its block index never moves. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.KernelIdealBody.lean ====
/-
  The kernel body on one block of 1024 input rows. It loads the block, the three weight matrices
  and the three biases whole, and stores: the rates `[1024, 6]` in one piece; the state Jacobian
  `[1024, 6, 6]` in six pieces, one output row `[:, i, :]` at a time; the strain-rate column and the
  temperature column of the Jacobian, each `[1024, 6]`, in six pieces `[:, i]`. Each output buffer is
  therefore the patchwork of its stores (its pieces tile it), every stored value a function of the
  seven loaded arrays alone; the body also reads each output piece before overwriting it, and uses
  none of what it read. Here: those four patchworks, that their pieces cover, and the body's run.
-/
import proofs.«163359_j55155970015481_1_alg».proof.Proof.Gen.KernelIdeal.Skeleton
import proofs.«163359_j55155970015481_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through -/

abbrev rX : Rect S1024x8 := Rect.unit (s := S1024x8) ![0, 0] S1024x8.size inb_S1024x8_S1024x8_0_0
abbrev rW1 : Rect S256x8 := Rect.unit (s := S256x8) ![0, 0] S256x8.size inb_S256x8_S256x8_0_0
abbrev rW2 : Rect S256x256 := Rect.unit (s := S256x256) ![0, 0] S256x256.size inb_S256x256_S256x256_0_0
abbrev rW3 : Rect S6x256 := Rect.unit (s := S6x256) ![0, 0] S6x256.size inb_S6x256_S6x256_0_0
abbrev rB : Rect S256 := Rect.unit (s := S256) ![0] S256.size inb_S256_S256_0
abbrev rB3 : Rect S6 := Rect.unit (s := S6) ![0] S6.size inb_S6_S6_0
abbrev rY : Rect S1024x6 := Rect.unit (s := S1024x6) ![0, 0] S1024x6.size inb_S1024x6_S1024x6_0_0
abbrev rS0 : Rect S1024x6x6 := Rect.unit (s := S1024x6x6) ![0, 0, 0] S1024x1x6.size inb_S1024x6x6_S1024x1x6_0_0_0
abbrev rS1 : Rect S1024x6x6 := Rect.unit (s := S1024x6x6) ![0, 1, 0] S1024x1x6.size inb_S1024x6x6_S1024x1x6_0_1_0
abbrev rS2 : Rect S1024x6x6 := Rect.unit (s := S1024x6x6) ![0, 2, 0] S1024x1x6.size inb_S1024x6x6_S1024x1x6_0_2_0
abbrev rS3 : Rect S1024x6x6 := Rect.unit (s := S1024x6x6) ![0, 3, 0] S1024x1x6.size inb_S1024x6x6_S1024x1x6_0_3_0
abbrev rS4 : Rect S1024x6x6 := Rect.unit (s := S1024x6x6) ![0, 4, 0] S1024x1x6.size inb_S1024x6x6_S1024x1x6_0_4_0
abbrev rS5 : Rect S1024x6x6 := Rect.unit (s := S1024x6x6) ![0, 5, 0] S1024x1x6.size inb_S1024x6x6_S1024x1x6_0_5_0
abbrev rC0 : Rect S1024x6 := Rect.unit (s := S1024x6) ![0, 0] S1024x1.size inb_S1024x6_S1024x1_0_0
abbrev rC1 : Rect S1024x6 := Rect.unit (s := S1024x6) ![0, 1] S1024x1.size inb_S1024x6_S1024x1_0_1
abbrev rC2 : Rect S1024x6 := Rect.unit (s := S1024x6) ![0, 2] S1024x1.size inb_S1024x6_S1024x1_0_2
abbrev rC3 : Rect S1024x6 := Rect.unit (s := S1024x6) ![0, 3] S1024x1.size inb_S1024x6_S1024x1_0_3
abbrev rC4 : Rect S1024x6 := Rect.unit (s := S1024x6) ![0, 4] S1024x1.size inb_S1024x6_S1024x1_0_4
abbrev rC5 : Rect S1024x6 := Rect.unit (s := S1024x6) ![0, 5] S1024x1.size inb_S1024x6_S1024x1_0_5

/-! ## What the body leaves in each output buffer: its stores as pieces, the last store first -/

/-- The rates' buffer: one piece. -/
def outRate (x0 : Vec F S1024x8 .f32) (x1 : Vec F S256x8 .f32) (x2 : Vec F S256x256 .f32) (x3 : Vec F S6x256 .f32) (x4 x5 : Vec F S256 .f32) (x6 : Vec F S6 .f32) : Vec F S1024x6 .f32 :=
  View.canon [⟨rY, k0_pay8 (View.ld x0 rX) (View.ld x1 rW1) (View.ld x2 rW2) (View.ld x3 rW3) (View.ld x4 rB) (View.ld x5 rB) (View.ld x6 rB3)⟩]

/-- The state Jacobian's buffer: output rows 5, 4, …, 0. -/
def outState (x0 : Vec F S1024x8 .f32) (x1 : Vec F S256x8 .f32) (x2 : Vec F S256x256 .f32) (x3 : Vec F S6x256 .f32) (x4 x5 : Vec F S256 .f32) (x6 : Vec F S6 .f32) : Vec F S1024x6x6 .f32 :=
  View.canon [⟨rS5, k0_pay1 (k0_pay33 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rS4, k0_pay29 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS3, k0_pay24 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS2, k0_pay20 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS1, k0_pay15 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rS0, k0_pay11 (View.ld x1 rW1) (View.ld x2 rW2) (k0_pay5 (View.ld x0 rX) (View.ld x1 rW1) (View.ld x4 rB)) (k0_pay9 (View.ld x0 rX) (View.ld x1 rW1) (View.ld x2 rW2) (View.ld x3 rW3) (View.ld x4 rB) (View.ld x5 rB)) (constant S1024x256 .f32 0x00000000#32)⟩]

/-- The strain-rate column's buffer: entries 5, 4, …, 0. -/
def outRateCol (x0 : Vec F S1024x8 .f32) (x1 : Vec F S256x8 .f32) (x2 : Vec F S256x256 .f32) (x3 : Vec F S6x256 .f32) (x4 x5 : Vec F S256 .f32) (x6 : Vec F S6 .f32) : Vec F S1024x6 .f32 :=
  View.canon [⟨rC5, k0_pay2 (k0_pay32 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC4, k0_pay30 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC3, k0_pay26 (k0_pay25 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC2, k0_pay21 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC1, k0_pay16 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC0, k0_pay12 (View.ld x1 rW1) (View.ld x2 rW2) (k0_pay5 (View.ld x0 rX) (View.ld x1 rW1) (View.ld x4 rB)) (k0_pay9 (View.ld x0 rX) (View.ld x1 rW1) (View.ld x2 rW2) (View.ld x3 rW3) (View.ld x4 rB) (View.ld x5 rB)) (constant S1024x256 .f32 0x00000000#32)⟩]

/-- The temperature column's buffer: entries 5, 4, …, 0. -/
def outTempCol (x0 : Vec F S1024x8 .f32) (x1 : Vec F S256x8 .f32) (x2 : Vec F S256x256 .f32) (x3 : Vec F S6x256 .f32) (x4 x5 : Vec F S256 .f32) (x6 : Vec F S6 .f32) : Vec F S1024x6 .f32 :=
  View.canon [⟨rC5, k0_pay3 (k0_pay32 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC4, k0_pay31 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC3, k0_pay27 (k0_pay23 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC2, k0_pay22 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB))⟩,
    ⟨rC1, k0_pay18 (k0_pay17 (View.ld x1 rW1) (View.ld x2 rW2) (View.ld x3 rW3) (k0_pay5 (View.ld x0 rX) (View.ld x1 rW1) (View.ld x4 rB)) (k0_pay7 (View.ld x0 rX) (View.ld x1 rW1) (View.ld x2 rW2) (View.ld x4 rB) (View.ld x5 rB)))⟩,
    ⟨rC0, k0_pay13 (View.ld x1 rW1) (View.ld x2 rW2) (k0_pay5 (View.ld x0 rX) (View.ld x1 rW1) (View.ld x4 rB)) (k0_pay9 (View.ld x0 rX) (View.ld x1 rW1) (View.ld x2 rW2) (View.ld x3 rW3) (View.ld x4 rB) (View.ld x5 rB)) (constant S1024x256 .f32 0x00000000#32)⟩]

/-- One piece that is the whole buffer covers it. -/
theorem coverRate (p0 : Vec F S1024x6 .f32) (y : S1024x6.Idx) :
    ∃ pc ∈ ([⟨rY, p0⟩] : List (View.Piece (Elt F) S1024x6 .f32)), y ∈ pc.1.set :=
  View.cover_of_tiled [⟨rY, p0⟩] S1024x6.size (by rfl) y

/-- The six output rows tile `[1024, 6, 6]`. -/
theorem coverState (p5 p4 p3 p2 p1 p0 : Vec F S1024x1x6 .f32) (y : S1024x6x6.Idx) :
    ∃ pc ∈ ([⟨rS5, p5⟩, ⟨rS4, p4⟩, ⟨rS3, p3⟩, ⟨rS2, p2⟩, ⟨rS1, p1⟩, ⟨rS0, p0⟩] : List (View.Piece (Elt F) S1024x6x6 .f32)), y ∈ pc.1.set :=
  View.cover_of_tiled [⟨rS5, p5⟩, ⟨rS4, p4⟩, ⟨rS3, p3⟩, ⟨rS2, p2⟩, ⟨rS1, p1⟩, ⟨rS0, p0⟩] S1024x1x6.size (by rfl) y

/-- The six columns tile `[1024, 6]`. -/
theorem coverCol (p5 p4 p3 p2 p1 p0 : Vec F S1024x1 .f32) (y : S1024x6.Idx) :
    ∃ pc ∈ ([⟨rC5, p5⟩, ⟨rC4, p4⟩, ⟨rC3, p3⟩, ⟨rC2, p2⟩, ⟨rC1, p1⟩, ⟨rC0, p0⟩] : List (View.Piece (Elt F) S1024x6 .f32)), y ∈ pc.1.set :=
  View.cover_of_tiled [⟨rC5, p5⟩, ⟨rC4, p4⟩, ⟨rC3, p3⟩, ⟨rC2, p2⟩, ⟨rC1, p1⟩, ⟨rC0, p0⟩] S1024x1.size (by rfl) y

/-! ## The body's run -/

set_option maxHeartbeats 4000000 in
/-- On whole staging buffers, the seven inputs' at known contents and the four outputs' at anything,
    the body runs to its end leaving the inputs as they were and each output at the patchwork of its
    stores over the inputs. -/
theorem sound_kernel (c : Dev nD) (E : Set ℕ) (i : grid0.Coords) (arg1 : Memref sig .tc .vmem S1024x8 .f32) (harg1 : arg1.IsWhole) (arg2 : Memref sig .tc .vmem S256x8 .f32) (harg2 : arg2.IsWhole) (arg3 : Memref sig .tc .vmem S256x256 .f32) (harg3 : arg3.IsWhole) (arg4 : Memref sig .tc .vmem S6x256 .f32) (harg4 : arg4.IsWhole) (arg5 : Memref sig .tc .vmem S256 .f32) (harg5 : arg5.IsWhole) (arg6 : Memref sig .tc .vmem S256 .f32) (harg6 : arg6.IsWhole) (arg7 : Memref sig .tc .vmem S6 .f32) (harg7 : arg7.IsWhole) (arg8 : Memref sig .tc .vmem S1024x6 .f32) (harg8 : arg8.IsWhole) (arg9 : Memref sig .tc .vmem S1024x6x6 .f32) (harg9 : arg9.IsWhole) (arg10 : Memref sig .tc .vmem S1024x6 .f32) (harg10 : arg10.IsWhole) (arg11 : Memref sig .tc .vmem S1024x6 .f32) (harg11 : arg11.IsWhole)
    (x0 : Vec F S1024x8 .f32) (x1 : Vec F S256x8 .f32) (x2 : Vec F S256x256 .f32) (x3 : Vec F S6x256 .f32) (x4 x5 : Vec F S256 .f32) (x6 : Vec F S6 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outRate x0 x1 x2 x3 x4 x5 x6)
            ∗ owns (c : Thread nD τ) arg9 fullShare (outState x0 x1 x2 x3 x4 x5 x6)
            ∗ owns (c : Thread nD τ) arg10 fullShare (outRateCol x0 x1 x2 x3 x4 x5 x6)
            ∗ owns (c : Thread nD τ) arg11 fullShare (outTempCol x0 x1 x2 x3 x4 x5 x6)) -∗ K ⟨⟩))
      ⊢ wp frame (wpE (defs₀ (F := F)) Variants.none c none) E (cc0__mlp_jac_kernel i arg1 harg1 arg2 harg2 arg3 harg3 arg4 harg4 arg5 harg5 arg6 harg6 arg7 harg7 arg8 harg8 arg9 harg9 arg10 harg10 arg11 harg11) K := by
  simp only [cc0__mlp_jac_kernel_eq_skeleton]; unfold cc0__mlp_jac_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (coverRate _)
  isplitl [H8]
  · iexists _; isplitr
    swap; · iexact H8
    ipureintro
    try dsimp only
    exact View.read_writes_eq_canon _ _ _ (coverState _ _ _ _ _ _)
  isplitl [H9]
  · iexists _; isplitr
    swap; · iexact H9
    ipureintro
    try dsimp only
    exact View.read_writes_eq_canon _ _ _ (coverCol _ _ _ _ _ _)
  iexists _; isplitr
  swap; · iexact H10
  ipureintro
  try dsimp only
  exact View.read_writes_eq_canon _ _ _ (coverCol _ _ _ _ _ _)

end Cert.KernelIdeal.Region

end
-- ==== Proof.KernelIdealFrame.lean ====
/-
  The region's run and the frame. At grid point `t` the body finds each input window's block of the
  arrays as the region found them (the block of 1024 input rows; the whole weights and biases) and
  leaves each output buffer at the patchwork of its stores over those blocks; the pipeline writes the
  four output blocks back at every point. With the host lines around it, every execution of @main
  terminates without a fault, each output array at what the write-backs leave, and every argument
  array as launched: a staged argument (the weights and biases) is only ever read, and the others
  (the time, the state, the strain rate, the temperature) are touched by no write.
-/
import proofs.«163359_j55155970015481_1_alg».proof.Proof.KernelIdealHost
import proofs.«163359_j55155970015481_1_alg».proof.Proof.KernelIdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input buffer
    still at its block and each output buffer at the patchwork of the body's stores over the input
    blocks; nothing of the body's own to keep between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outRate (iblk m c 0 t) (iblk m c 1 t) (iblk m c 2 t) (iblk m c 3 t) (iblk m c 4 t) (iblk m c 5 t) (iblk m c 6 t)
    | ⟨8, _⟩ => outState (iblk m c 0 t) (iblk m c 1 t) (iblk m c 2 t) (iblk m c 3 t) (iblk m c 4 t) (iblk m c 5 t) (iblk m c 6 t)
    | ⟨9, _⟩ => outRateCol (iblk m c 0 t) (iblk m c 1 t) (iblk m c 2 t) (iblk m c 3 t) (iblk m c 4 t) (iblk m c 5 t) (iblk m c 6 t)
    | ⟨10, _⟩ => outTempCol (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outRate (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = outState (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = outRateCol (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = outTempCol (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point: the input buffers hold their blocks, so the body's run applies; the
    invariant and the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the region at what the write-backs
    leave of the proof data and every other buffer as the reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates without a fault and the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c)))⟩)
    (run_main m ρ)

end Cert.KernelIdeal.Region

end
-- ==== Proof.Net.lean ====
/-
  The network and its Jacobian, one input row at a time, over the extended reals.

  A row `x : Fin 8 → EReal` (six state entries, then the strain rate, then the temperature) goes through
  two hidden layers of width 256 and a linear read-out of width 6:

    z1 h = Σ_k x k · w1[h,k] + b1 h            s1 h = [0 < z1 h]
    z2 h = Σ_k (z1 k · s1 k) · w2[h,k] + b2 h  s2 h = [0 < z2 h]
    y  i = Σ_k (z2 k · s2 k) · w3[i,k] + b3 i

  and, the activations being piecewise linear, the Jacobian of `y` in `x` is the chain
  `w3 · diag s2 · w2 · diag s1 · w1`, computed left to right:

    A i h = w3[i,h] · s2 h
    B i j = (Σ_k A i k · w2[k,j]) · s1 j
    J i j = Σ_k B i k · w1[k,j].

  Multiplying a pre-activation by its own indicator is the rectifier, on every extended real
  (`mul_step`): at a non-positive value, -∞ included, the product with zero is zero.
  The results over the whole batch are these read at the row `(a, b)` of the input array.
-/
import Idealize.ShloMosaic.PureOps.Ideal
import Idealize.ShloMosaic.PureOps.Ideal.Laws
import Idealize.ShloMosaic.Lib.ValueIdx

noncomputable section

namespace Cert.Net

open Idealize.ShloMosaic Idealize.ShloMosaic.ValueIdx

/-- The indicator of a strictly positive value. -/
def step (z : EReal) : EReal := if 0 < z then 1 else 0

/-- A value times its own indicator is its positive part, at the infinities too. -/
theorem mul_step (z : EReal) : z * step z = max z 0 := by
  unfold step
  split_ifs with h
  · rw [mul_one, max_eq_left h.le]
  · rw [mul_zero, max_eq_right (not_lt.mp h)]

/-- The comparison against the zero pattern, widened to a word and read as a signed integer, is the indicator. -/
theorem sitofp_cmp (z : EReal) :
    FloatOps.sitofp (F := Ideal) .f32 ((FloatOps.cmpf (F := Ideal) (φ := .f32) .ogt z (Ideal.ofBits .f32 0x00000000#32)).setWidth 32) = step z := by
  show (((BitVec.setWidth 32 (Ideal.cmp .ogt z (Ideal.ofBits .f32 0x00000000#32))).toInt : ℝ) : EReal) = step z
  rw [Ideal.ofBits_zero_f32]
  unfold step Ideal.cmp
  by_cases h : (0 : EReal) < z
  · simp [h]
  · simp [h]

/-- The same comparison's bit read as an unsigned integer is the indicator. -/
theorem uitofp_cmp (z : EReal) :
    FloatOps.uitofp (F := Ideal) .f32 (FloatOps.cmpf (F := Ideal) (φ := .f32) .ogt z (Ideal.ofBits .f32 0x00000000#32)) = step z := by
  show (((Ideal.cmp .ogt z (Ideal.ofBits .f32 0x00000000#32)).toNat : ℝ) : EReal) = step z
  rw [Ideal.ofBits_zero_f32]
  unfold step Ideal.cmp
  by_cases h : (0 : EReal) < z
  · simp [h]
  · simp [h]

section Row

variable (w1 : (⟨2, ![256, 8]⟩ : Shape).Idx → EReal) (w2 : (⟨2, ![256, 256]⟩ : Shape).Idx → EReal)
  (w3 : (⟨2, ![6, 256]⟩ : Shape).Idx → EReal) (b1 b2 : (⟨1, ![256]⟩ : Shape).Idx → EReal)
  (b3 : (⟨1, ![6]⟩ : Shape).Idx → EReal)

/-- The first layer's pre-activation of a row. -/
def z1 (x : Fin 8 → EReal) (h : Fin 256) : EReal := (∑ k : Fin 8, x k * w1 (ix2 h k)) + b1 (ix1 h)

/-- Which first-layer units are active. -/
def s1 (x : Fin 8 → EReal) (h : Fin 256) : EReal := step (z1 w1 b1 x h)

/-- The second layer's pre-activation. -/
def z2 (x : Fin 8 → EReal) (h : Fin 256) : EReal :=
  (∑ k : Fin 256, (z1 w1 b1 x k * s1 w1 b1 x k) * w2 (ix2 h k)) + b2 (ix1 h)

/-- Which second-layer units are active. -/
def s2 (x : Fin 8 → EReal) (h : Fin 256) : EReal := step (z2 w1 w2 b1 b2 x h)

/-- The read-out. -/
def y (x : Fin 8 → EReal) (i : Fin 6) : EReal :=
  (∑ k : Fin 256, (z2 w1 w2 b1 b2 x k * s2 w1 w2 b1 b2 x k) * w3 (ix2 i k)) + b3 (ix1 i)

/-- Row `i` of the read-out matrix with the inactive second-layer units struck out. -/
def jA (x : Fin 8 → EReal) (i : Fin 6) (h : Fin 256) : EReal := w3 (ix2 i h) * s2 w1 w2 b1 b2 x h

/-- That row carried back through the second layer, the inactive first-layer units struck out. -/
def jB (x : Fin 8 → EReal) (i : Fin 6) (j : Fin 256) : EReal :=
  (∑ k : Fin 256, jA w1 w2 w3 b1 b2 x i k * w2 (ix2 k j)) * s1 w1 b1 x j

/-- The Jacobian: output `i` against input entry `j`. -/
def jac (x : Fin 8 → EReal) (i : Fin 6) (j : Fin 8) : EReal :=
  ∑ k : Fin 256, jB w1 w2 w3 b1 b2 x i k * w1 (ix2 k j)

/-! The results over the whole batch, from the input array `X` of rows. -/

variable (X : (⟨3, ![64, 1024, 8]⟩ : Shape).Idx → EReal)

/-- Row `(a, b)` of the input array. -/
def rowOf (a : Fin 64) (b : Fin 1024) : Fin 8 → EReal := fun j => X (ix3 a b j)

/-- The rates: `[64, 1024, 6]`. -/
def Rate : (⟨3, ![64, 1024, 6]⟩ : Shape).Idx → EReal := fun i =>
  y w1 w2 w3 b1 b2 b3 (rowOf X ⟨(i 0).val, (i 0).isLt⟩ ⟨(i 1).val, (i 1).isLt⟩) ⟨(i 2).val, (i 2).isLt⟩

/-- A state column among the eight input entries (the state entries come first). -/
def ofState (q : Fin 6) : Fin 8 := ⟨q.val, lt_trans q.isLt (by decide)⟩

/-- The Jacobian against the six state entries: `[64, 1024, 6, 6]`. -/
def JacState : (⟨4, ![64, 1024, 6, 6]⟩ : Shape).Idx → EReal := fun i =>
  jac w1 w2 w3 b1 b2 (rowOf X ⟨(i 0).val, (i 0).isLt⟩ ⟨(i 1).val, (i 1).isLt⟩) ⟨(i 2).val, (i 2).isLt⟩
    (ofState ⟨(i 3).val, (i 3).isLt⟩)

/-- The Jacobian against input entry `j` (6: the strain rate, 7: the temperature): `[64, 1024, 6]`. -/
def JacCol (j : Fin 8) : (⟨3, ![64, 1024, 6]⟩ : Shape).Idx → EReal := fun i =>
  jac w1 w2 w3 b1 b2 (rowOf X ⟨(i 0).val, (i 0).isLt⟩ ⟨(i 1).val, (i 1).isLt⟩) ⟨(i 2).val, (i 2).isLt⟩ j

end Row

end Cert.Net

end
-- ==== Proof.BodyLayers.lean ====
/-
  The kernel body's forward pass read at an index, over the values it loads (a block of 1024 input
  rows and the whole weights and biases): each layer's pre-activation, its indicator, and the rates
  it stores, as the row-wise network of the block's row.
-/
import proofs.«163359_j55155970015481_1_alg».proof.Proof.Gen.KernelIdeal.Skeleton
import proofs.«163359_j55155970015481_1_alg».proof.Proof.Net
import Idealize.ShloMosaic.Lib.Pipeline.Value
import Idealize.ShloMosaic.Lib.ValueLayout

noncomputable section

namespace Cert.KernelIdeal.PayAt

open Idealize.ShloMosaic Idealize.ShloMosaic.ValueIdx Cert.KernelIdeal Cert.KernelIdeal.Gen

/-! ## The four products at an index

Each of the body's products has one contracting axis, the left operand's columns against the right operand's rows, and
starts from the zero accumulator: read at `(p, q)` it is the sum over `k` of `l (p, k) * r (k, q)`. The contraction
index is re-indexed by its one coordinate; the operand indices are read off axis by axis. -/

/-! ### The first layer's product: `[1024, 8]` by `[8, 256]` -/

theorem dotA_lhs_0 (i : S1024x256.Idx) (q : dot_S1024x8_S8x256_S1024x256_1_0_0_1_n_n.contr.Idx) :
    (dot_S1024x8_S8x256_S1024x256_1_0_0_1_n_n.lhsIdx i q 0).val = (i 0).val := by
  unfold DotDims.lhsIdx
  rw [dif_neg (show ¬(0 : Fin S1024x8.rank) ∈ dot_S1024x8_S8x256_S1024x256_1_0_0_1_n_n.lhsBatch by decide),
    dif_pos (show (0 : Fin S1024x8.rank) ∈ dot_S1024x8_S8x256_S1024x256_1_0_0_1_n_n.lhsNonContracting by decide)]
  rfl
theorem dotA_lhs_1 (i : S1024x256.Idx) (q : dot_S1024x8_S8x256_S1024x256_1_0_0_1_n_n.contr.Idx) :
    (dot_S1024x8_S8x256_S1024x256_1_0_0_1_n_n.lhsIdx i q 1).val = (q ⟨0, by decide⟩).val :=
  dot_S1024x8_S8x256_S1024x256_1_0_0_1_n_n.lhsIdx_val_of_single rfl i q
theorem dotA_rhs_0 (i : S1024x256.Idx) (q : dot_S1024x8_S8x256_S1024x256_1_0_0_1_n_n.contr.Idx) :
    (dot_S1024x8_S8x256_S1024x256_1_0_0_1_n_n.rhsIdx i q 0).val = (q ⟨0, by decide⟩).val :=
  dot_S1024x8_S8x256_S1024x256_1_0_0_1_n_n.rhsIdx_val_of_single rfl i q
theorem dotA_rhs_1 (i : S1024x256.Idx) (q : dot_S1024x8_S8x256_S1024x256_1_0_0_1_n_n.contr.Idx) :
    (dot_S1024x8_S8x256_S1024x256_1_0_0_1_n_n.rhsIdx i q 1).val = (i 1).val := by
  unfold DotDims.rhsIdx
  rw [dif_neg (show ¬(1 : Fin S8x256.rank) ∈ dot_S1024x8_S8x256_S1024x256_1_0_0_1_n_n.rhsBatch by decide),
    dif_pos (show (1 : Fin S8x256.rank) ∈ dot_S1024x8_S8x256_S1024x256_1_0_0_1_n_n.rhsNonContracting by decide)]
  rfl

/-- The product into the zero accumulator, read at `(p, q)`: row `p` of the left operand against column `q` of the right one. -/
theorem dotA_apply (l : FVec Ideal S1024x8 .f32) (r : FVec Ideal S8x256 .f32) (p : Fin 1024) (q : Fin 256) :
    matmul (F := Ideal) dot_S1024x8_S8x256_S1024x256_1_0_0_1_n_n none l r (constant S1024x256 .f32 0x00000000#32) (ix2 p q)
      = ∑ k : Fin 8, l (ix2 p k) * r (ix2 k q) := by
  show FloatOps.matmul dot_S1024x8_S8x256_S1024x256_1_0_0_1_n_n none l r (constant S1024x256 .f32 0x00000000#32) (ix2 p q) = _
  rw [Ideal.matmul_constant_zero_apply, ← Equiv.sum_comp (ValueIdx.contrEquiv1 dot_S1024x8_S8x256_S1024x256_1_0_0_1_n_n 8 rfl rfl).symm]
  refine Finset.sum_congr rfl fun k _ => ?_
  have hk := ValueIdx.contrEquiv1_symm_val dot_S1024x8_S8x256_S1024x256_1_0_0_1_n_n 8 rfl rfl k
  have el : dot_S1024x8_S8x256_S1024x256_1_0_0_1_n_n.lhsIdx (ix2 p q) ((ValueIdx.contrEquiv1 dot_S1024x8_S8x256_S1024x256_1_0_0_1_n_n 8 rfl rfl).symm k) = ix2 p k :=
    funext fun a => Fin.ext (by
      match a with
      | ⟨0, _⟩ => exact dotA_lhs_0 _ _
      | ⟨1, _⟩ => exact (dotA_lhs_1 _ _).trans hk)
  have er : dot_S1024x8_S8x256_S1024x256_1_0_0_1_n_n.rhsIdx (ix2 p q) ((ValueIdx.contrEquiv1 dot_S1024x8_S8x256_S1024x256_1_0_0_1_n_n 8 rfl rfl).symm k) = ix2 k q :=
    funext fun a => Fin.ext (by
      match a with
      | ⟨0, _⟩ => exact (dotA_rhs_0 _ _).trans hk
      | ⟨1, _⟩ => exact dotA_rhs_1 _ _)
  rw [el, er]

/-! ### The second layer's product: `[1024, 256]` by `[256, 256]` -/

theorem dotB_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem dotB_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem dotB_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem dotB_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The product into the zero accumulator, read at `(p, q)`: row `p` of the left operand against column `q` of the right one. -/
theorem dotB_apply (l : FVec Ideal S1024x256 .f32) (r : FVec Ideal S256x256 .f32) (p : Fin 1024) (q : Fin 256) :
    matmul (F := Ideal) dot_S1024x256_S256x256_S1024x256_1_0_0_1_n_n none l r (constant S1024x256 .f32 0x00000000#32) (ix2 p q)
      = ∑ k : Fin 256, l (ix2 p k) * r (ix2 k q) := by
  show FloatOps.matmul dot_S1024x256_S256x256_S1024x256_1_0_0_1_n_n none l r (constant S1024x256 .f32 0x00000000#32) (ix2 p q) = _
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k :=
    funext fun a => Fin.ext (by
      match a with
      | ⟨0, _⟩ => exact dotB_lhs_0 _ _
      | ⟨1, _⟩ => exact (dotB_lhs_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q :=
    funext fun a => Fin.ext (by
      match a with
      | ⟨0, _⟩ => exact (dotB_rhs_0 _ _).trans hk
      | ⟨1, _⟩ => exact dotB_rhs_1 _ _)
  rw [el, er]

/-! ### The read-out's product: `[1024, 256]` by `[256, 6]` -/

theorem dotC_lhs_0 (i : S1024x6.Idx) (q : dot_S1024x256_S256x6_S1024x6_1_0_0_1_n_n.contr.Idx) :
    (dot_S1024x256_S256x6_S1024x6_1_0_0_1_n_n.lhsIdx i q 0).val = (i 0).val := by
  unfold DotDims.lhsIdx
  rw [dif_neg (show ¬(0 : Fin S1024x256.rank) ∈ dot_S1024x256_S256x6_S1024x6_1_0_0_1_n_n.lhsBatch by decide),
    dif_pos (show (0 : Fin S1024x256.rank) ∈ dot_S1024x256_S256x6_S1024x6_1_0_0_1_n_n.lhsNonContracting by decide)]
  rfl
theorem dotC_lhs_1 (i : S1024x6.Idx) (q : dot_S1024x256_S256x6_S1024x6_1_0_0_1_n_n.contr.Idx) :
    (dot_S1024x256_S256x6_S1024x6_1_0_0_1_n_n.lhsIdx i q 1).val = (q ⟨0, by decide⟩).val :=
  dot_S1024x256_S256x6_S1024x6_1_0_0_1_n_n.lhsIdx_val_of_single rfl i q
theorem dotC_rhs_0 (i : S1024x6.Idx) (q : dot_S1024x256_S256x6_S1024x6_1_0_0_1_n_n.contr.Idx) :
    (dot_S1024x256_S256x6_S1024x6_1_0_0_1_n_n.rhsIdx i q 0).val = (q ⟨0, by decide⟩).val :=
  dot_S1024x256_S256x6_S1024x6_1_0_0_1_n_n.rhsIdx_val_of_single rfl i q
theorem dotC_rhs_1 (i : S1024x6.Idx) (q : dot_S1024x256_S256x6_S1024x6_1_0_0_1_n_n.contr.Idx) :
    (dot_S1024x256_S256x6_S1024x6_1_0_0_1_n_n.rhsIdx i q 1).val = (i 1).val := by
  unfold DotDims.rhsIdx
  rw [dif_neg (show ¬(1 : Fin S256x6.rank) ∈ dot_S1024x256_S256x6_S1024x6_1_0_0_1_n_n.rhsBatch by decide),
    dif_pos (show (1 : Fin S256x6.rank) ∈ dot_S1024x256_S256x6_S1024x6_1_0_0_1_n_n.rhsNonContracting by decide)]
  rfl

/-- The product into the zero accumulator, read at `(p, q)`: row `p` of the left operand against column `q` of the right one. -/
theorem dotC_apply (l : FVec Ideal S1024x256 .f32) (r : FVec Ideal S256x6 .f32) (p : Fin 1024) (q : Fin 6) :
    matmul (F := Ideal) dot_S1024x256_S256x6_S1024x6_1_0_0_1_n_n none l r (constant S1024x6 .f32 0x00000000#32) (ix2 p q)
      = ∑ k : Fin 256, l (ix2 p k) * r (ix2 k q) := by
  show FloatOps.matmul dot_S1024x256_S256x6_S1024x6_1_0_0_1_n_n none l r (constant S1024x6 .f32 0x00000000#32) (ix2 p q) = _
  rw [Ideal.matmul_constant_zero_apply, ← Equiv.sum_comp (ValueIdx.contrEquiv1 dot_S1024x256_S256x6_S1024x6_1_0_0_1_n_n 256 rfl rfl).symm]
  refine Finset.sum_congr rfl fun k _ => ?_
  have hk := ValueIdx.contrEquiv1_symm_val dot_S1024x256_S256x6_S1024x6_1_0_0_1_n_n 256 rfl rfl k
  have el : dot_S1024x256_S256x6_S1024x6_1_0_0_1_n_n.lhsIdx (ix2 p q) ((ValueIdx.contrEquiv1 dot_S1024x256_S256x6_S1024x6_1_0_0_1_n_n 256 rfl rfl).symm k) = ix2 p k :=
    funext fun a => Fin.ext (by
      match a with
      | ⟨0, _⟩ => exact dotC_lhs_0 _ _
      | ⟨1, _⟩ => exact (dotC_lhs_1 _ _).trans hk)
  have er : dot_S1024x256_S256x6_S1024x6_1_0_0_1_n_n.rhsIdx (ix2 p q) ((ValueIdx.contrEquiv1 dot_S1024x256_S256x6_S1024x6_1_0_0_1_n_n 256 rfl rfl).symm k) = ix2 k q :=
    funext fun a => Fin.ext (by
      match a with
      | ⟨0, _⟩ => exact (dotC_rhs_0 _ _).trans hk
      | ⟨1, _⟩ => exact dotC_rhs_1 _ _)
  rw [el, er]

/-! ### The product back onto the input entries: `[1024, 256]` by `[256, 8]` -/

theorem dotD_lhs_0 (i : S1024x8.Idx) (q : dot_S1024x256_S256x8_S1024x8_1_0_0_1_n_n.contr.Idx) :
    (dot_S1024x256_S256x8_S1024x8_1_0_0_1_n_n.lhsIdx i q 0).val = (i 0).val := by
  unfold DotDims.lhsIdx
  rw [dif_neg (show ¬(0 : Fin S1024x256.rank) ∈ dot_S1024x256_S256x8_S1024x8_1_0_0_1_n_n.lhsBatch by decide),
    dif_pos (show (0 : Fin S1024x256.rank) ∈ dot_S1024x256_S256x8_S1024x8_1_0_0_1_n_n.lhsNonContracting by decide)]
  rfl
theorem dotD_lhs_1 (i : S1024x8.Idx) (q : dot_S1024x256_S256x8_S1024x8_1_0_0_1_n_n.contr.Idx) :
    (dot_S1024x256_S256x8_S1024x8_1_0_0_1_n_n.lhsIdx i q 1).val = (q ⟨0, by decide⟩).val :=
  dot_S1024x256_S256x8_S1024x8_1_0_0_1_n_n.lhsIdx_val_of_single rfl i q
theorem dotD_rhs_0 (i : S1024x8.Idx) (q : dot_S1024x256_S256x8_S1024x8_1_0_0_1_n_n.contr.Idx) :
    (dot_S1024x256_S256x8_S1024x8_1_0_0_1_n_n.rhsIdx i q 0).val = (q ⟨0, by decide⟩).val :=
  dot_S1024x256_S256x8_S1024x8_1_0_0_1_n_n.rhsIdx_val_of_single rfl i q
theorem dotD_rhs_1 (i : S1024x8.Idx) (q : dot_S1024x256_S256x8_S1024x8_1_0_0_1_n_n.contr.Idx) :
    (dot_S1024x256_S256x8_S1024x8_1_0_0_1_n_n.rhsIdx i q 1).val = (i 1).val := by
  unfold DotDims.rhsIdx
  rw [dif_neg (show ¬(1 : Fin S256x8.rank) ∈ dot_S1024x256_S256x8_S1024x8_1_0_0_1_n_n.rhsBatch by decide),
    dif_pos (show (1 : Fin S256x8.rank) ∈ dot_S1024x256_S256x8_S1024x8_1_0_0_1_n_n.rhsNonContracting by decide)]
  rfl

/-- The product into the zero accumulator, read at `(p, q)`: row `p` of the left operand against column `q` of the right one. -/
theorem dotD_apply (l : FVec Ideal S1024x256 .f32) (r : FVec Ideal S256x8 .f32) (p : Fin 1024) (q : Fin 8) :
    matmul (F := Ideal) dot_S1024x256_S256x8_S1024x8_1_0_0_1_n_n none l r (constant S1024x8 .f32 0x00000000#32) (ix2 p q)
      = ∑ k : Fin 256, l (ix2 p k) * r (ix2 k q) := by
  show FloatOps.matmul dot_S1024x256_S256x8_S1024x8_1_0_0_1_n_n none l r (constant S1024x8 .f32 0x00000000#32) (ix2 p q) = _
  rw [Ideal.matmul_constant_zero_apply, ← Equiv.sum_comp (ValueIdx.contrEquiv1 dot_S1024x256_S256x8_S1024x8_1_0_0_1_n_n 256 rfl rfl).symm]
  refine Finset.sum_congr rfl fun k _ => ?_
  have hk := ValueIdx.contrEquiv1_symm_val dot_S1024x256_S256x8_S1024x8_1_0_0_1_n_n 256 rfl rfl k
  have el : dot_S1024x256_S256x8_S1024x8_1_0_0_1_n_n.lhsIdx (ix2 p q) ((ValueIdx.contrEquiv1 dot_S1024x256_S256x8_S1024x8_1_0_0_1_n_n 256 rfl rfl).symm k) = ix2 p k :=
    funext fun a => Fin.ext (by
      match a with
      | ⟨0, _⟩ => exact dotD_lhs_0 _ _
      | ⟨1, _⟩ => exact (dotD_lhs_1 _ _).trans hk)
  have er : dot_S1024x256_S256x8_S1024x8_1_0_0_1_n_n.rhsIdx (ix2 p q) ((ValueIdx.contrEquiv1 dot_S1024x256_S256x8_S1024x8_1_0_0_1_n_n 256 rfl rfl).symm k) = ix2 k q :=
    funext fun a => Fin.ext (by
      match a with
      | ⟨0, _⟩ => exact (dotD_rhs_0 _ _).trans hk
      | ⟨1, _⟩ => exact dotD_rhs_1 _ _)
  rw [el, er]

/-! ## The forward pass -/

variable (v0 : Vec Ideal S1024x8 .f32) (v2 : Vec Ideal S256x8 .f32) (v3 : Vec Ideal S256x256 .f32)
  (v4 : Vec Ideal S6x256 .f32) (v5 v6 : Vec Ideal S256 .f32) (v7 : Vec Ideal S6 .f32)

/-- Row `r` of the block of input rows. -/
abbrev blkRow (r : Fin 1024) : Fin 8 → EReal := fun j => v0 (ix2 r j)

/-- A bias vector laid out as one row and repeated down the rows reads, at `(p, c)`, its entry `c`. -/
theorem bias_at {a b : ℕ} (v : (⟨1, ![b]⟩ : Shape).Idx → EReal)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

/-- The first layer's pre-activation. -/
theorem pre1_at (r : Fin 1024) (h : Fin 256) :
    k0_pay4 (F := Ideal) v0 v2 v5 (ix2 r h) = Net.z1 v2 v5 (blkRow v0 r) h := by
  unfold k0_pay4 Net.z1
  refine (addf_apply _ _ _).trans ?_
  rw [dotA_apply, bias_at, shapeCast_self]
  refine congrArg (· + v5 (ix1 h)) (Finset.sum_congr rfl fun k _ => ?_)
  rw [transpose_ix2_apply]

/-- The comparison of a value against the zero word, widened and read as a signed integer, is its indicator. -/
theorem step_at {s : Shape} (z : FVec Ideal s .f32) (h32 : 1 < 32) (i : s.Idx) :
    (sitofp .f32 (extui 32 (cmpf .ogt z (broadcast s (Scalar.ofBits .f32 0x00000000#32))) h32) : FVec Ideal s .f32) i
      = Net.step (z i) :=
  Net.sitofp_cmp (z i)

/-- The first layer's indicator. -/
theorem mask1_at (r : Fin 1024) (h : Fin 256) :
    k0_pay5 (F := Ideal) v0 v2 v5 (ix2 r h) = Net.s1 v2 v5 (blkRow v0 r) h := by
  unfold k0_pay5 Net.s1
  refine (step_at _ _ _).trans ?_
  rw [pre1_at]

/-- The second layer's pre-activation. -/
theorem pre2_at (r : Fin 1024) (h : Fin 256) :
    k0_pay6 (F := Ideal) v0 v2 v3 v5 v6 (ix2 r h) = Net.z2 v2 v3 v5 v6 (blkRow v0 r) h := by
  unfold k0_pay6 Net.z2
  refine (addf_apply _ _ _).trans ?_
  rw [dotB_apply, bias_at]
  refine congrArg (· + v6 (ix1 h)) (Finset.sum_congr rfl fun k _ => ?_)
  rw [transpose_ix2_apply, mulf_apply, pre1_at, mask1_at]

/-- The second layer's indicator. -/
theorem mask2_at (r : Fin 1024) (h : Fin 256) :
    k0_pay7 (F := Ideal) v0 v2 v3 v5 v6 (ix2 r h) = Net.s2 v2 v3 v5 v6 (blkRow v0 r) h := by
  unfold k0_pay7 Net.s2
  refine (step_at _ _ _).trans ?_
  rw [pre2_at]

/-- The rates the body stores. -/
theorem rate_at (r : Fin 1024) (i : Fin 6) :
    k0_pay8 (F := Ideal) v0 v2 v3 v4 v5 v6 v7 (ix2 r i) = Net.y v2 v3 v4 v5 v6 v7 (blkRow v0 r) i := by
  unfold k0_pay8 Net.y
  refine (addf_apply _ _ _).trans ?_
  rw [dotC_apply, bias_at]
  refine congrArg (· + v7 (ix1 i)) (Finset.sum_congr rfl fun k _ => ?_)
  rw [transpose_ix2_apply, mulf_apply, pre2_at, mask2_at]

end Cert.KernelIdeal.PayAt

end
-- ==== Proof.BodyJac.lean ====
/-
  The kernel body's Jacobian read at an index. For each of the six outputs the body masks that
  output's row of the read-out matrix by the second layer's indicator, carries it through the
  second-layer weights, masks by the first layer's indicator and carries it through the first-layer
  weights: eight Jacobian entries per input row. It stores the first six as a row of the state
  Jacobian, the seventh in the strain-rate column and the eighth in the temperature column.
-/
import proofs.«163359_j55155970015481_1_alg».proof.Proof.BodyLayers

noncomputable section

namespace Cert.KernelIdeal.PayAt

open Idealize.ShloMosaic Idealize.ShloMosaic.ValueIdx Cert.KernelIdeal Cert.KernelIdeal.Gen

variable (v0 : Vec Ideal S1024x8 .f32) (v2 : Vec Ideal S256x8 .f32) (v3 : Vec Ideal S256x256 .f32)
  (v4 : Vec Ideal S6x256 .f32) (v5 v6 : Vec Ideal S256 .f32) (v7 : Vec Ideal S6 .f32)

/-- The two indicators as the body computes them. -/
abbrev m1 : FVec Ideal S1024x256 .f32 := k0_pay5 (F := Ideal) v0 v2 v5
abbrev m2 : FVec Ideal S1024x256 .f32 := k0_pay7 (F := Ideal) v0 v2 v3 v5 v6

/-! ## A product of matrices into the zero accumulator, read at an index -/

theorem dotB_at_lhs0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem dotB_at_lhs1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem dotB_at_rhs0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem dotB_at_rhs1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A `[1024,256]` by `[256,256]` product into zero, at `(p, q)`: the sum over the shared index. -/
theorem dotB_at (l : FVec Ideal S1024x256 .f32) (w : FVec Ideal S256x256 .f32) (p : Fin 1024) (q : Fin 256) :
    matmul (F := Ideal) dot_S1024x256_S256x256_S1024x256_1_0_0_1_n_n none l w (constant (F := Ideal) S1024x256 .f32 0x00000000#32) (ix2 p q)
      = ∑ k : Fin 256, l (ix2 p k) * w (ix2 k q) := by
  refine (Ideal.matmul_constant_zero_apply dot_S1024x256_S256x256_S1024x256_1_0_0_1_n_n none l w (ix2 p q)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun a => Fin.ext (by
    match a with
    | ⟨0, _⟩ => exact dotB_at_lhs0 _ _
    | ⟨1, _⟩ => exact (dotB_at_lhs1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun a => Fin.ext (by
    match a with
    | ⟨0, _⟩ => exact (dotB_at_rhs0 _ _).trans hk
    | ⟨1, _⟩ => exact dotB_at_rhs1 _ _)
  rw [el, er]

theorem dotD_at_lhs0 (i : S1024x8.Idx) (q : dot_S1024x256_S256x8_S1024x8_1_0_0_1_n_n.contr.Idx) :
    (dot_S1024x256_S256x8_S1024x8_1_0_0_1_n_n.lhsIdx i q 0).val = (i 0).val := by
  unfold DotDims.lhsIdx
  rw [dif_neg (show ¬(0 : Fin S1024x256.rank) ∈ dot_S1024x256_S256x8_S1024x8_1_0_0_1_n_n.lhsBatch by decide), dif_pos (show (0 : Fin S1024x256.rank) ∈ dot_S1024x256_S256x8_S1024x8_1_0_0_1_n_n.lhsNonContracting by decide)]
  rfl
theorem dotD_at_lhs1 (i : S1024x8.Idx) (q : dot_S1024x256_S256x8_S1024x8_1_0_0_1_n_n.contr.Idx) :
    (dot_S1024x256_S256x8_S1024x8_1_0_0_1_n_n.lhsIdx i q 1).val = (q ⟨0, by decide⟩).val :=
  dot_S1024x256_S256x8_S1024x8_1_0_0_1_n_n.lhsIdx_val_of_single rfl i q
theorem dotD_at_rhs0 (i : S1024x8.Idx) (q : dot_S1024x256_S256x8_S1024x8_1_0_0_1_n_n.contr.Idx) :
    (dot_S1024x256_S256x8_S1024x8_1_0_0_1_n_n.rhsIdx i q 0).val = (q ⟨0, by decide⟩).val :=
  dot_S1024x256_S256x8_S1024x8_1_0_0_1_n_n.rhsIdx_val_of_single rfl i q
theorem dotD_at_rhs1 (i : S1024x8.Idx) (q : dot_S1024x256_S256x8_S1024x8_1_0_0_1_n_n.contr.Idx) :
    (dot_S1024x256_S256x8_S1024x8_1_0_0_1_n_n.rhsIdx i q 1).val = (i 1).val := by
  unfold DotDims.rhsIdx
  rw [dif_neg (show ¬(1 : Fin S256x8.rank) ∈ dot_S1024x256_S256x8_S1024x8_1_0_0_1_n_n.rhsBatch by decide), dif_pos (show (1 : Fin S256x8.rank) ∈ dot_S1024x256_S256x8_S1024x8_1_0_0_1_n_n.rhsNonContracting by decide)]
  rfl

/-- A `[1024,256]` by `[256,8]` product into zero, at `(p, q)`: the sum over the shared index. -/
theorem dotD_at (l : FVec Ideal S1024x256 .f32) (w : FVec Ideal S256x8 .f32) (p : Fin 1024) (q : Fin 8) :
    matmul (F := Ideal) dot_S1024x256_S256x8_S1024x8_1_0_0_1_n_n none l w (constant (F := Ideal) S1024x8 .f32 0x00000000#32) (ix2 p q)
      = ∑ k : Fin 256, l (ix2 p k) * w (ix2 k q) := by
  refine (Ideal.matmul_constant_zero_apply dot_S1024x256_S256x8_S1024x8_1_0_0_1_n_n none l w (ix2 p q)).trans ?_
  rw [← Equiv.sum_comp (ValueIdx.contrEquiv1 dot_S1024x256_S256x8_S1024x8_1_0_0_1_n_n 256 rfl rfl).symm]
  refine Finset.sum_congr rfl fun k _ => ?_
  have hk := ValueIdx.contrEquiv1_symm_val dot_S1024x256_S256x8_S1024x8_1_0_0_1_n_n 256 rfl rfl k
  have el : dot_S1024x256_S256x8_S1024x8_1_0_0_1_n_n.lhsIdx (ix2 p q) ((ValueIdx.contrEquiv1 dot_S1024x256_S256x8_S1024x8_1_0_0_1_n_n 256 rfl rfl).symm k) = ix2 p k := funext fun a => Fin.ext (by
    match a with
    | ⟨0, _⟩ => exact dotD_at_lhs0 _ _
    | ⟨1, _⟩ => exact (dotD_at_lhs1 _ _).trans hk)
  have er : dot_S1024x256_S256x8_S1024x8_1_0_0_1_n_n.rhsIdx (ix2 p q) ((ValueIdx.contrEquiv1 dot_S1024x256_S256x8_S1024x8_1_0_0_1_n_n 256 rfl rfl).symm k) = ix2 k q := funext fun a => Fin.ext (by
    match a with
    | ⟨0, _⟩ => exact (dotD_at_rhs0 _ _).trans hk
    | ⟨1, _⟩ => exact dotD_at_rhs1 _ _)
  rw [el, er]

/-! ## One row of the read-out matrix, cut out and laid over the block's rows -/

/-- Row `o` of the read-out matrix as the body forms it: cut out, flattened, put back as a one-row matrix. -/
abbrev jacRow (w3 : FVec Ideal S6x256 .f32) (o : Nat) (h : S6x256.Slices ![o, 0] S1x256) : FVec Ideal S1x256 .f32 :=
  shapeCast S1x256 (shapeCast S256 (extractStridedSlice S1x256 ![o, 0] w3 h) shapeCasts_S1x256_S256) shapeCasts_S256_S1x256

/-- It reads that row of the matrix. -/
theorem jacRow_at (w3 : FVec Ideal S6x256 .f32) (o : Nat) (h : S6x256.Slices ![o, 0] S1x256) (i : Fin 6) (hi : i.val = o) (c : Fin 256) :
    jacRow w3 o h (ix2 (0 : Fin 1) c)
      = w3 (ix2 i c) := by
  refine (shapeCast_a_1a_apply _ _ _ _).trans ?_
  refine (shapeCast_1a_a_apply _ _ _).trans ?_
  exact slice2_axis0_apply o w3 h (0 : Fin 1) c i (by rw [hi]; rfl)

/-! ## The chain: mask, carry through the second layer, mask, carry through the first -/

/-- With the two indicators read as the row-wise network's, the chain at `(r, j)` is the row-wise Jacobian entry. -/
theorem jacChain_at (v0 : Vec Ideal S1024x8 .f32) (v2 : Vec Ideal S256x8 .f32) (v3 : Vec Ideal S256x256 .f32)
    (v4 : Vec Ideal S6x256 .f32) (v5 v6 : Vec Ideal S256 .f32)
    (M1 M2 : FVec Ideal S1024x256 .f32) (row : FVec Ideal S1x256 .f32) (i : Fin 6) (r : Fin 1024)
    (h1 : ∀ h : Fin 256, M1 (ix2 r h) = Net.s1 v2 v5 (blkRow v0 r) h)
    (h2 : ∀ h : Fin 256, M2 (ix2 r h) = Net.s2 v2 v3 v5 v6 (blkRow v0 r) h)
    (hrow : ∀ h : Fin 256, row (ix2 (0 : Fin 1) h) = v4 (ix2 i h)) (j : Fin 8) :
    matmul (F := Ideal) (φ₂ := .f32) dot_S1024x256_S256x8_S1024x8_1_0_0_1_n_n none
        (mulf (matmul (F := Ideal) (φ₂ := .f32) dot_S1024x256_S256x256_S1024x256_1_0_0_1_n_n none
          (mulf (broadcastTo S1024x256 row broadcasts_S1x256_S1024x256) M2) v3
          (constant (F := Ideal) S1024x256 .f32 0x00000000#32)) M1)
        v2 (constant (F := Ideal) S1024x8 .f32 0x00000000#32) (ix2 r j)
      = Net.jac v2 v3 v4 v5 v6 (blkRow v0 r) i j := by
  refine (dotD_at _ _ r j).trans ?_
  unfold Net.jac
  refine Finset.sum_congr rfl fun k _ => ?_
  refine congrArg (· * v2 (ix2 k j)) ?_
  refine (mulf_apply _ _ _).trans ?_
  unfold Net.jB
  rw [h1 k]
  refine congrArg (· * Net.s1 v2 v5 (blkRow v0 r) k) ?_
  refine (dotB_at _ _ r k).trans ?_
  refine Finset.sum_congr rfl fun c _ => ?_
  refine congrArg (· * v3 (ix2 c k)) ?_
  refine (mulf_apply _ _ _).trans ?_
  unfold Net.jA
  rw [h2 c, broadcastTo_1b_ab_apply, hrow c]

/-! ## The pieces the body stores of an eight-column result -/

/-- Columns `0..5` recast as `[1024, 1, 6]`, at `(r, 0, q)`: the entry at `(r, q)`. -/
theorem statePiece_at (J : FVec Ideal S1024x8 .f32) (r : Fin 1024) (q : Fin 6) :
    shapeCast S1024x1x6 (extractStridedSlice S1024x6 ![0, 0] J slices_S1024x8_o0_0_S1024x6) shapeCasts_S1024x6_S1024x1x6 (ix3 r (0 : Fin 1) q)
      = J (ix2 r (Net.ofState q)) := by
  refine (shapeCast_apply _ _ _ (ix2 r q) ?_).trans ?_
  · rw [Shape.rowMajor_val_two, Shape.rowMajor_val_three]
    show r.val * 6 + q.val = (r.val * 1 + 0) * 6 + q.val
    omega
  · exact slice2_axis1_apply 0 J slices_S1024x8_o0_0_S1024x6 r q (Net.ofState q) (Nat.zero_add _).symm

/-- Column `c` flattened and put back as a one-column matrix, at `(r, 0)`: the entry at `(r, c)`. -/
theorem colPiece_at (J : FVec Ideal S1024x8 .f32) (o : Nat) (h : S1024x8.Slices ![0, o] S1024x1) (c : Fin 8) (hc : c.val = o) (r : Fin 1024) :
    shapeCast S1024x1 (shapeCast S1024 (extractStridedSlice S1024x1 ![0, o] J h) shapeCasts_S1024x1_S1024) shapeCasts_S1024_S1024x1 (ix2 r (0 : Fin 1))
      = J (ix2 r c) := by
  refine (shapeCast_apply _ _ _ (ix1 r) ?_).trans ?_
  · rw [Shape.rowMajor_val_one, Shape.rowMajor_val_two]
    show r.val = r.val * 1 + 0
    omega
  refine (shapeCast_apply _ _ _ (ix2 r (0 : Fin 1)) ?_).trans ?_
  · rw [Shape.rowMajor_val_one, Shape.rowMajor_val_two]
    show r.val * 1 + 0 = r.val
    omega
  · exact slice2_axis1_apply o J h r (0 : Fin 1) c (by rw [hc]; rfl)

/-! ## The eight Jacobian entries of output `i`, per input row -/

theorem jac0_at (r : Fin 1024) (j : Fin 8) :
    k0_pay10 (F := Ideal) v2 v3 (m1 v0 v2 v5) (k0_pay9 (F := Ideal) v0 v2 v3 v4 v5 v6) (constant S1024x256 .f32 0x00000000#32) (ix2 r j) = Net.jac v2 v3 v4 v5 v6 (blkRow v0 r) 0 j := by
  exact jacChain_at v0 v2 v3 v4 v5 v6 (m1 v0 v2 v5) (m2 v0 v2 v3 v5 v6) (jacRow v4 0 slices_S6x256_o0_0_S1x256) 0 r
    (mask1_at v0 v2 v5 r) (mask2_at v0 v2 v3 v5 v6 r) (jacRow_at v4 0 slices_S6x256_o0_0_S1x256 0 rfl) j

theorem jac1_at (r : Fin 1024) (j : Fin 8) :
    k0_pay14 (F := Ideal) v2 v3 v4 (m1 v0 v2 v5) (m2 v0 v2 v3 v5 v6) (ix2 r j) = Net.jac v2 v3 v4 v5 v6 (blkRow v0 r) 1 j := by
  exact jacChain_at v0 v2 v3 v4 v5 v6 (m1 v0 v2 v5) (m2 v0 v2 v3 v5 v6) (jacRow v4 1 slices_S6x256_o1_0_S1x256) 1 r
    (mask1_at v0 v2 v5 r) (mask2_at v0 v2 v3 v5 v6 r) (jacRow_at v4 1 slices_S6x256_o1_0_S1x256 1 rfl) j

theorem jac2_at (r : Fin 1024) (j : Fin 8) :
    k0_pay19 (F := Ideal) v2 v3 v4 (m1 v0 v2 v5) (m2 v0 v2 v3 v5 v6) (ix2 r j) = Net.jac v2 v3 v4 v5 v6 (blkRow v0 r) 2 j := by
  exact jacChain_at v0 v2 v3 v4 v5 v6 (m1 v0 v2 v5) (m2 v0 v2 v3 v5 v6) (jacRow v4 2 slices_S6x256_o2_0_S1x256) 2 r
    (mask1_at v0 v2 v5 r) (mask2_at v0 v2 v3 v5 v6 r) (jacRow_at v4 2 slices_S6x256_o2_0_S1x256 2 rfl) j

theorem jac3_at (r : Fin 1024) (j : Fin 8) :
    k0_pay23 (F := Ideal) v2 v3 v4 (m1 v0 v2 v5) (m2 v0 v2 v3 v5 v6) (ix2 r j) = Net.jac v2 v3 v4 v5 v6 (blkRow v0 r) 3 j := by
  exact jacChain_at v0 v2 v3 v4 v5 v6 (m1 v0 v2 v5) (m2 v0 v2 v3 v5 v6) (jacRow v4 3 slices_S6x256_o3_0_S1x256) 3 r
    (mask1_at v0 v2 v5 r) (mask2_at v0 v2 v3 v5 v6 r) (jacRow_at v4 3 slices_S6x256_o3_0_S1x256 3 rfl) j

theorem jac4_at (r : Fin 1024) (j : Fin 8) :
    k0_pay28 (F := Ideal) v2 v3 v4 (m1 v0 v2 v5) (m2 v0 v2 v3 v5 v6) (ix2 r j) = Net.jac v2 v3 v4 v5 v6 (blkRow v0 r) 4 j := by
  exact jacChain_at v0 v2 v3 v4 v5 v6 (m1 v0 v2 v5) (m2 v0 v2 v3 v5 v6) (jacRow v4 4 slices_S6x256_o4_0_S1x256) 4 r
    (mask1_at v0 v2 v5 r) (mask2_at v0 v2 v3 v5 v6 r) (jacRow_at v4 4 slices_S6x256_o4_0_S1x256 4 rfl) j

theorem jac5_at (r : Fin 1024) (j : Fin 8) :
    k0_pay32 (F := Ideal) v2 v3 v4 (m1 v0 v2 v5) (m2 v0 v2 v3 v5 v6) (ix2 r j) = Net.jac v2 v3 v4 v5 v6 (blkRow v0 r) 5 j := by
  exact jacChain_at v0 v2 v3 v4 v5 v6 (m1 v0 v2 v5) (m2 v0 v2 v3 v5 v6) (jacRow v4 5 slices_S6x256_o5_0_S1x256) 5 r
    (mask1_at v0 v2 v5 r) (mask2_at v0 v2 v3 v5 v6 r) (jacRow_at v4 5 slices_S6x256_o5_0_S1x256 5 rfl) j

/-! ## The stored pieces -/

/-- Row `0` of the state Jacobian. -/
theorem state0_at (r : Fin 1024) (q : Fin 6) :
    k0_pay11 (F := Ideal) v2 v3 (m1 v0 v2 v5) (k0_pay9 (F := Ideal) v0 v2 v3 v4 v5 v6) (constant S1024x256 .f32 0x00000000#32) (ix3 r (0 : Fin 1) q) = Net.jac v2 v3 v4 v5 v6 (blkRow v0 r) 0 (Net.ofState q) := by
  exact (statePiece_at (k0_pay10 (F := Ideal) v2 v3 (m1 v0 v2 v5) (k0_pay9 (F := Ideal) v0 v2 v3 v4 v5 v6) (constant S1024x256 .f32 0x00000000#32)) r q).trans (jac0_at v0 v2 v3 v4 v5 v6 r (Net.ofState q))

/-- Entry `0` of the strain-rate column. -/
theorem rateCol0_at (r : Fin 1024) :
    k0_pay12 (F := Ideal) v2 v3 (m1 v0 v2 v5) (k0_pay9 (F := Ideal) v0 v2 v3 v4 v5 v6) (constant S1024x256 .f32 0x00000000#32) (ix2 r (0 : Fin 1)) = Net.jac v2 v3 v4 v5 v6 (blkRow v0 r) 0 6 := by
  exact (colPiece_at (k0_pay10 (F := Ideal) v2 v3 (m1 v0 v2 v5) (k0_pay9 (F := Ideal) v0 v2 v3 v4 v5 v6) (constant S1024x256 .f32 0x00000000#32)) 6 slices_S1024x8_o0_6_S1024x1 6 rfl r).trans (jac0_at v0 v2 v3 v4 v5 v6 r 6)

/-- Entry `0` of the temperature column. -/
theorem tempCol0_at (r : Fin 1024) :
    k0_pay13 (F := Ideal) v2 v3 (m1 v0 v2 v5) (k0_pay9 (F := Ideal) v0 v2 v3 v4 v5 v6) (constant S1024x256 .f32 0x00000000#32) (ix2 r (0 : Fin 1)) = Net.jac v2 v3 v4 v5 v6 (blkRow v0 r) 0 7 := by
  exact (colPiece_at (k0_pay10 (F := Ideal) v2 v3 (m1 v0 v2 v5) (k0_pay9 (F := Ideal) v0 v2 v3 v4 v5 v6) (constant S1024x256 .f32 0x00000000#32)) 7 slices_S1024x8_o0_7_S1024x1 7 rfl r).trans (jac0_at v0 v2 v3 v4 v5 v6 r 7)

/-- Row `1` of the state Jacobian. -/
theorem state1_at (r : Fin 1024) (q : Fin 6) :
    k0_pay15 (F := Ideal) v2 v3 v4 (m1 v0 v2 v5) (m2 v0 v2 v3 v5 v6) (ix3 r (0 : Fin 1) q) = Net.jac v2 v3 v4 v5 v6 (blkRow v0 r) 1 (Net.ofState q) := by
  exact (statePiece_at (k0_pay14 (F := Ideal) v2 v3 v4 (m1 v0 v2 v5) (m2 v0 v2 v3 v5 v6)) r q).trans (jac1_at v0 v2 v3 v4 v5 v6 r (Net.ofState q))

/-- Entry `1` of the strain-rate column. -/
theorem rateCol1_at (r : Fin 1024) :
    k0_pay16 (F := Ideal) v2 v3 v4 (m1 v0 v2 v5) (m2 v0 v2 v3 v5 v6) (ix2 r (0 : Fin 1)) = Net.jac v2 v3 v4 v5 v6 (blkRow v0 r) 1 6 := by
  exact (colPiece_at (k0_pay14 (F := Ideal) v2 v3 v4 (m1 v0 v2 v5) (m2 v0 v2 v3 v5 v6)) 6 slices_S1024x8_o0_6_S1024x1 6 rfl r).trans (jac1_at v0 v2 v3 v4 v5 v6 r 6)

/-- Entry `1` of the temperature column. -/
theorem tempCol1_at (r : Fin 1024) :
    k0_pay18 (F := Ideal) (k0_pay17 (F := Ideal) v2 v3 v4 (m1 v0 v2 v5) (m2 v0 v2 v3 v5 v6)) (ix2 r (0 : Fin 1)) = Net.jac v2 v3 v4 v5 v6 (blkRow v0 r) 1 7 := by
  exact (colPiece_at (k0_pay14 (F := Ideal) v2 v3 v4 (m1 v0 v2 v5) (m2 v0 v2 v3 v5 v6)) 7 slices_S1024x8_o0_7_S1024x1 7 rfl r).trans (jac1_at v0 v2 v3 v4 v5 v6 r 7)

/-- Row `2` of the state Jacobian. -/
theorem state2_at (r : Fin 1024) (q : Fin 6) :
    k0_pay20 (F := Ideal) v2 v3 v4 (m1 v0 v2 v5) (m2 v0 v2 v3 v5 v6) (ix3 r (0 : Fin 1) q) = Net.jac v2 v3 v4 v5 v6 (blkRow v0 r) 2 (Net.ofState q) := by
  exact (statePiece_at (k0_pay19 (F := Ideal) v2 v3 v4 (m1 v0 v2 v5) (m2 v0 v2 v3 v5 v6)) r q).trans (jac2_at v0 v2 v3 v4 v5 v6 r (Net.ofState q))

/-- Entry `2` of the strain-rate column. -/
theorem rateCol2_at (r : Fin 1024) :
    k0_pay21 (F := Ideal) v2 v3 v4 (m1 v0 v2 v5) (m2 v0 v2 v3 v5 v6) (ix2 r (0 : Fin 1)) = Net.jac v2 v3 v4 v5 v6 (blkRow v0 r) 2 6 := by
  exact (colPiece_at (k0_pay19 (F := Ideal) v2 v3 v4 (m1 v0 v2 v5) (m2 v0 v2 v3 v5 v6)) 6 slices_S1024x8_o0_6_S1024x1 6 rfl r).trans (jac2_at v0 v2 v3 v4 v5 v6 r 6)

/-- Entry `2` of the temperature column. -/
theorem tempCol2_at (r : Fin 1024) :
    k0_pay22 (F := Ideal) v2 v3 v4 (m1 v0 v2 v5) (m2 v0 v2 v3 v5 v6) (ix2 r (0 : Fin 1)) = Net.jac v2 v3 v4 v5 v6 (blkRow v0 r) 2 7 := by
  exact (colPiece_at (k0_pay19 (F := Ideal) v2 v3 v4 (m1 v0 v2 v5) (m2 v0 v2 v3 v5 v6)) 7 slices_S1024x8_o0_7_S1024x1 7 rfl r).trans (jac2_at v0 v2 v3 v4 v5 v6 r 7)

/-- Row `3` of the state Jacobian. -/
theorem state3_at (r : Fin 1024) (q : Fin 6) :
    k0_pay24 (F := Ideal) v2 v3 v4 (m1 v0 v2 v5) (m2 v0 v2 v3 v5 v6) (ix3 r (0 : Fin 1) q) = Net.jac v2 v3 v4 v5 v6 (blkRow v0 r) 3 (Net.ofState q) := by
  exact (statePiece_at (k0_pay23 (F := Ideal) v2 v3 v4 (m1 v0 v2 v5) (m2 v0 v2 v3 v5 v6)) r q).trans (jac3_at v0 v2 v3 v4 v5 v6 r (Net.ofState q))

/-- Entry `3` of the strain-rate column. -/
theorem rateCol3_at (r : Fin 1024) :
    k0_pay26 (F := Ideal) (k0_pay25 (F := Ideal) v2 v3 v4 (m1 v0 v2 v5) (m2 v0 v2 v3 v5 v6)) (ix2 r (0 : Fin 1)) = Net.jac v2 v3 v4 v5 v6 (blkRow v0 r) 3 6 := by
  exact (colPiece_at (k0_pay23 (F := Ideal) v2 v3 v4 (m1 v0 v2 v5) (m2 v0 v2 v3 v5 v6)) 6 slices_S1024x8_o0_6_S1024x1 6 rfl r).trans (jac3_at v0 v2 v3 v4 v5 v6 r 6)

/-- Entry `3` of the temperature column. -/
theorem tempCol3_at (r : Fin 1024) :
    k0_pay27 (F := Ideal) (k0_pay23 (F := Ideal) v2 v3 v4 (m1 v0 v2 v5) (m2 v0 v2 v3 v5 v6)) (ix2 r (0 : Fin 1)) = Net.jac v2 v3 v4 v5 v6 (blkRow v0 r) 3 7 := by
  exact (colPiece_at (k0_pay23 (F := Ideal) v2 v3 v4 (m1 v0 v2 v5) (m2 v0 v2 v3 v5 v6)) 7 slices_S1024x8_o0_7_S1024x1 7 rfl r).trans (jac3_at v0 v2 v3 v4 v5 v6 r 7)

/-- Row `4` of the state Jacobian. -/
theorem state4_at (r : Fin 1024) (q : Fin 6) :
    k0_pay29 (F := Ideal) v2 v3 v4 (m1 v0 v2 v5) (m2 v0 v2 v3 v5 v6) (ix3 r (0 : Fin 1) q) = Net.jac v2 v3 v4 v5 v6 (blkRow v0 r) 4 (Net.ofState q) := by
  exact (statePiece_at (k0_pay28 (F := Ideal) v2 v3 v4 (m1 v0 v2 v5) (m2 v0 v2 v3 v5 v6)) r q).trans (jac4_at v0 v2 v3 v4 v5 v6 r (Net.ofState q))

/-- Entry `4` of the strain-rate column. -/
theorem rateCol4_at (r : Fin 1024) :
    k0_pay30 (F := Ideal) v2 v3 v4 (m1 v0 v2 v5) (m2 v0 v2 v3 v5 v6) (ix2 r (0 : Fin 1)) = Net.jac v2 v3 v4 v5 v6 (blkRow v0 r) 4 6 := by
  exact (colPiece_at (k0_pay28 (F := Ideal) v2 v3 v4 (m1 v0 v2 v5) (m2 v0 v2 v3 v5 v6)) 6 slices_S1024x8_o0_6_S1024x1 6 rfl r).trans (jac4_at v0 v2 v3 v4 v5 v6 r 6)

/-- Entry `4` of the temperature column. -/
theorem tempCol4_at (r : Fin 1024) :
    k0_pay31 (F := Ideal) v2 v3 v4 (m1 v0 v2 v5) (m2 v0 v2 v3 v5 v6) (ix2 r (0 : Fin 1)) = Net.jac v2 v3 v4 v5 v6 (blkRow v0 r) 4 7 := by
  exact (colPiece_at (k0_pay28 (F := Ideal) v2 v3 v4 (m1 v0 v2 v5) (m2 v0 v2 v3 v5 v6)) 7 slices_S1024x8_o0_7_S1024x1 7 rfl r).trans (jac4_at v0 v2 v3 v4 v5 v6 r 7)

/-- Row `5` of the state Jacobian. -/
theorem state5_at (r : Fin 1024) (q : Fin 6) :
    k0_pay1 (F := Ideal) (k0_pay33 (F := Ideal) v2 v3 v4 (m1 v0 v2 v5) (m2 v0 v2 v3 v5 v6)) (ix3 r (0 : Fin 1) q) = Net.jac v2 v3 v4 v5 v6 (blkRow v0 r) 5 (Net.ofState q) := by
  exact (statePiece_at (k0_pay32 (F := Ideal) v2 v3 v4 (m1 v0 v2 v5) (m2 v0 v2 v3 v5 v6)) r q).trans (jac5_at v0 v2 v3 v4 v5 v6 r (Net.ofState q))

/-- Entry `5` of the strain-rate column. -/
theorem rateCol5_at (r : Fin 1024) :
    k0_pay2 (F := Ideal) (k0_pay32 (F := Ideal) v2 v3 v4 (m1 v0 v2 v5) (m2 v0 v2 v3 v5 v6)) (ix2 r (0 : Fin 1)) = Net.jac v2 v3 v4 v5 v6 (blkRow v0 r) 5 6 := by
  exact (colPiece_at (k0_pay32 (F := Ideal) v2 v3 v4 (m1 v0 v2 v5) (m2 v0 v2 v3 v5 v6)) 6 slices_S1024x8_o0_6_S1024x1 6 rfl r).trans (jac5_at v0 v2 v3 v4 v5 v6 r 6)

/-- Entry `5` of the temperature column. -/
theorem tempCol5_at (r : Fin 1024) :
    k0_pay3 (F := Ideal) (k0_pay32 (F := Ideal) v2 v3 v4 (m1 v0 v2 v5) (m2 v0 v2 v3 v5 v6)) (ix2 r (0 : Fin 1)) = Net.jac v2 v3 v4 v5 v6 (blkRow v0 r) 5 7 := by
  exact (colPiece_at (k0_pay32 (F := Ideal) v2 v3 v4 (m1 v0 v2 v5) (m2 v0 v2 v3 v5 v6)) 7 slices_S1024x8_o0_7_S1024x1 7 rfl r).trans (jac5_at v0 v2 v3 v4 v5 v6 r 7)

end Cert.KernelIdeal.PayAt

end
-- ==== Proof.KernelIdealBlocks.lean ====
/-
  What the body leaves in each output buffer, in closed form over the extended reals: entry
  `(r, i)` of the rates' buffer is the network's output `i` at row `r` of the block of input rows;
  entry `(r, i, q)` of the state Jacobian's buffer is the Jacobian of output `i` against state entry
  `q` at that row; entry `(r, i)` of a column buffer is the Jacobian of output `i` against the
  strain rate (input entry 6) or the temperature (input entry 7). Each buffer is a patchwork of
  stores, every store's value the same function of the index it lands on.
-/
import proofs.«163359_j55155970015481_1_alg».proof.Proof.KernelIdealBody
import proofs.«163359_j55155970015481_1_alg».proof.Proof.BodyJac
import Idealize.ShloMosaic.Lib.Pipeline.Value

set_option maxRecDepth 16384

noncomputable section

namespace Cert.KernelIdeal.Region

open Idealize.ShloMosaic Idealize.ShloMosaic.ValueIdx Cert.KernelIdeal Cert.KernelIdeal.Gen

variable (x0 : Vec Ideal S1024x8 .f32) (x1 : Vec Ideal S256x8 .f32) (x2 : Vec Ideal S256x256 .f32)
  (x3 : Vec Ideal S6x256 .f32) (x4 x5 : Vec Ideal S256 .f32) (x6 : Vec Ideal S6 .f32)

/-- The rates of the block's rows. -/
def blkRate : S1024x6.Idx → EReal := fun y =>
  Net.y x1 x2 x3 x4 x5 x6 (PayAt.blkRow x0 ⟨(y 0).val, (y 0).isLt⟩) ⟨(y 1).val, (y 1).isLt⟩

/-- The state Jacobian of the block's rows. -/
def blkState : S1024x6x6.Idx → EReal := fun y =>
  Net.jac x1 x2 x3 x4 x5 (PayAt.blkRow x0 ⟨(y 0).val, (y 0).isLt⟩) ⟨(y 1).val, (y 1).isLt⟩ (Net.ofState ⟨(y 2).val, (y 2).isLt⟩)

/-- Column `j` of the Jacobian of the block's rows. -/
def blkCol (j : Fin 8) : S1024x6.Idx → EReal := fun y =>
  Net.jac x1 x2 x3 x4 x5 (PayAt.blkRow x0 ⟨(y 0).val, (y 0).isLt⟩) ⟨(y 1).val, (y 1).isLt⟩ j

/-- The two-axis offsets of a whole-buffer rectangle are the zero offsets. -/
private theorem off2_zero : (![0, 0] : Fin 2 → Nat) = fun _ => 0 := funext fun a => by fin_cases a <;> rfl

/-- The one-axis offset of a whole-buffer rectangle is the zero offset. -/
private theorem off1_zero : (![0] : Fin 1 → Nat) = fun _ => 0 := funext fun a => by fin_cases a; rfl

/-- A store of output row `i` of the state Jacobian, `[1024, 1, 6]` placed at offset `(0, i, 0)`: its local
    index `(r, 0, q)` lands on `(r, i, q)`, where the closed form is the row's Jacobian entry. -/
private theorem statePiece_eq (o : Nat) (inb : ∀ a, (![0, o, 0] : Fin S1024x6x6.rank → Nat) a + S1024x1x6.size a ≤ S1024x6x6.size a)
    (i : Fin 6) (hi : i.val = o) (pay : Vec Ideal S1024x1x6 .f32)
    (hpay : ∀ (r : Fin 1024) (q : Fin 6), pay (ix3 r (0 : Fin 1) q) = Net.jac x1 x2 x3 x4 x5 (PayAt.blkRow x0 r) i (Net.ofState q))
    (x : (Rect.unit (s := S1024x6x6) ![0, o, 0] S1024x1x6.size inb).shape.Idx) :
    pay x = blkState x0 x1 x2 x3 x4 x5 ((Rect.unit (s := S1024x6x6) ![0, o, 0] S1024x1x6.size inb).emb x) := by
  have h1 : (x 1).val < 1 := (x 1).isLt
  have hx : x = ix3 (⟨(x 0).val, (x 0).isLt⟩ : Fin 1024) (0 : Fin 1) (⟨(x 2).val, (x 2).isLt⟩ : Fin 6) :=
    funext fun a => by
      match a with
      | ⟨0, _⟩ => rfl
      | ⟨1, _⟩ => exact Fin.ext (by show (x 1).val = 0; omega)
      | ⟨2, _⟩ => rfl
  have he : (Rect.unit (s := S1024x6x6) ![0, o, 0] S1024x1x6.size inb).emb x
      = ix3 (⟨(x 0).val, (x 0).isLt⟩ : Fin 1024) i (⟨(x 2).val, (x 2).isLt⟩ : Fin 6) :=
    funext fun a => Fin.ext (by
      match a with
      | ⟨0, _⟩ => show 0 + 1 * (x 0).val = (x 0).val; omega
      | ⟨1, _⟩ => show o + 1 * (x 1).val = i.val; omega
      | ⟨2, _⟩ => show 0 + 1 * (x 2).val = (x 2).val; omega)
  rw [he]
  refine (congrArg pay hx).trans ?_
  exact hpay _ _

/-- A store of entry `i` of a Jacobian column, `[1024, 1]` placed at offset `(0, i)`: its local index `(r, 0)`
    lands on `(r, i)`. -/
private theorem colPiece_eq (j : Fin 8) (o : Nat) (inb : ∀ a, (![0, o] : Fin S1024x6.rank → Nat) a + S1024x1.size a ≤ S1024x6.size a)
    (i : Fin 6) (hi : i.val = o) (pay : Vec Ideal S1024x1 .f32)
    (hpay : ∀ r : Fin 1024, pay (ix2 r (0 : Fin 1)) = Net.jac x1 x2 x3 x4 x5 (PayAt.blkRow x0 r) i j)
    (x : (Rect.unit (s := S1024x6) ![0, o] S1024x1.size inb).shape.Idx) :
    pay x = blkCol x0 x1 x2 x3 x4 x5 j ((Rect.unit (s := S1024x6) ![0, o] S1024x1.size inb).emb x) := by
  have h1 : (x 1).val < 1 := (x 1).isLt
  have hx : x = ix2 (⟨(x 0).val, (x 0).isLt⟩ : Fin 1024) (0 : Fin 1) :=
    funext fun a => by
      match a with
      | ⟨0, _⟩ => rfl
      | ⟨1, _⟩ => exact Fin.ext (by show (x 1).val = 0; omega)
  have he : (Rect.unit (s := S1024x6) ![0, o] S1024x1.size inb).emb x = ix2 (⟨(x 0).val, (x 0).isLt⟩ : Fin 1024) i :=
    funext fun a => Fin.ext (by
      match a with
      | ⟨0, _⟩ => show 0 + 1 * (x 0).val = (x 0).val; omega
      | ⟨1, _⟩ => show o + 1 * (x 1).val = i.val; omega)
  rw [he]
  refine (congrArg pay hx).trans ?_
  exact hpay _

theorem outRate_eq : outRate (F := Ideal) x0 x1 x2 x3 x4 x5 x6 = blkRate x0 x1 x2 x3 x4 x5 x6 := by
  -- one store through the whole buffer leaves its payload; the loads through whole buffers read the arrays
  funext y
  unfold outRate
  rw [View.canon_unit_zero off2_zero, View.ld_unit_zero (S := S1024x8) off2_zero, View.ld_unit_zero (S := S256x8) off2_zero,
    View.ld_unit_zero (S := S256x256) off2_zero, View.ld_unit_zero (S := S6x256) off2_zero,
    View.ld_unit_zero (S := S256) off1_zero _ x4, View.ld_unit_zero (S := S256) off1_zero _ x5,
    View.ld_unit_zero (S := S6) off1_zero]
  refine (congrArg _ (eq_ix2 y)).trans ?_
  exact PayAt.rate_at x0 x1 x2 x3 x4 x5 x6 _ _

theorem outState_eq : outState (F := Ideal) x0 x1 x2 x3 x4 x5 x6 = blkState x0 x1 x2 x3 x4 x5 := by
  -- six stores, one output row each; every one agrees with the closed form where it lands, and they cover
  funext y
  unfold outState
  rw [View.ld_unit_zero (S := S1024x8) off2_zero, View.ld_unit_zero (S := S256x8) off2_zero,
    View.ld_unit_zero (S := S256x256) off2_zero, View.ld_unit_zero (S := S6x256) off2_zero,
    View.ld_unit_zero (S := S256) off1_zero _ x4, View.ld_unit_zero (S := S256) off1_zero _ x5]
  refine View.canon_apply_of_pieces (Val := Elt Ideal) (e := .f32) (blkState x0 x1 x2 x3 x4 x5) _ ?_ y (coverState _ _ _ _ _ _ y)
  intro p hp x
  simp only [List.mem_cons, List.mem_nil_iff, or_false] at hp
  rcases hp with rfl | rfl | rfl | rfl | rfl | rfl
  · exact statePiece_eq x0 x1 x2 x3 x4 x5 5 inb_S1024x6x6_S1024x1x6_0_5_0 5 rfl _ (PayAt.state5_at x0 x1 x2 x3 x4 x5) x
  · exact statePiece_eq x0 x1 x2 x3 x4 x5 4 inb_S1024x6x6_S1024x1x6_0_4_0 4 rfl _ (PayAt.state4_at x0 x1 x2 x3 x4 x5) x
  · exact statePiece_eq x0 x1 x2 x3 x4 x5 3 inb_S1024x6x6_S1024x1x6_0_3_0 3 rfl _ (PayAt.state3_at x0 x1 x2 x3 x4 x5) x
  · exact statePiece_eq x0 x1 x2 x3 x4 x5 2 inb_S1024x6x6_S1024x1x6_0_2_0 2 rfl _ (PayAt.state2_at x0 x1 x2 x3 x4 x5) x
  · exact statePiece_eq x0 x1 x2 x3 x4 x5 1 inb_S1024x6x6_S1024x1x6_0_1_0 1 rfl _ (PayAt.state1_at x0 x1 x2 x3 x4 x5) x
  · exact statePiece_eq x0 x1 x2 x3 x4 x5 0 inb_S1024x6x6_S1024x1x6_0_0_0 0 rfl _ (PayAt.state0_at x0 x1 x2 x3 x4 x5) x

theorem outRateCol_eq : outRateCol (F := Ideal) x0 x1 x2 x3 x4 x5 x6 = blkCol x0 x1 x2 x3 x4 x5 6 := by
  -- six stores, one entry of the column each
  funext y
  unfold outRateCol
  rw [View.ld_unit_zero (S := S1024x8) off2_zero, View.ld_unit_zero (S := S256x8) off2_zero,
    View.ld_unit_zero (S := S256x256) off2_zero, View.ld_unit_zero (S := S6x256) off2_zero,
    View.ld_unit_zero (S := S256) off1_zero _ x4, View.ld_unit_zero (S := S256) off1_zero _ x5]
  refine View.canon_apply_of_pieces (Val := Elt Ideal) (e := .f32) (blkCol x0 x1 x2 x3 x4 x5 6) _ ?_ y (coverCol _ _ _ _ _ _ y)
  intro p hp x
  simp only [List.mem_cons, List.mem_nil_iff, or_false] at hp
  rcases hp with rfl | rfl | rfl | rfl | rfl | rfl
  · exact colPiece_eq x0 x1 x2 x3 x4 x5 6 5 inb_S1024x6_S1024x1_0_5 5 rfl _ (PayAt.rateCol5_at x0 x1 x2 x3 x4 x5) x
  · exact colPiece_eq x0 x1 x2 x3 x4 x5 6 4 inb_S1024x6_S1024x1_0_4 4 rfl _ (PayAt.rateCol4_at x0 x1 x2 x3 x4 x5) x
  · exact colPiece_eq x0 x1 x2 x3 x4 x5 6 3 inb_S1024x6_S1024x1_0_3 3 rfl _ (PayAt.rateCol3_at x0 x1 x2 x3 x4 x5) x
  · exact colPiece_eq x0 x1 x2 x3 x4 x5 6 2 inb_S1024x6_S1024x1_0_2 2 rfl _ (PayAt.rateCol2_at x0 x1 x2 x3 x4 x5) x
  · exact colPiece_eq x0 x1 x2 x3 x4 x5 6 1 inb_S1024x6_S1024x1_0_1 1 rfl _ (PayAt.rateCol1_at x0 x1 x2 x3 x4 x5) x
  · exact colPiece_eq x0 x1 x2 x3 x4 x5 6 0 inb_S1024x6_S1024x1_0_0 0 rfl _ (PayAt.rateCol0_at x0 x1 x2 x3 x4 x5) x

theorem outTempCol_eq : outTempCol (F := Ideal) x0 x1 x2 x3 x4 x5 x6 = blkCol x0 x1 x2 x3 x4 x5 7 := by
  -- six stores, one entry of the column each
  funext y
  unfold outTempCol
  rw [View.ld_unit_zero (S := S1024x8) off2_zero, View.ld_unit_zero (S := S256x8) off2_zero,
    View.ld_unit_zero (S := S256x256) off2_zero, View.ld_unit_zero (S := S6x256) off2_zero,
    View.ld_unit_zero (S := S256) off1_zero _ x4, View.ld_unit_zero (S := S256) off1_zero _ x5]
  refine View.canon_apply_of_pieces (Val := Elt Ideal) (e := .f32) (blkCol x0 x1 x2 x3 x4 x5 7) _ ?_ y (coverCol _ _ _ _ _ _ y)
  intro p hp x
  simp only [List.mem_cons, List.mem_nil_iff, or_false] at hp
  rcases hp with rfl | rfl | rfl | rfl | rfl | rfl
  · exact colPiece_eq x0 x1 x2 x3 x4 x5 7 5 inb_S1024x6_S1024x1_0_5 5 rfl _ (PayAt.tempCol5_at x0 x1 x2 x3 x4 x5) x
  · exact colPiece_eq x0 x1 x2 x3 x4 x5 7 4 inb_S1024x6_S1024x1_0_4 4 rfl _ (PayAt.tempCol4_at x0 x1 x2 x3 x4 x5) x
  · exact colPiece_eq x0 x1 x2 x3 x4 x5 7 3 inb_S1024x6_S1024x1_0_3 3 rfl _ (PayAt.tempCol3_at x0 x1 x2 x3 x4 x5) x
  · exact colPiece_eq x0 x1 x2 x3 x4 x5 7 2 inb_S1024x6_S1024x1_0_2 2 rfl _ (PayAt.tempCol2_at x0 x1 x2 x3 x4 x5) x
  · exact colPiece_eq x0 x1 x2 x3 x4 x5 7 1 inb_S1024x6_S1024x1_0_1 1 rfl _ (PayAt.tempCol1_at x0 x1 x2 x3 x4 x5) x
  · exact colPiece_eq x0 x1 x2 x3 x4 x5 7 0 inb_S1024x6_S1024x1_0_0 0 rfl _ (PayAt.tempCol0_at x0 x1 x2 x3 x4 x5) x

end Cert.KernelIdeal.Region

end
-- ==== Proof.KernelIdealArrays.lean ====
/-
  Each output array after the region's run. Grid point `t` handles input rows `1024 t … 1024 t + 1023`
  of the `[65536, 8]` array of rows and writes back block `t` (the same rows) of each output array; the
  weights and biases are staged whole. The body's result at a row depends on that row alone, so block
  `t` of every output is block `t` of ONE row-wise function of the arrays as the region finds them, and
  the 64 blocks tile the 65536 rows: each output array ends at that function.
-/
import proofs.«163359_j55155970015481_1_alg».proof.Proof.KernelIdealFrame
import proofs.«163359_j55155970015481_1_alg».proof.Proof.KernelIdealBlocks
import Idealize.ShloMosaic.Lib.Pipeline.Value

set_option maxRecDepth 16384

noncomputable section

namespace Cert.KernelIdeal.Region

open Idealize.ShloMosaic Idealize.ShloMosaic.ValueIdx Idealize.ShloMosaic.TcCoe Cert.KernelIdeal Cert.KernelIdeal.Gen
open Idealize.SL.Sem
open Idealize.ShloMosaic.Pipeline (Dat Cfg Window)

/-- The rates of all 65536 rows. -/
def arrRate (X : S65536x8.Idx → EReal) (w1 : S256x8.Idx → EReal) (w2 : S256x256.Idx → EReal) (w3 : S6x256.Idx → EReal) (b1 b2 : S256.Idx → EReal) (b3 : S6.Idx → EReal) : S65536x6.Idx → EReal := fun i =>
  Net.y w1 w2 w3 b1 b2 b3 (fun j => X (ix2 ⟨(i 0).val, (i 0).isLt⟩ j)) ⟨(i 1).val, (i 1).isLt⟩

/-- The state Jacobian of all rows. -/
def arrState (X : S65536x8.Idx → EReal) (w1 : S256x8.Idx → EReal) (w2 : S256x256.Idx → EReal) (w3 : S6x256.Idx → EReal) (b1 b2 : S256.Idx → EReal) : S65536x6x6.Idx → EReal := fun i =>
  Net.jac w1 w2 w3 b1 b2 (fun j => X (ix2 ⟨(i 0).val, (i 0).isLt⟩ j)) ⟨(i 1).val, (i 1).isLt⟩ (Net.ofState ⟨(i 2).val, (i 2).isLt⟩)

/-- Column `j` of the Jacobian of all rows. -/
def arrCol (X : S65536x8.Idx → EReal) (w1 : S256x8.Idx → EReal) (w2 : S256x256.Idx → EReal) (w3 : S6x256.Idx → EReal) (b1 b2 : S256.Idx → EReal) (j : Fin 8) : S65536x6.Idx → EReal := fun i =>
  Net.jac w1 w2 w3 b1 b2 (fun j' => X (ix2 ⟨(i 0).val, (i 0).isLt⟩ j')) ⟨(i 1).val, (i 1).isLt⟩ j

variable (m : (ℓ : Loc nD τ sig) → Buf (Elt Ideal) ℓ)

/-! ## The printed index maps -/

/-- Decided over the 64 grid points: the block of input rows and the four output blocks sit at block
    index `t` along the rows and 0 along every other axis; the weights and biases at block index 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 1) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The input blocks at a grid point -/

/-- The block of input rows at point `t`. -/
abbrev xblk (c : Dev nD) (t : Fin cfg0.N) : Vec Ideal S1024x8 .f32 := iblk m c 0 t

/-- Row `r` of the block at point `t` is row `1024 t + r` of the array of rows. -/
theorem xblk_row (c : Dev nD) (t : Fin cfg0.N) (r : Fin 1024) (n : Fin 65536) (hn : n.val = 1024 * t.val + r.val) :
    PayAt.blkRow (xblk m c t) r = fun k => V m c main_v3 (ix2 n k) := by
  obtain ⟨e0, e1, -⟩ := idx_facts t
  funext k
  show iblk m c 0 t (ix2 r k) = _
  unfold iblk
  rw [View.read_apply]
  show V m c main_v3 _ = V m c main_v3 _
  congr 1
  funext a
  apply Fin.ext
  match a with
  | ⟨0, _⟩ => show win0_0.index t (0 : Fin 2) * 1024 + 1 * r.val = n.val; omega
  | ⟨1, _⟩ => show win0_0.index t (1 : Fin 2) * 8 + 1 * k.val = k.val; omega

/-! The weights and biases are staged whole: at every point the block is the array. -/

theorem wblk1_eq (c : Dev nD) (t : Fin cfg0.N) : (iblk m c 1 t : Vec Ideal S256x8 .f32) = V m c main_arg4 := by
  obtain ⟨a0, a1, b0, b1, c0, c1, d0, d1, f4, f5, f6, r0, r1, s0, s1, s2, p0, p1, q0, q1⟩ := idx_facts t
  funext y
  show iblk m c 1 t y = _
  unfold iblk
  rw [View.read_apply]
  show V m c main_arg4 _ = V m c main_arg4 y
  congr 1
  funext a
  apply Fin.ext
  match a with
  | ⟨0, _⟩ => show win0_1.index t (0 : Fin 2) * 256 + 1 * (y 0).val = (y 0).val; omega
  | ⟨1, _⟩ => show win0_1.index t (1 : Fin 2) * 8 + 1 * (y 1).val = (y 1).val; omega

theorem wblk2_eq (c : Dev nD) (t : Fin cfg0.N) : (iblk m c 2 t : Vec Ideal S256x256 .f32) = V m c main_arg5 := by
  obtain ⟨a0, a1, b0, b1, c0, c1, d0, d1, f4, f5, f6, r0, r1, s0, s1, s2, p0, p1, q0, q1⟩ := idx_facts t
  funext y
  show iblk m c 2 t y = _
  unfold iblk
  rw [View.read_apply]
  show V m c main_arg5 _ = V m c main_arg5 y
  congr 1
  funext a
  apply Fin.ext
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem wblk3_eq (c : Dev nD) (t : Fin cfg0.N) : (iblk m c 3 t : Vec Ideal S6x256 .f32) = V m c main_arg6 := by
  obtain ⟨a0, a1, b0, b1, c0, c1, d0, d1, f4, f5, f6, r0, r1, s0, s1, s2, p0, p1, q0, q1⟩ := idx_facts t
  funext y
  show iblk m c 3 t y = _
  unfold iblk
  rw [View.read_apply]
  show V m c main_arg6 _ = V m c main_arg6 y
  congr 1
  funext a
  apply Fin.ext
  match a with
  | ⟨0, _⟩ => show win0_3.index t (0 : Fin 2) * 6 + 1 * (y 0).val = (y 0).val; omega
  | ⟨1, _⟩ => show win0_3.index t (1 : Fin 2) * 256 + 1 * (y 1).val = (y 1).val; omega

theorem wblk4_eq (c : Dev nD) (t : Fin cfg0.N) : (iblk m c 4 t : Vec Ideal S256 .f32) = V m c main_arg7 := by
  obtain ⟨a0, a1, b0, b1, c0, c1, d0, d1, f4, f5, f6, r0, r1, s0, s1, s2, p0, p1, q0, q1⟩ := idx_facts t
  funext y
  show iblk m c 4 t y = _
  unfold iblk
  rw [View.read_apply]
  show V m c main_arg7 _ = V m c main_arg7 y
  congr 1
  funext a
  apply Fin.ext
  match a with
  | ⟨0, _⟩ => show win0_4.index t (0 : Fin 1) * 256 + 1 * (y 0).val = (y 0).val; omega

theorem wblk5_eq (c : Dev nD) (t : Fin cfg0.N) : (iblk m c 5 t : Vec Ideal S256 .f32) = V m c main_arg8 := by
  obtain ⟨a0, a1, b0, b1, c0, c1, d0, d1, f4, f5, f6, r0, r1, s0, s1, s2, p0, p1, q0, q1⟩ := idx_facts t
  funext y
  show iblk m c 5 t y = _
  unfold iblk
  rw [View.read_apply]
  show V m c main_arg8 _ = V m c main_arg8 y
  congr 1
  funext a
  apply Fin.ext
  match a with
  | ⟨0, _⟩ => show win0_5.index t (0 : Fin 1) * 256 + 1 * (y 0).val = (y 0).val; omega

theorem wblk6_eq (c : Dev nD) (t : Fin cfg0.N) : (iblk m c 6 t : Vec Ideal S6 .f32) = V m c main_arg9 := by
  obtain ⟨a0, a1, b0, b1, c0, c1, d0, d1, f4, f5, f6, r0, r1, s0, s1, s2, p0, p1, q0, q1⟩ := idx_facts t
  funext y
  show iblk m c 6 t y = _
  unfold iblk
  rw [View.read_apply]
  show V m c main_arg9 _ = V m c main_arg9 y
  congr 1
  funext a
  apply Fin.ext
  match a with
  | ⟨0, _⟩ => show win0_6.index t (0 : Fin 1) * 6 + 1 * (y 0).val = (y 0).val; omega

/-! ## What each point writes back -/

/-- Point `t` writes back block `t` of the rates of all rows. -/
theorem flushedRate_eq (c : Dev nD) (t : Fin cfg0.N) :
    (dats m 0 c).flushed 7 t = ((cfg0.win 7).blk t).view.read (Elt Ideal)
      (arrRate (V m c main_v3) (V m c main_arg4) (V m c main_arg5) (V m c main_arg6) (V m c main_arg7) (V m c main_arg8) (V m c main_arg9)) := by
  show (cfg0.win 7).cut (grid0.coords t) ((dats m 0 c).after 7 t) = _
  rw [after0_7, outRate_eq, wblk1_eq, wblk2_eq, wblk3_eq, wblk4_eq, wblk5_eq, wblk6_eq]
  obtain ⟨a0, a1, b0, b1, c0, c1, d0, d1, f4, f5, f6, r0, r1, s0, s1, s2, p0, p1, q0, q1⟩ := idx_facts t
  funext j
  rw [View.read_apply]
  have hE0 : ((((cfg0.win 7).blk t).view.emb j) 0).val = 1024 * t.val + (j 0).val := by
    show win0_7.index t (0 : Fin 2) * 1024 + 1 * (j 0).val = _; omega
  have hE1 : ((((cfg0.win 7).blk t).view.emb j) 1).val = (j 1).val := by
    show win0_7.index t (1 : Fin 2) * 6 + 1 * (j 1).val = _; omega
  show Net.y _ _ _ _ _ _ (PayAt.blkRow (xblk m c t) ⟨(j 0).val, (j 0).isLt⟩) ⟨(j 1).val, (j 1).isLt⟩
    = Net.y _ _ _ _ _ _ (fun k => V m c main_v3 (ix2 ⟨((((cfg0.win 7).blk t).view.emb j) 0).val, ((((cfg0.win 7).blk t).view.emb j) 0).isLt⟩ k))
        ⟨((((cfg0.win 7).blk t).view.emb j) 1).val, ((((cfg0.win 7).blk t).view.emb j) 1).isLt⟩
  rw [xblk_row m c t ⟨(j 0).val, (j 0).isLt⟩ ⟨((((cfg0.win 7).blk t).view.emb j) 0).val, ((((cfg0.win 7).blk t).view.emb j) 0).isLt⟩ hE0]
  exact congrArg _ (Fin.ext hE1.symm)

/-- Point `t` writes back block `t` of the state Jacobian of all rows. -/
theorem flushedState_eq (c : Dev nD) (t : Fin cfg0.N) :
    (dats m 0 c).flushed 8 t = ((cfg0.win 8).blk t).view.read (Elt Ideal)
      (arrState (V m c main_v3) (V m c main_arg4) (V m c main_arg5) (V m c main_arg6) (V m c main_arg7) (V m c main_arg8)) := by
  show (cfg0.win 8).cut (grid0.coords t) ((dats m 0 c).after 8 t) = _
  rw [after0_8, outState_eq, wblk1_eq, wblk2_eq, wblk3_eq, wblk4_eq, wblk5_eq]
  obtain ⟨a0, a1, b0, b1, c0, c1, d0, d1, f4, f5, f6, r0, r1, s0, s1, s2, p0, p1, q0, q1⟩ := idx_facts t
  funext j
  rw [View.read_apply]
  have hE0 : ((((cfg0.win 8).blk t).view.emb j) 0).val = 1024 * t.val + (j 0).val := by
    show win0_8.index t (0 : Fin 3) * 1024 + 1 * (j 0).val = _; omega
  have hE1 : ((((cfg0.win 8).blk t).view.emb j) 1).val = (j 1).val := by
    show win0_8.index t (1 : Fin 3) * 6 + 1 * (j 1).val = _; omega
  have hE2 : ((((cfg0.win 8).blk t).view.emb j) 2).val = (j 2).val := by
    show win0_8.index t (2 : Fin 3) * 6 + 1 * (j 2).val = _; omega
  show Net.jac _ _ _ _ _ (PayAt.blkRow (xblk m c t) ⟨(j 0).val, (j 0).isLt⟩) ⟨(j 1).val, (j 1).isLt⟩ (Net.ofState ⟨(j 2).val, (j 2).isLt⟩)
    = Net.jac _ _ _ _ _ (fun k => V m c main_v3 (ix2 ⟨((((cfg0.win 8).blk t).view.emb j) 0).val, ((((cfg0.win 8).blk t).view.emb j) 0).isLt⟩ k))
        ⟨((((cfg0.win 8).blk t).view.emb j) 1).val, ((((cfg0.win 8).blk t).view.emb j) 1).isLt⟩ (Net.ofState ⟨((((cfg0.win 8).blk t).view.emb j) 2).val, ((((cfg0.win 8).blk t).view.emb j) 2).isLt⟩)
  rw [xblk_row m c t ⟨(j 0).val, (j 0).isLt⟩ ⟨((((cfg0.win 8).blk t).view.emb j) 0).val, ((((cfg0.win 8).blk t).view.emb j) 0).isLt⟩ hE0]
  have e1 : (⟨(j 1).val, (j 1).isLt⟩ : Fin 6) = ⟨((((cfg0.win 8).blk t).view.emb j) 1).val, ((((cfg0.win 8).blk t).view.emb j) 1).isLt⟩ := Fin.ext hE1.symm
  have e2 : (⟨(j 2).val, (j 2).isLt⟩ : Fin 6) = ⟨((((cfg0.win 8).blk t).view.emb j) 2).val, ((((cfg0.win 8).blk t).view.emb j) 2).isLt⟩ := Fin.ext hE2.symm
  rw [e1, e2]

/-- Point `t` writes back block `t` of the strain-rate column of the Jacobian of all rows. -/
theorem flushedRateCol_eq (c : Dev nD) (t : Fin cfg0.N) :
    (dats m 0 c).flushed 9 t = ((cfg0.win 9).blk t).view.read (Elt Ideal)
      (arrCol (V m c main_v3) (V m c main_arg4) (V m c main_arg5) (V m c main_arg6) (V m c main_arg7) (V m c main_arg8) 6) := by
  show (cfg0.win 9).cut (grid0.coords t) ((dats m 0 c).after 9 t) = _
  rw [after0_9, outRateCol_eq, wblk1_eq, wblk2_eq, wblk3_eq, wblk4_eq, wblk5_eq]
  obtain ⟨a0, a1, b0, b1, c0, c1, d0, d1, f4, f5, f6, r0, r1, s0, s1, s2, p0, p1, q0, q1⟩ := idx_facts t
  funext j
  rw [View.read_apply]
  have hE0 : ((((cfg0.win 9).blk t).view.emb j) 0).val = 1024 * t.val + (j 0).val := by
    show win0_9.index t (0 : Fin 2) * 1024 + 1 * (j 0).val = _; omega
  have hE1 : ((((cfg0.win 9).blk t).view.emb j) 1).val = (j 1).val := by
    show win0_9.index t (1 : Fin 2) * 6 + 1 * (j 1).val = _; omega
  show Net.jac _ _ _ _ _ (PayAt.blkRow (xblk m c t) ⟨(j 0).val, (j 0).isLt⟩) ⟨(j 1).val, (j 1).isLt⟩ 6
    = Net.jac _ _ _ _ _ (fun k => V m c main_v3 (ix2 ⟨((((cfg0.win 9).blk t).view.emb j) 0).val, ((((cfg0.win 9).blk t).view.emb j) 0).isLt⟩ k))
        ⟨((((cfg0.win 9).blk t).view.emb j) 1).val, ((((cfg0.win 9).blk t).view.emb j) 1).isLt⟩ 6
  rw [xblk_row m c t ⟨(j 0).val, (j 0).isLt⟩ ⟨((((cfg0.win 9).blk t).view.emb j) 0).val, ((((cfg0.win 9).blk t).view.emb j) 0).isLt⟩ hE0]
  exact congrArg (fun q => Net.jac _ _ _ _ _ _ q 6) (Fin.ext hE1.symm)

/-- Point `t` writes back block `t` of the temperature column of the Jacobian of all rows. -/
theorem flushedTempCol_eq (c : Dev nD) (t : Fin cfg0.N) :
    (dats m 0 c).flushed 10 t = ((cfg0.win 10).blk t).view.read (Elt Ideal)
      (arrCol (V m c main_v3) (V m c main_arg4) (V m c main_arg5) (V m c main_arg6) (V m c main_arg7) (V m c main_arg8) 7) := by
  show (cfg0.win 10).cut (grid0.coords t) ((dats m 0 c).after 10 t) = _
  rw [after0_10, outTempCol_eq, wblk1_eq, wblk2_eq, wblk3_eq, wblk4_eq, wblk5_eq]
  obtain ⟨a0, a1, b0, b1, c0, c1, d0, d1, f4, f5, f6, r0, r1, s0, s1, s2, p0, p1, q0, q1⟩ := idx_facts t
  funext j
  rw [View.read_apply]
  have hE0 : ((((cfg0.win 10).blk t).view.emb j) 0).val = 1024 * t.val + (j 0).val := by
    show win0_10.index t (0 : Fin 2) * 1024 + 1 * (j 0).val = _; omega
  have hE1 : ((((cfg0.win 10).blk t).view.emb j) 1).val = (j 1).val := by
    show win0_10.index t (1 : Fin 2) * 6 + 1 * (j 1).val = _; omega
  show Net.jac _ _ _ _ _ (PayAt.blkRow (xblk m c t) ⟨(j 0).val, (j 0).isLt⟩) ⟨(j 1).val, (j 1).isLt⟩ 7
    = Net.jac _ _ _ _ _ (fun k => V m c main_v3 (ix2 ⟨((((cfg0.win 10).blk t).view.emb j) 0).val, ((((cfg0.win 10).blk t).view.emb j) 0).isLt⟩ k))
        ⟨((((cfg0.win 10).blk t).view.emb j) 1).val, ((((cfg0.win 10).blk t).view.emb j) 1).isLt⟩ 7
  rw [xblk_row m c t ⟨(j 0).val, (j 0).isLt⟩ ⟨((((cfg0.win 10).blk t).view.emb j) 0).val, ((((cfg0.win 10).blk t).view.emb j) 0).isLt⟩ hE0]
  exact congrArg (fun q => Net.jac _ _ _ _ _ _ q 7) (Fin.ext hE1.symm)

/-! ## The blocks tile the rows -/

/-- An index of the array is in point `t`'s block iff each coordinate is in the block's range on its axis. -/
theorem mem_blkRate (t : Fin cfg0.N) (i : S65536x6.Idx) :
    i ∈ ((cfg0.win 7).blk t).view.set ↔ ∀ a : Fin 2, win0_7.index t a * S1024x6.size a ≤ (i a).val ∧ (i a).val < win0_7.index t a * S1024x6.size a + S1024x6.size a := by
  show i ∈ ((View.whole main_v4_0).slice (win0_7.rect t)).set ↔ _
  rw [View.set_slice_whole, Rect.mem_set_unit]
  exact Iff.rfl

/-- Row `r` lies in the block of point `r / 1024`. -/
theorem tilesRate (i : S65536x6.Idx) :
    ∃ t : Fin cfg0.N, (cfg0.win 7).flush t = true ∧ i ∈ ((cfg0.win 7).blk t).view.set := by
  have h0 : (i 0).val < 65536 := (i 0).isLt
  have h1 : (i 1).val < 6 := (i 1).isLt
  obtain ⟨t, ht⟩ : ∃ t : Fin cfg0.N, t.val = (i 0).val / 1024 :=
    ⟨⟨(i 0).val / 1024, by rw [show cfg0.N = 64 from N_0]; omega⟩, rfl⟩
  obtain ⟨a0, a1, b0, b1, c0, c1, d0, d1, f4, f5, f6, r0, r1, s0, s1, s2, p0, p1, q0, q1⟩ := idx_facts t
  refine ⟨t, flush0_7 t, ?_⟩
  rw [mem_blkRate]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 6 ≤ (i 1).val ∧ (i 1).val < win0_7.index t (1 : Fin 2) * 6 + 6; omega

/-- An index of the array is in point `t`'s block iff each coordinate is in the block's range on its axis. -/
theorem mem_blkState (t : Fin cfg0.N) (i : S65536x6x6.Idx) :
    i ∈ ((cfg0.win 8).blk t).view.set ↔ ∀ a : Fin 3, win0_8.index t a * S1024x6x6.size a ≤ (i a).val ∧ (i a).val < win0_8.index t a * S1024x6x6.size a + S1024x6x6.size a := by
  show i ∈ ((View.whole main_v4_1).slice (win0_8.rect t)).set ↔ _
  rw [View.set_slice_whole, Rect.mem_set_unit]
  exact Iff.rfl

/-- Row `r` lies in the block of point `r / 1024`. -/
theorem tilesState (i : S65536x6x6.Idx) :
    ∃ t : Fin cfg0.N, (cfg0.win 8).flush t = true ∧ i ∈ ((cfg0.win 8).blk t).view.set := by
  have h0 : (i 0).val < 65536 := (i 0).isLt
  have h1 : (i 1).val < 6 := (i 1).isLt
  have h2 : (i 2).val < 6 := (i 2).isLt
  obtain ⟨t, ht⟩ : ∃ t : Fin cfg0.N, t.val = (i 0).val / 1024 :=
    ⟨⟨(i 0).val / 1024, by rw [show cfg0.N = 64 from N_0]; omega⟩, rfl⟩
  obtain ⟨a0, a1, b0, b1, c0, c1, d0, d1, f4, f5, f6, r0, r1, s0, s1, s2, p0, p1, q0, q1⟩ := idx_facts t
  refine ⟨t, flush0_8 t, ?_⟩
  rw [mem_blkState]
  intro a
  match a with
  | ⟨0, _⟩ => show win0_8.index t (0 : Fin 3) * 1024 ≤ (i 0).val ∧ (i 0).val < win0_8.index t (0 : Fin 3) * 1024 + 1024; omega
  | ⟨1, _⟩ => show win0_8.index t (1 : Fin 3) * 6 ≤ (i 1).val ∧ (i 1).val < win0_8.index t (1 : Fin 3) * 6 + 6; omega
  | ⟨2, _⟩ => show win0_8.index t (2 : Fin 3) * 6 ≤ (i 2).val ∧ (i 2).val < win0_8.index t (2 : Fin 3) * 6 + 6; omega

/-- An index of the array is in point `t`'s block iff each coordinate is in the block's range on its axis. -/
theorem mem_blkRateCol (t : Fin cfg0.N) (i : S65536x6.Idx) :
    i ∈ ((cfg0.win 9).blk t).view.set ↔ ∀ a : Fin 2, win0_9.index t a * S1024x6.size a ≤ (i a).val ∧ (i a).val < win0_9.index t a * S1024x6.size a + S1024x6.size a := by
  show i ∈ ((View.whole main_v4_2).slice (win0_9.rect t)).set ↔ _
  rw [View.set_slice_whole, Rect.mem_set_unit]
  exact Iff.rfl

/-- Row `r` lies in the block of point `r / 1024`. -/
theorem tilesRateCol (i : S65536x6.Idx) :
    ∃ t : Fin cfg0.N, (cfg0.win 9).flush t = true ∧ i ∈ ((cfg0.win 9).blk t).view.set := by
  have h0 : (i 0).val < 65536 := (i 0).isLt
  have h1 : (i 1).val < 6 := (i 1).isLt
  obtain ⟨t, ht⟩ : ∃ t : Fin cfg0.N, t.val = (i 0).val / 1024 :=
    ⟨⟨(i 0).val / 1024, by rw [show cfg0.N = 64 from N_0]; omega⟩, rfl⟩
  obtain ⟨a0, a1, b0, b1, c0, c1, d0, d1, f4, f5, f6, r0, r1, s0, s1, s2, p0, p1, q0, q1⟩ := idx_facts t
  refine ⟨t, flush0_9 t, ?_⟩
  rw [mem_blkRateCol]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 6 ≤ (i 1).val ∧ (i 1).val < win0_9.index t (1 : Fin 2) * 6 + 6; omega

/-- An index of the array is in point `t`'s block iff each coordinate is in the block's range on its axis. -/
theorem mem_blkTempCol (t : Fin cfg0.N) (i : S65536x6.Idx) :
    i ∈ ((cfg0.win 10).blk t).view.set ↔ ∀ a : Fin 2, win0_10.index t a * S1024x6.size a ≤ (i a).val ∧ (i a).val < win0_10.index t a * S1024x6.size a + S1024x6.size a := by
  show i ∈ ((View.whole main_v4_3).slice (win0_10.rect t)).set ↔ _
  rw [View.set_slice_whole, Rect.mem_set_unit]
  exact Iff.rfl

/-- Row `r` lies in the block of point `r / 1024`. -/
theorem tilesTempCol (i : S65536x6.Idx) :
    ∃ t : Fin cfg0.N, (cfg0.win 10).flush t = true ∧ i ∈ ((cfg0.win 10).blk t).view.set := by
  have h0 : (i 0).val < 65536 := (i 0).isLt
  have h1 : (i 1).val < 6 := (i 1).isLt
  obtain ⟨t, ht⟩ : ∃ t : Fin cfg0.N, t.val = (i 0).val / 1024 :=
    ⟨⟨(i 0).val / 1024, by rw [show cfg0.N = 64 from N_0]; omega⟩, rfl⟩
  obtain ⟨a0, a1, b0, b1, c0, c1, d0, d1, f4, f5, f6, r0, r1, s0, s1, s2, p0, p1, q0, q1⟩ := idx_facts t
  refine ⟨t, flush0_10 t, ?_⟩
  rw [mem_blkTempCol]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 6 ≤ (i 1).val ∧ (i 1).val < win0_10.index t (1 : Fin 2) * 6 + 6; omega

/-! ## Each output array after the run -/

theorem finalRate (c : Dev nD) : (dats m 0 c).arrAt 7 cfg0.N
    = arrRate (V m c main_v3) (V m c main_arg4) (V m c main_arg5) (V m c main_arg6) (V m c main_arg7) (V m c main_arg8) (V m c main_arg9) :=
  (dats m 0 c).arrAt_eq_of_cover 7 _ (fun t _ => flushedRate_eq m c t) tilesRate

theorem finalState (c : Dev nD) : (dats m 0 c).arrAt 8 cfg0.N
    = arrState (V m c main_v3) (V m c main_arg4) (V m c main_arg5) (V m c main_arg6) (V m c main_arg7) (V m c main_arg8) :=
  (dats m 0 c).arrAt_eq_of_cover 8 _ (fun t _ => flushedState_eq m c t) tilesState

theorem finalRateCol (c : Dev nD) : (dats m 0 c).arrAt 9 cfg0.N
    = arrCol (V m c main_v3) (V m c main_arg4) (V m c main_arg5) (V m c main_arg6) (V m c main_arg7) (V m c main_arg8) 6 :=
  (dats m 0 c).arrAt_eq_of_cover 9 _ (fun t _ => flushedRateCol_eq m c t) tilesRateCol

theorem finalTempCol (c : Dev nD) : (dats m 0 c).arrAt 10 cfg0.N
    = arrCol (V m c main_v3) (V m c main_arg4) (V m c main_arg5) (V m c main_arg6) (V m c main_arg7) (V m c main_arg8) 7 :=
  (dats m 0 c).arrAt_eq_of_cover 10 _ (fun t _ => flushedTempCol_eq m c t) tilesTempCol

end Cert.KernelIdeal.Region

end
-- ==== Proof.KernelIdealRun.lean ====
/-
  The idealized kernel's run, read back. The host builds the array of input rows `X` `[64, 1024, 8]`
  (state, strain rate, temperature joined along the last axis) and hands the region its re-reading as
  65536 rows; the region leaves each output array at a row-wise function of those rows; four reshapes
  re-read the leading axis as `[64, 1024]`. Re-reading row `1024 a + b` of a row-wise result as entry
  `(a, b)` gives the same row-wise function of row `(a, b)` of `X`. So the four results are the rates,
  the state Jacobian and the two Jacobian columns of the rows of `X`, and the arguments end as launched.
-/
import proofs.«163359_j55155970015481_1_alg».proof.Proof.KernelIdealArrays
import Idealize.ShloMosaic.Lib.StableHlo.Run
import Idealize.ShloMosaic.Lib.Pipeline.Value

set_option maxRecDepth 16384

noncomputable section

namespace Cert.KernelIdeal.Region

open Idealize.ShloMosaic Idealize.ShloMosaic.ValueIdx Idealize.ShloMosaic.TcCoe Cert.KernelIdeal Cert.KernelIdeal.Gen
open Idealize.SL.Sem
open Idealize.ShloMosaic.Pipeline (Dat Cfg Window)

variable (m : (ℓ : Loc nD τ sig) → Buf (Elt Ideal) ℓ) (ρ : Dev nD → PrngReg)

/-- The array of input rows the host builds from the arguments: the six state entries, then the strain
    rate, then the temperature. -/
def inputRows (c : Dev nD) : S64x1024x8.Idx → EReal :=
  concatenate S64x1024x8 2 [⟨S64x1024x6, (m ((c : Thread nD τ).loc main_arg1))⟩,
    ⟨S64x1024x1, broadcastInDim S64x1024x1 ![0, 1] bcast_S64x1024_S64x1024x1_0_1 (m ((c : Thread nD τ).loc main_arg2))⟩,
    ⟨S64x1024x1, broadcastInDim S64x1024x1 ![0, 1] bcast_S64x1024_S64x1024x1_0_1 (m ((c : Thread nD τ).loc main_arg3))⟩]
    concatenates_S64x1024x6_S64x1024x1_S64x1024x1_S64x1024x8_d2

/-- The region finds those rows re-read as `[65536, 8]`. -/
theorem V_rows (c : Dev nD) : V m c main_v3 = shapeCast S65536x8 (inputRows m c) shapeCasts_S64x1024x8_S65536x8 := by
  show StableHlo.after (List.flatten [hostOps0]) (fun b => m (c, b)) (Proc.devRef .tc main_v3) = _
  simp only [hostOps0, List.flatten_cons, List.flatten_nil, List.append_nil]
  after_results
  rfl

/-! ## The four reshapes after the region -/

/-- After the region, result `main_v5` is the region's output array 7 re-read as `[64, 1024, 6]`. -/
theorem tail_main_v5 (c : Dev nD) : Pipeline.afterTail₀ cfgs (dats m) 0 (V0 m) [hostOps1] c main_v5
    = shapeCast S64x1024x6 ((dats m 0 c).arrAt 7 cfg0.N) shapeCasts_S65536x6_S64x1024x6 := by
  unfold Pipeline.afterTail₀
  show StableHlo.after hostOps1 _ (Proc.devRef .tc main_v5) = _
  after_results
  exact congrArg (fun A => shapeCast S64x1024x6 A shapeCasts_S65536x6_S64x1024x6)
    (Pipeline.withArrays_arr spec0 launch0.win.arr_inj c (V0 m c) (fun w => (dats m 0 c).arrAt w cfg0.N) 7)

/-- After the region, result `main_v6` is the region's output array 8 re-read as `[64, 1024, 6, 6]`. -/
theorem tail_main_v6 (c : Dev nD) : Pipeline.afterTail₀ cfgs (dats m) 0 (V0 m) [hostOps1] c main_v6
    = shapeCast S64x1024x6x6 ((dats m 0 c).arrAt 8 cfg0.N) shapeCasts_S65536x6x6_S64x1024x6x6 := by
  unfold Pipeline.afterTail₀
  show StableHlo.after hostOps1 _ (Proc.devRef .tc main_v6) = _
  after_results
  exact congrArg (fun A => shapeCast S64x1024x6x6 A shapeCasts_S65536x6x6_S64x1024x6x6)
    (Pipeline.withArrays_arr spec0 launch0.win.arr_inj c (V0 m c) (fun w => (dats m 0 c).arrAt w cfg0.N) 8)

/-- After the region, result `main_v7` is the region's output array 9 re-read as `[64, 1024, 6]`. -/
theorem tail_main_v7 (c : Dev nD) : Pipeline.afterTail₀ cfgs (dats m) 0 (V0 m) [hostOps1] c main_v7
    = shapeCast S64x1024x6 ((dats m 0 c).arrAt 9 cfg0.N) shapeCasts_S65536x6_S64x1024x6 := by
  unfold Pipeline.afterTail₀
  show StableHlo.after hostOps1 _ (Proc.devRef .tc main_v7) = _
  after_results
  exact congrArg (fun A => shapeCast S64x1024x6 A shapeCasts_S65536x6_S64x1024x6)
    (Pipeline.withArrays_arr spec0 launch0.win.arr_inj c (V0 m c) (fun w => (dats m 0 c).arrAt w cfg0.N) 9)

/-- After the region, result `main_v8` is the region's output array 10 re-read as `[64, 1024, 6]`. -/
theorem tail_main_v8 (c : Dev nD) : Pipeline.afterTail₀ cfgs (dats m) 0 (V0 m) [hostOps1] c main_v8
    = shapeCast S64x1024x6 ((dats m 0 c).arrAt 10 cfg0.N) shapeCasts_S65536x6_S64x1024x6 := by
  unfold Pipeline.afterTail₀
  show StableHlo.after hostOps1 _ (Proc.devRef .tc main_v8) = _
  after_results
  exact congrArg (fun A => shapeCast S64x1024x6 A shapeCasts_S65536x6_S64x1024x6)
    (Pipeline.withArrays_arr spec0 launch0.win.arr_inj c (V0 m c) (fun w => (dats m 0 c).arrAt w cfg0.N) 10)

/-! ## Re-reading the leading axis

Entry `(a, b)` of a `[64, 1024, …]` array and row `1024 a + b` of its `[65536, …]` re-reading are the same element:
both sit at the same row-major position. -/

/-- Row `1024 a + b` of the `[65536, n]` re-reading of a `[64, 1024, n]` array is its row `(a, b)`. -/
theorem flat_row {n : ℕ} (X : (⟨3, ![64, 1024, n]⟩ : Shape).Idx → EReal)
    (h : (⟨3, ![64, 1024, n]⟩ : Shape).ShapeCasts ⟨2, ![65536, n]⟩) (a : Fin 64) (b : Fin 1024) (j : Fin n) :
    shapeCast ⟨2, ![65536, n]⟩ X h (ix2 ⟨1024 * a.val + b.val, by omega⟩ j) = X (ix3 a b j) :=
  shapeCast_apply X h _ _ (by
    rw [Shape.rowMajor_val_three, Shape.rowMajor_val_two]
    show (a.val * 1024 + b.val) * n + j.val = (1024 * a.val + b.val) * n + j.val
    rw [Nat.mul_comm a.val 1024])

/-- Entry `(a, b, p)` of the `[64, 1024, n]` re-reading of a `[65536, n]` array is its entry `(1024 a + b, p)`. -/
theorem unflat3 {n : ℕ} (Y : (⟨2, ![65536, n]⟩ : Shape).Idx → EReal)
    (h : (⟨2, ![65536, n]⟩ : Shape).ShapeCasts ⟨3, ![64, 1024, n]⟩) (i : (⟨3, ![64, 1024, n]⟩ : Shape).Idx) :
    shapeCast ⟨3, ![64, 1024, n]⟩ Y h i
      = Y (ix2 ⟨1024 * (i 0).val + (i 1).val, by have h0 : (i 0).val < 64 := (i 0).isLt; have h1 : (i 1).val < 1024 := (i 1).isLt; omega⟩ ⟨(i 2).val, (i 2).isLt⟩) :=
  shapeCast_apply Y h _ _ (by
    rw [Shape.rowMajor_val_three, Shape.rowMajor_val_two]
    show (1024 * (i 0).val + (i 1).val) * n + (i 2).val = ((i 0).val * 1024 + (i 1).val) * n + (i 2).val
    rw [Nat.mul_comm (i 0).val 1024])

/-- Entry `(a, b, p, q)` of the `[64, 1024, n, k]` re-reading of a `[65536, n, k]` array is its entry `(1024 a + b, p, q)`. -/
theorem unflat4 {n k : ℕ} (Y : (⟨3, ![65536, n, k]⟩ : Shape).Idx → EReal)
    (h : (⟨3, ![65536, n, k]⟩ : Shape).ShapeCasts ⟨4, ![64, 1024, n, k]⟩) (i : (⟨4, ![64, 1024, n, k]⟩ : Shape).Idx) :
    shapeCast ⟨4, ![64, 1024, n, k]⟩ Y h i
      = Y (ix3 ⟨1024 * (i 0).val + (i 1).val, by have h0 : (i 0).val < 64 := (i 0).isLt; have h1 : (i 1).val < 1024 := (i 1).isLt; omega⟩ ⟨(i 2).val, (i 2).isLt⟩ ⟨(i 3).val, (i 3).isLt⟩) :=
  shapeCast_apply Y h _ _ (by
    rw [Shape.rowMajor_val_four, Shape.rowMajor_val_three]
    show ((1024 * (i 0).val + (i 1).val) * n + (i 2).val) * k + (i 3).val
      = (((i 0).val * 1024 + (i 1).val) * n + (i 2).val) * k + (i 3).val
    rw [Nat.mul_comm (i 0).val 1024])

/-- The rates of all 65536 rows, re-read as `[64, 1024, 6]`, are the rates of the rows of the input array. -/
theorem rate_reread (X : S64x1024x8.Idx → EReal) (w1 : S256x8.Idx → EReal) (w2 : S256x256.Idx → EReal)
    (w3 : S6x256.Idx → EReal) (b1 b2 : S256.Idx → EReal) (b3 : S6.Idx → EReal) :
    shapeCast S64x1024x6 (arrRate (shapeCast S65536x8 X shapeCasts_S64x1024x8_S65536x8) w1 w2 w3 b1 b2 b3)
        shapeCasts_S65536x6_S64x1024x6
      = Net.Rate w1 w2 w3 b1 b2 b3 X := by
  funext i
  refine (unflat3 _ _ i).trans ?_
  unfold arrRate Net.Rate Net.rowOf
  exact congrArg (fun x => Net.y w1 w2 w3 b1 b2 b3 x ⟨(i 2).val, (i 2).isLt⟩)
    (funext fun j => flat_row X shapeCasts_S64x1024x8_S65536x8 ⟨(i 0).val, (i 0).isLt⟩ ⟨(i 1).val, (i 1).isLt⟩ j)

/-- The state Jacobian of all rows, re-read as `[64, 1024, 6, 6]`, is that of the rows of the input array. -/
theorem state_reread (X : S64x1024x8.Idx → EReal) (w1 : S256x8.Idx → EReal) (w2 : S256x256.Idx → EReal)
    (w3 : S6x256.Idx → EReal) (b1 b2 : S256.Idx → EReal) :
    shapeCast S64x1024x6x6 (arrState (shapeCast S65536x8 X shapeCasts_S64x1024x8_S65536x8) w1 w2 w3 b1 b2)
        shapeCasts_S65536x6x6_S64x1024x6x6
      = Net.JacState w1 w2 w3 b1 b2 X := by
  funext i
  refine (unflat4 _ _ i).trans ?_
  unfold arrState Net.JacState Net.rowOf
  exact congrArg (fun x => Net.jac w1 w2 w3 b1 b2 x ⟨(i 2).val, (i 2).isLt⟩ (Net.ofState ⟨(i 3).val, (i 3).isLt⟩))
    (funext fun j => flat_row X shapeCasts_S64x1024x8_S65536x8 ⟨(i 0).val, (i 0).isLt⟩ ⟨(i 1).val, (i 1).isLt⟩ j)

/-- Column `j` of the Jacobian of all rows, re-read as `[64, 1024, 6]`, is that of the rows of the input array. -/
theorem col_reread (X : S64x1024x8.Idx → EReal) (w1 : S256x8.Idx → EReal) (w2 : S256x256.Idx → EReal)
    (w3 : S6x256.Idx → EReal) (b1 b2 : S256.Idx → EReal) (j : Fin 8) :
    shapeCast S64x1024x6 (arrCol (shapeCast S65536x8 X shapeCasts_S64x1024x8_S65536x8) w1 w2 w3 b1 b2 j)
        shapeCasts_S65536x6_S64x1024x6
      = Net.JacCol w1 w2 w3 b1 b2 X j := by
  funext i
  refine (unflat3 _ _ i).trans ?_
  unfold arrCol Net.JacCol Net.rowOf
  exact congrArg (fun x => Net.jac w1 w2 w3 b1 b2 x ⟨(i 2).val, (i 2).isLt⟩ j)
    (funext fun j' => flat_row X shapeCasts_S64x1024x8_S65536x8 ⟨(i 0).val, (i 0).isLt⟩ ⟨(i 1).val, (i 1).isLt⟩ j')

/-! ## The four results -/

/-- The rates. -/
theorem res_main_v5 (c : Dev nD) : Pipeline.afterTail₀ cfgs (dats m) 0 (V0 m) [hostOps1] c main_v5
    = Net.Rate (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (inputRows m c) := by
  rw [tail_main_v5, finalRate, V_rows, V_main_arg4, V_main_arg5, V_main_arg6, V_main_arg7, V_main_arg8, V_main_arg9]
  exact rate_reread _ _ _ _ _ _ _

/-- The Jacobian against the state entries. -/
theorem res_main_v6 (c : Dev nD) : Pipeline.afterTail₀ cfgs (dats m) 0 (V0 m) [hostOps1] c main_v6
    = Net.JacState (m ((c : Thread nD τ).loc main_arg4)) (m ((c : Thread nD τ).loc main_arg5)) (m ((c : Thread nD τ).loc main_arg6)) (m ((c : Thread nD τ).loc main_arg7)) (m ((c : Thread nD τ).loc main_arg8)) (inputRows m c) := by
  rw [tail_main_v6, finalState, V_rows, V_main_arg4, V_main_arg5, V_main_arg6, V_main_arg7, V_main_arg8]
  exact state_reread _ _ _ _ _ _

/-- The Jacobian against the strain rate. -/
theorem res_main_v7 (c : Dev nD) : Pipeline.afterTail₀ cfgs (dats m) 0 (V0 m) [hostOps1] c main_v7
    = Net.JacCol (m ((c : Thread nD τ).loc main_arg4)) (m ((c : Thread nD τ).loc main_arg5)) (m ((c : Thread nD τ).loc main_arg6)) (m ((c : Thread nD τ).loc main_arg7)) (m ((c : Thread nD τ).loc main_arg8)) (inputRows m c) 6 := by
  rw [tail_main_v7, finalRateCol, V_rows, V_main_arg4, V_main_arg5, V_main_arg6, V_main_arg7, V_main_arg8]
  exact col_reread _ _ _ _ _ _ _

/-- The Jacobian against the temperature. -/
theorem res_main_v8 (c : Dev nD) : Pipeline.afterTail₀ cfgs (dats m) 0 (V0 m) [hostOps1] c main_v8
    = Net.JacCol (m ((c : Thread nD τ).loc main_arg4)) (m ((c : Thread nD τ).loc main_arg5)) (m ((c : Thread nD τ).loc main_arg6)) (m ((c : Thread nD τ).loc main_arg7)) (m ((c : Thread nD τ).loc main_arg8)) (inputRows m c) 7 := by
  rw [tail_main_v8, finalTempCol, V_rows, V_main_arg4, V_main_arg5, V_main_arg6, V_main_arg7, V_main_arg8]
  exact col_reread _ _ _ _ _ _ _

/-! ## The run -/

/-- Every execution of the idealized kernel's @main terminates with the four results at the row-wise
    network and Jacobian of the input rows, and the arguments as launched. -/
theorem run : θ_run defs (onTc (τ := τ) (main (F := Ideal))) ⟨m, fun _ => 0, ρ⟩ fun r => ∀ c : Dev nD,
      r.2.mem ((c.tc : Thread nD τ).loc main_v5) = Net.Rate (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (inputRows m c)
      ∧ r.2.mem ((c.tc : Thread nD τ).loc main_v6) = Net.JacState (m ((c : Thread nD τ).loc main_arg4)) (m ((c : Thread nD τ).loc main_arg5)) (m ((c : Thread nD τ).loc main_arg6)) (m ((c : Thread nD τ).loc main_arg7)) (m ((c : Thread nD τ).loc main_arg8)) (inputRows m c)
      ∧ r.2.mem ((c.tc : Thread nD τ).loc main_v7) = Net.JacCol (m ((c : Thread nD τ).loc main_arg4)) (m ((c : Thread nD τ).loc main_arg5)) (m ((c : Thread nD τ).loc main_arg6)) (m ((c : Thread nD τ).loc main_arg7)) (m ((c : Thread nD τ).loc main_arg8)) (inputRows m c) 6
      ∧ r.2.mem ((c.tc : Thread nD τ).loc main_v8) = Net.JacCol (m ((c : Thread nD τ).loc main_arg4)) (m ((c : Thread nD τ).loc main_arg5)) (m ((c : Thread nD τ).loc main_arg6)) (m ((c : Thread nD τ).loc main_arg7)) (m ((c : Thread nD τ).loc main_arg8)) (inputRows m c) 7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v5 (Pipeline.mem_restRefs_of main_v5 (by decide) (by decide))).trans (res_main_v5 m c),
      ((h c).2 main_v6 (Pipeline.mem_restRefs_of main_v6 (by decide) (by decide))).trans (res_main_v6 m c),
      ((h c).2 main_v7 (Pipeline.mem_restRefs_of main_v7 (by decide) (by decide))).trans (res_main_v7 m c),
      ((h c).2 main_v8 (Pipeline.mem_restRefs_of main_v8 (by decide) (by decide))).trans (res_main_v8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c))),
      ((h c).1 6).trans (((dats m 0 c).arrAt_in 6 rfl _).trans ((A_eq m c 6).trans (V_main_arg9 m c)))⟩)
    (run_main m ρ)

end Cert.KernelIdeal.Region

end
-- ==== Proof.RefRun.lean ====
/-
  The reference program's run, read one host operation at a time: the generated run of the
  reference and its read-at-an-index lemmas are brought in here, and the four results are
  identified with the row-wise network and its Jacobian in the modules that import this one.
-/
import proofs.«163359_j55155970015481_1_alg».proof.Proof.Gen.ReferenceIdeal.Run
import proofs.«163359_j55155970015481_1_alg».proof.Proof.Gen.ReferenceIdeal.Read
-- ==== Proof.RefLayers.lean ====
/-
  The reference's forward pass read at an index: its two hidden layers' pre-activations, their
  indicators and rectified values, and the read-out, each as the row-wise network of the row of the
  concatenated input it belongs to. The concatenated input is carried as one array and never opened.
-/
import proofs.«163359_j55155970015481_1_alg».proof.Proof.RefRun
import proofs.«163359_j55155970015481_1_alg».proof.Proof.Net

noncomputable section

namespace Cert.RefSide

open Idealize.ShloMosaic Idealize.ShloMosaic.ValueIdx Cert.ReferenceIdeal Cert.ReferenceIdeal.Read

variable (x1 : (⟨S64x1024x6, .f32⟩ : BufTy).Contents (Elt Ideal)) (x2 x3 : (⟨S64x1024, .f32⟩ : BufTy).Contents (Elt Ideal))
  (x4 : (⟨S256x8, .f32⟩ : BufTy).Contents (Elt Ideal)) (x5 : (⟨S256x256, .f32⟩ : BufTy).Contents (Elt Ideal))
  (x6 : (⟨S6x256, .f32⟩ : BufTy).Contents (Elt Ideal)) (x7 x8 : (⟨S256, .f32⟩ : BufTy).Contents (Elt Ideal))
  (x9 : (⟨S6, .f32⟩ : BufTy).Contents (Elt Ideal))

/-- The concatenated input `[y, erate, T]`, one row of eight entries per `(a, b)`. -/
abbrev inp : (⟨3, ![64, 1024, 8]⟩ : Shape).Idx → EReal := val_main_v2 (F := Ideal) x1 x2 x3

/-- The first layer's pre-activation. -/
theorem pre1_at (a : Fin 64) (b : Fin 1024) (h : Fin 256) :
    val_main_v6 (F := Ideal) x1 x2 x3 x4 x7 (ix3 a b h) = Net.z1 x4 x7 (Net.rowOf (inp x1 x2 x3) a b) h := by
  -- the contraction reads the row (a, b) of the input and row h of the weights; the bias is read at h
  have el : ∀ k : Fin 8, lidx_main_v3 (ix3 a b h) k = ix3 a b k := fun k => funext fun d => by
    match d with | ⟨0, _⟩ => rfl | ⟨1, _⟩ => rfl | ⟨2, _⟩ => rfl
  have er : ∀ k : Fin 8, ridx_main_v3 (ix3 a b h) k = ix2 h k := fun k => funext fun d => by
    match d with | ⟨0, _⟩ => rfl | ⟨1, _⟩ => rfl
  have eb : idx_main_v4 (idx_main_v5 (ix3 a b h)) = ix1 h := funext fun d => by
    match d with | ⟨0, _⟩ => rfl
  rw [val_main_v6_apply, val_main_v3_apply, val_main_v5_apply, val_main_v4_apply, eb, Ideal.addf_def]
  unfold Net.z1 Net.rowOf
  congr 1
  exact Finset.sum_congr rfl fun k _ => by rw [el, er]

/-- The first layer's indicator. -/
theorem mask1_at (a : Fin 64) (b : Fin 1024) (h : Fin 256) :
    val_main_v19 (F := Ideal) x1 x2 x3 x4 x7 (ix3 a b h) = Net.s1 x4 x7 (Net.rowOf (inp x1 x2 x3) a b) h := by
  -- the comparison of the pre-activation against the zero constant, read as an unsigned integer
  rw [val_main_v19_apply, val_main_v18_apply, val_main_v17_apply, val_main_cst_apply, pre1_at]
  exact Net.uitofp_cmp _

/-- The rectified first layer is the pre-activation times its indicator. -/
theorem act1_at (a : Fin 64) (b : Fin 1024) (h : Fin 256) :
    val_main_v7 (F := Ideal) x1 x2 x3 x4 x7 (ix3 a b h)
      = Net.z1 x4 x7 (Net.rowOf (inp x1 x2 x3) a b) h * Net.s1 x4 x7 (Net.rowOf (inp x1 x2 x3) a b) h := by
  -- the maximum with the zero constant is the pre-activation times its indicator
  rw [val_main_v7_apply, val_main_call0_v0_apply, val_main_call0_cst_apply, pre1_at, Ideal.maximumf_def,
    Ideal.ofBits_def, Ideal.ofBits_zero_f32]
  exact (Net.mul_step _).symm

/-- The second layer's pre-activation. -/
theorem pre2_at (a : Fin 64) (b : Fin 1024) (h : Fin 256) :
    val_main_v11 (F := Ideal) x1 x2 x3 x4 x5 x7 x8 (ix3 a b h) = Net.z2 x4 x5 x7 x8 (Net.rowOf (inp x1 x2 x3) a b) h := by
  -- the contraction reads the rectified first layer of the row (a, b) and row h of the weights
  have el : ∀ k : Fin 256, lidx_main_v8 (ix3 a b h) k = ix3 a b k := fun k => funext fun d => by
    match d with | ⟨0, _⟩ => rfl | ⟨1, _⟩ => rfl | ⟨2, _⟩ => rfl
  have er : ∀ k : Fin 256, ridx_main_v8 (ix3 a b h) k = ix2 h k := fun k => funext fun d => by
    match d with | ⟨0, _⟩ => rfl | ⟨1, _⟩ => rfl
  have eb : idx_main_v9 (idx_main_v10 (ix3 a b h)) = ix1 h := funext fun d => by
    match d with | ⟨0, _⟩ => rfl
  rw [val_main_v11_apply, val_main_v8_apply, val_main_v10_apply, val_main_v9_apply, eb, Ideal.addf_def]
  unfold Net.z2
  congr 1
  exact Finset.sum_congr rfl fun k _ => by rw [el, er, act1_at]

/-- The second layer's indicator. -/
theorem mask2_at (a : Fin 64) (b : Fin 1024) (h : Fin 256) :
    val_main_v22 (F := Ideal) x1 x2 x3 x4 x5 x7 x8 (ix3 a b h) = Net.s2 x4 x5 x7 x8 (Net.rowOf (inp x1 x2 x3) a b) h := by
  -- the comparison of the pre-activation against the zero constant, read as an unsigned integer
  rw [val_main_v22_apply, val_main_v21_apply, val_main_v20_apply, val_main_cst_0_apply, pre2_at]
  exact Net.uitofp_cmp _

/-- The rectified second layer. -/
theorem act2_at (a : Fin 64) (b : Fin 1024) (h : Fin 256) :
    val_main_v12 (F := Ideal) x1 x2 x3 x4 x5 x7 x8 (ix3 a b h)
      = Net.z2 x4 x5 x7 x8 (Net.rowOf (inp x1 x2 x3) a b) h * Net.s2 x4 x5 x7 x8 (Net.rowOf (inp x1 x2 x3) a b) h := by
  -- the maximum with the zero constant is the pre-activation times its indicator
  rw [val_main_v12_apply, val_main_call1_v0_apply, val_main_call1_cst_apply, pre2_at, Ideal.maximumf_def,
    Ideal.ofBits_def, Ideal.ofBits_zero_f32]
  exact (Net.mul_step _).symm

/-- The reference's first result is the rates of every row. -/
theorem rate_eq :
    val_main_v16 (F := Ideal) x1 x2 x3 x4 x5 x6 x7 x8 x9 = Net.Rate x4 x5 x6 x7 x8 x9 (inp x1 x2 x3) := by
  -- at an index (a, b, c): the contraction reads the rectified second layer of the row (a, b) and row c of
  -- the read-out weights; the bias is read at c
  funext i
  have el : ∀ k : Fin 256, lidx_main_v13 i k = ix3 (⟨(i 0).val, (i 0).isLt⟩ : Fin 64) (⟨(i 1).val, (i 1).isLt⟩ : Fin 1024) k :=
    fun k => funext fun d => by
      match d with | ⟨0, _⟩ => rfl | ⟨1, _⟩ => rfl | ⟨2, _⟩ => rfl
  have er : ∀ k : Fin 256, ridx_main_v13 i k = ix2 (⟨(i 2).val, (i 2).isLt⟩ : Fin 6) k := fun k => funext fun d => by
    match d with | ⟨0, _⟩ => rfl | ⟨1, _⟩ => rfl
  have eb : idx_main_v14 (idx_main_v15 i) = ix1 (⟨(i 2).val, (i 2).isLt⟩ : Fin 6) := funext fun d => by
    match d with | ⟨0, _⟩ => rfl
  rw [val_main_v16_apply, val_main_v13_apply, val_main_v15_apply, val_main_v14_apply, eb, Ideal.addf_def]
  unfold Net.Rate Net.y
  congr 1
  exact Finset.sum_congr rfl fun k _ => by rw [el, er, act2_at]

end Cert.RefSide

end
-- ==== Proof.RefJac.lean ====
/-
  The reference's Jacobian read at an index: the read-out matrix masked by the second layer's
  indicator, carried through the second-layer weights, masked by the first layer's indicator, carried
  through the first-layer weights; then its three slices (the six state columns, the strain-rate
  column, the temperature column) as the row-wise Jacobian of the row they belong to.
-/
import proofs.«163359_j55155970015481_1_alg».proof.Proof.RefLayers

noncomputable section

namespace Cert.RefSide

open Idealize.ShloMosaic Idealize.ShloMosaic.ValueIdx Cert.ReferenceIdeal Cert.ReferenceIdeal.Read

variable (x1 : (⟨S64x1024x6, .f32⟩ : BufTy).Contents (Elt Ideal)) (x2 x3 : (⟨S64x1024, .f32⟩ : BufTy).Contents (Elt Ideal))
  (x4 : (⟨S256x8, .f32⟩ : BufTy).Contents (Elt Ideal)) (x5 : (⟨S256x256, .f32⟩ : BufTy).Contents (Elt Ideal))
  (x6 : (⟨S6x256, .f32⟩ : BufTy).Contents (Elt Ideal)) (x7 x8 : (⟨S256, .f32⟩ : BufTy).Contents (Elt Ideal))
  (x9 : (⟨S6, .f32⟩ : BufTy).Contents (Elt Ideal))

/-- The read-out matrix masked by the second layer's indicator, at an index. -/
private theorem jA_at (a : Fin 64) (b : Fin 1024) (i : Fin 6) (h : Fin 256) :
    val_main_v27 (F := Ideal) x1 x2 x3 x4 x5 x6 x7 x8 (ix4 a b i h)
      = Net.jA x4 x5 x6 x7 x8 (Net.rowOf (inp x1 x2 x3) a b) i h := by
  rw [val_main_v27_apply, val_main_v25_apply, val_main_v24_apply, val_main_v26_apply, val_main_v23_apply]
  have e1 : idx_main_v24 (idx_main_v25 (ix4 a b i h)) = ix2 i h := funext fun d => Fin.ext (by
    match d with
    | ⟨0, _⟩ => rfl
    | ⟨1, _⟩ => rfl)
  have e2 : idx_main_v23 (idx_main_v26 (ix4 a b i h)) = ix3 a b h := funext fun d => Fin.ext (by
    match d with
    | ⟨0, _⟩ => rfl
    | ⟨1, _⟩ => rfl
    | ⟨2, _⟩ => rfl)
  rw [e1, e2, mask2_at]
  rfl

/-- That product carried through the second-layer weights and masked by the first layer's indicator. -/
private theorem jB_at (a : Fin 64) (b : Fin 1024) (i : Fin 6) (h : Fin 256) :
    val_main_v31 (F := Ideal) x1 x2 x3 x4 x5 x6 x7 x8 (ix4 a b i h)
      = Net.jB x4 x5 x6 x7 x8 (Net.rowOf (inp x1 x2 x3) a b) i h := by
  rw [val_main_v31_apply, val_main_v28_apply, val_main_v30_apply, val_main_v29_apply]
  have e1 : idx_main_v29 (idx_main_v30 (ix4 a b i h)) = ix3 a b h := funext fun d => Fin.ext (by
    match d with
    | ⟨0, _⟩ => rfl
    | ⟨1, _⟩ => rfl
    | ⟨2, _⟩ => rfl)
  rw [e1, mask1_at]
  unfold Net.jB
  show (∑ k : Fin 256, _) * _ = _
  congr 1
  refine Finset.sum_congr rfl fun k _ => ?_
  have e2 : lidx_main_v28 (ix4 a b i h) k = ix4 a b i k := funext fun d => Fin.ext (by
    match d with
    | ⟨0, _⟩ => rfl
    | ⟨1, _⟩ => rfl
    | ⟨2, _⟩ => rfl
    | ⟨3, _⟩ => rfl)
  have e3 : ridx_main_v28 (ix4 a b i h) k = ix2 k h := funext fun d => Fin.ext (by
    match d with
    | ⟨0, _⟩ => rfl
    | ⟨1, _⟩ => rfl)
  rw [e2, e3, jA_at]

/-- The full Jacobian `[64, 1024, 6, 8]` at an index. -/
theorem jac_at (a : Fin 64) (b : Fin 1024) (i : Fin 6) (j : Fin 8) :
    val_main_v32 (F := Ideal) x1 x2 x3 x4 x5 x6 x7 x8 (ix4 a b i j)
      = Net.jac x4 x5 x6 x7 x8 (Net.rowOf (inp x1 x2 x3) a b) i j := by
  rw [val_main_v32_apply]
  unfold Net.jac
  refine Finset.sum_congr rfl fun k _ => ?_
  have e1 : lidx_main_v32 (ix4 a b i j) k = ix4 a b i k := funext fun d => Fin.ext (by
    match d with
    | ⟨0, _⟩ => rfl
    | ⟨1, _⟩ => rfl
    | ⟨2, _⟩ => rfl
    | ⟨3, _⟩ => rfl)
  have e2 : ridx_main_v32 (ix4 a b i j) k = ix2 k j := funext fun d => Fin.ext (by
    match d with
    | ⟨0, _⟩ => rfl
    | ⟨1, _⟩ => rfl)
  rw [e1, e2, jB_at]

/-- The reference's second result: the Jacobian against the six state entries. -/
theorem jacState_eq :
    val_main_v33 (F := Ideal) x1 x2 x3 x4 x5 x6 x7 x8 = Net.JacState x4 x5 x6 x7 x8 (inp x1 x2 x3) := by
  funext i
  rw [val_main_v33_apply]
  have e : idx_main_v33 i = ix4 (⟨(i 0).val, (i 0).isLt⟩ : Fin 64) (⟨(i 1).val, (i 1).isLt⟩ : Fin 1024)
      (⟨(i 2).val, (i 2).isLt⟩ : Fin 6) (Net.ofState ⟨(i 3).val, (i 3).isLt⟩) := funext fun d => Fin.ext (by
    match d with
    | ⟨0, _⟩ => rfl
    | ⟨1, _⟩ => rfl
    | ⟨2, _⟩ => rfl
    | ⟨3, _⟩ => rfl)
  rw [e, jac_at]
  rfl

/-- The reference's third result: the Jacobian against the strain rate (input entry 6). -/
theorem jacRate_eq :
    val_main_v35 (F := Ideal) x1 x2 x3 x4 x5 x6 x7 x8 = Net.JacCol x4 x5 x6 x7 x8 (inp x1 x2 x3) 6 := by
  funext i
  rw [val_main_v35_apply, val_main_v34_apply]
  have h0 : (i 0).val < 64 := (i 0).isLt
  have h1 : (i 1).val < 1024 := (i 1).isLt
  have h2 : (i 2).val < 6 := (i 2).isLt
  have e : idx_main_v34 (idx_main_v35 i) = ix4 (⟨(i 0).val, (i 0).isLt⟩ : Fin 64) (⟨(i 1).val, (i 1).isLt⟩ : Fin 1024)
      (⟨(i 2).val, (i 2).isLt⟩ : Fin 6) (6 : Fin 8) := funext fun d => Fin.ext (by
    match d with
    | ⟨0, _⟩ => show (((i 0).val * 1024 + (i 1).val) * 6 + (i 2).val) / 6144 = (i 0).val; omega
    | ⟨1, _⟩ => show (((i 0).val * 1024 + (i 1).val) * 6 + (i 2).val) / 6 % 1024 = (i 1).val; omega
    | ⟨2, _⟩ => show (((i 0).val * 1024 + (i 1).val) * 6 + (i 2).val) / 1 % 6 = (i 2).val; omega
    | ⟨3, _⟩ => rfl)
  rw [e, jac_at]
  rfl

/-- The reference's fourth result: the Jacobian against the temperature (input entry 7). -/
theorem jacTemp_eq :
    val_main_v37 (F := Ideal) x1 x2 x3 x4 x5 x6 x7 x8 = Net.JacCol x4 x5 x6 x7 x8 (inp x1 x2 x3) 7 := by
  funext i
  rw [val_main_v37_apply, val_main_v36_apply]
  have h0 : (i 0).val < 64 := (i 0).isLt
  have h1 : (i 1).val < 1024 := (i 1).isLt
  have h2 : (i 2).val < 6 := (i 2).isLt
  have e : idx_main_v36 (idx_main_v37 i) = ix4 (⟨(i 0).val, (i 0).isLt⟩ : Fin 64) (⟨(i 1).val, (i 1).isLt⟩ : Fin 1024)
      (⟨(i 2).val, (i 2).isLt⟩ : Fin 6) (7 : Fin 8) := funext fun d => Fin.ext (by
    match d with
    | ⟨0, _⟩ => show (((i 0).val * 1024 + (i 1).val) * 6 + (i 2).val) / 6144 = (i 0).val; omega
    | ⟨1, _⟩ => show (((i 0).val * 1024 + (i 1).val) * 6 + (i 2).val) / 6 % 1024 = (i 1).val; omega
    | ⟨2, _⟩ => show (((i 0).val * 1024 + (i 1).val) * 6 + (i 2).val) / 1 % 6 = (i 2).val; omega
    | ⟨3, _⟩ => rfl)
  rw [e, jac_at]
  rfl

end Cert.RefSide

end
-- ==== Proof.lean ====
/-
  The certificate of a three-layer rectifier network and its analytic Jacobian.

  Both programs take the state `y` `[64, 1024, 6]`, the strain rate and the temperature `[64, 1024]`,
  and the weights and biases of two hidden layers of width 256 and a read-out of width 6, and return
  the rates `[64, 1024, 6]`, the Jacobian of the rates against the state `[64, 1024, 6, 6]`, and its
  columns against the strain rate and the temperature `[64, 1024, 6]`. The kernel works on blocks of
  1024 rows of the `[65536, 8]` re-reading of the joined inputs and rectifies by multiplying a
  pre-activation by its own indicator; the reference works on the `[64, 1024, 8]` array and rectifies by a
  maximum with zero. Over the extended reals both are one row-wise function (`Cert.Net`): the product
  of a value with its indicator is its positive part at every extended real, every sum is over the
  same index with the same factors in the same order, and a reshape only renames rows. No law used
  needs the inputs finite, so the precondition is never opened.

  The frames: the kernel's two programs by the run of their one region between the host lines
  (`Region.frame`, the same text at both float instances); the reference's by its run. The idealization
  rewrote nothing, so `preserves` is trivial.
-/
import proofs.«163359_j55155970015481_1_alg».proof.Defs
import proofs.«163359_j55155970015481_1_alg».proof.Proof.Gen.Kernel
import proofs.«163359_j55155970015481_1_alg».proof.Proof.Gen.KernelIdeal
import proofs.«163359_j55155970015481_1_alg».proof.Proof.Gen.ReferenceIdeal
import proofs.«163359_j55155970015481_1_alg».proof.Proof.Gen.Pre_finite_inputs
import proofs.«163359_j55155970015481_1_alg».proof.Proof.KernelFrame
import proofs.«163359_j55155970015481_1_alg».proof.Proof.KernelIdealRun
import proofs.«163359_j55155970015481_1_alg».proof.Proof.RefJac
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to its end, faults nowhere and leaves its arguments as launched. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- So does the reference: its run, the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the arguments both programs end with the rates, the state Jacobian and
    the two Jacobian columns of the rows of the joined input: the kernel by its run read back, the
    reference by its run read one operation at a time, both onto the same row-wise function. -/
theorem algebraic : Cert.algebraic_KernelIdeal_ReferenceIdeal := by
  intro m ρ m' ρ' _ hagree
  refine ⟨fun c => Cert.Net.Rate (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.KernelIdeal.Region.inputRows m c),
    fun c => Cert.Net.JacState (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.KernelIdeal.Region.inputRows m c),
    fun c => Cert.Net.JacCol (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.KernelIdeal.Region.inputRows m c) 6,
    fun c => Cert.Net.JacCol (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.KernelIdeal.Region.inputRows m c) 7,
    Cert.KernelIdeal.Region.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨-, a1, a2, a3, a4, a5, a6, a7, a8, a9⟩ := hagree c
  refine ⟨h0.trans ?_, h1.trans ?_, h2.trans ?_, h3.trans ?_, hargs⟩
  · rw [a1, a2, a3, a4, a5, a6, a7, a8, a9]
    exact (Cert.ReferenceIdeal.Read.val_main_v16_eq _ _ _ _ _ _ _ _ _).trans (Cert.RefSide.rate_eq _ _ _ _ _ _ _ _ _)
  · rw [a1, a2, a3, a4, a5, a6, a7, a8]
    exact (Cert.ReferenceIdeal.Read.val_main_v33_eq _ _ _ _ _ _ _ _).trans (Cert.RefSide.jacState_eq _ _ _ _ _ _ _ _)
  · rw [a1, a2, a3, a4, a5, a6, a7, a8]
    exact (Cert.ReferenceIdeal.Read.val_main_v35_eq _ _ _ _ _ _ _ _).trans (Cert.RefSide.jacRate_eq _ _ _ _ _ _ _ _)
  · rw [a1, a2, a3, a4, a5, a6, a7, a8]
    exact (Cert.ReferenceIdeal.Read.val_main_v37_eq _ _ _ _ _ _ _ _).trans (Cert.RefSide.jacTemp_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
